-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128x128 : Shape := ⟨2, ![128, 128]⟩
abbrev S4096x1 : Shape := ⟨2, ![4096, 1]⟩
abbrev S4096x4096 : Shape := ⟨2, ![4096, 4096]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S4096x1 : S_.BroadcastsInDim S4096x1 (![] : Fin 0 → Fin S4096x1.rank)
  reducesTo_S4096x1_S_d0_1 : S4096x1.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4096x128 .f32) (main_arg1 : FVec F S128x128 .f32) (main_arg2 : FVec F S4096x1 .f32) (main_arg3 : FVec F S4096x4096 .f32) (main_arg4 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x128 : Shape := ⟨2, ![4096, 128]⟩
abbrev S128x128 : Shape := ⟨2, ![128, 128]⟩
abbrev S4096x1 : Shape := ⟨2, ![4096, 1]⟩
abbrev S4096x4096 : Shape := ⟨2, ![4096, 4096]⟩
abbrev S128 : Shape := ⟨1, ![128]⟩
abbrev S0 : Shape := ⟨1, ![0]⟩
abbrev S_ : Shape := ⟨0, ![]⟩
abbrev S1x128 : Shape := ⟨2, ![1, 128]⟩
abbrev S512x2048 : Shape := ⟨2, ![512, 2048]⟩
abbrev S512x1 : Shape := ⟨2, ![512, 1]⟩
abbrev S512x128 : Shape := ⟨2, ![512, 128]⟩
abbrev S2048x128 : Shape := ⟨2, ![2048, 128]⟩

abbrev nBuf : Space → Nat
  | .hbm => 15
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S4096x1, .f32⟩
  | .hbm, ⟨3, _⟩ => ⟨S4096x4096, .f32⟩
  | .hbm, ⟨4, _⟩ => ⟨S128, .f32⟩
  | .hbm, ⟨5, _⟩ => ⟨S0, .i32⟩
  | .hbm, ⟨6, _⟩ => ⟨S0, .i32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S_, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S4096x1, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x1, .f32⟩
  | .local _ .vmem, ⟨8, _⟩ => ⟨S512x1, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S4096x128, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  hz_S0 : S0.numel = 0
  bcast_S_S128x128 : S_.BroadcastsInDim S128x128 (![] : Fin 0 → Fin S128x128.rank)
  bcast_S_S1x128 : S_.BroadcastsInDim S1x128 (![] : Fin 0 → Fin S1x128.rank)
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x1_S4096x1_0_0 : ∀ a, (![0, 0] : Fin 2 → Nat) a + S4096x1.size a ≤ S4096x1.size a
  h_S4096x1 : 0 < S4096x1.numel
  broadcasts_S4096x1_S4096x128 : S4096x1.Broadcasts S4096x128
  bitsLt_bf16_f32 : FTy.bits .bf16 < FTy.bits .f32
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S512x2048_S512x2048_0_0 : ∀ a, (![0, 0] : Fin 2 → Nat) a + S512x2048.size a ≤ S512x2048.size a
  h_S512x2048 : 0 < S512x2048.numel
  inb_S4096x128_S2048x128_0_0 : ∀ a, (![0, 0] : Fin 2 → Nat) a + S2048x128.size a ≤ S4096x128.size a
  h_S2048x128 : 0 < S2048x128.numel
  inb_S4096x128_S2048x128_2048_0 : ∀ a, (![2048, 0] : Fin 2 → Nat) a + S2048x128.size a ≤ S4096x128.size a
  inb_S512x1_S512x1_0_0 : ∀ a, (![0, 0] : Fin 2 → Nat) a + S512x1.size a ≤ S512x1.size a
  h_S512x1 : 0 < S512x1.numel
  broadcasts_S512x1_S512x128 : S512x1.Broadcasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  scatter_S128x128_S0_S128x128_01_n_n_0_wf : ScatterDims.WF S128x128 S0 S128x128 [0, 1] [] [] 0
  scatter_S1x128_S0_S1x128_01_n_n_0_wf : ScatterDims.WF S1x128 S0 S1x128 [0, 1] [] [] 0
  dot_S4096x128_S128x128_S4096x128_1_0_0_1_n_n_wf : DotDims.WF S4096x128 S128x128 S4096x128 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4096x1.size a
  hwx0_2 : ∀ i : grid0.Coords, EltTy.bits .f32 = 32 ∨ (Rect.block (s := S4096x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .f32 = 32 ∨ (Rect.block (s := S4096x4096) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x4096.size a
  hwx0_4 : ∀ i : grid0.Coords, EltTy.bits .f32 = 32 ∨ (Rect.block (s := S4096x4096) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S4096x128.size a
  hwx0_7 : ∀ i : grid0.Coords, EltTy.bits .f32 = 32 ∨ (Rect.block (s := S4096x128) S512x128.size (cc0_transform_7 i) (hinb0_7 i)).WholeWords (EltTy.packing .f32)

variable [Facts₀]

def scatter_S128x128_S0_S128x128_01_n_n_0 : ScatterDims S128x128 S0 S128x128 where
  updateWindowDims := [0, 1]
  insertedWindowDims := []
  scatterDimsToOperandDims := []
  indexVectorDim := 0
  wf := scatter_S128x128_S0_S128x128_01_n_n_0_wf
def scatter_S1x128_S0_S1x128_01_n_n_0 : ScatterDims S1x128 S0 S1x128 where
  updateWindowDims := [0, 1]
  insertedWindowDims := []
  scatterDimsToOperandDims := []
  indexVectorDim := 0
  wf := scatter_S1x128_S0_S1x128_01_n_n_0_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x128 : Shape := ⟨2, ![4096, 128]⟩
abbrev S128x128 : Shape := ⟨2, ![128, 128]⟩
abbrev S4096x1 : Shape := ⟨2, ![4096, 1]⟩
abbrev S4096x4096 : Shape := ⟨2, ![4096, 4096]⟩
abbrev S128 : Shape := ⟨1, ![128]⟩
abbrev S0 : Shape := ⟨1, ![0]⟩
abbrev S1x4096 : Shape := ⟨2, ![1, 4096]⟩
abbrev S_ : Shape := ⟨0, ![]⟩
abbrev S1x128 : Shape := ⟨2, ![1, 128]⟩

abbrev nBuf : Space → Nat
  | .hbm => 29
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S4096x1, .f32⟩
  | .hbm, ⟨3, _⟩ => ⟨S4096x4096, .f32⟩
  | .hbm, ⟨4, _⟩ => ⟨S128, .f32⟩
  | .hbm, ⟨5, _⟩ => ⟨S0, .i32⟩
  | .hbm, ⟨6, _⟩ => ⟨S0, .i32⟩
  | .hbm, ⟨7, _⟩ => ⟨S0, .i32⟩
  | .hbm, ⟨8, _⟩ => ⟨S0, .i32⟩
  | .hbm, ⟨9, _⟩ => ⟨S4096x4096, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S_, .f32⟩
  | .hbm, ⟨22, _⟩ => ⟨S4096x128, .f32⟩
  | .hbm, ⟨23, _⟩ => ⟨S4096x128, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x128, .f32⟩
  | .hbm, ⟨28, _⟩ => ⟨S4096x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 32], ![false, false]⟩

def k1_cond2 (i : grid1.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  hz_S0 : S0.numel = 0
  bcast_S4096x1_S4096x4096_0_1 : S4096x1.BroadcastsInDim S4096x4096 (![0, 1] : Fin 2 → Fin S4096x4096.rank)
  shapeCasts_S4096x1_S1x4096 : S4096x1.ShapeCasts S1x4096
  bcast_S1x4096_S4096x4096_0_1 : S1x4096.BroadcastsInDim S4096x4096 (![0, 1] : Fin 2 → Fin S4096x4096.rank)
  bcast_S_S128x128 : S_.BroadcastsInDim S128x128 (![] : Fin 0 → Fin S128x128.rank)
  bcast_S_S1x128 : S_.BroadcastsInDim S1x128 (![] : Fin 0 → Fin S1x128.rank)
  shapeCasts_S128_S1x128 : S128.ShapeCasts S1x128
  bcast_S_S4096x128 : S_.BroadcastsInDim S4096x128 (![] : Fin 0 → Fin S4096x128.rank)
  bcast_S_S4096x4096 : S_.BroadcastsInDim S4096x4096 (![] : Fin 0 → Fin S4096x4096.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  scatter_S128x128_S0_S128x128_01_n_n_0_wf : ScatterDims.WF S128x128 S0 S128x128 [0, 1] [] [] 0
  scatter_S1x128_S0_S1x128_01_n_n_0_wf : ScatterDims.WF S1x128 S0 S1x128 [0, 1] [] [] 0
  scatter_S4096x128_S0_S4096x128_01_n_n_0_wf : ScatterDims.WF S4096x128 S0 S4096x128 [0, 1] [] [] 0
  scatter_S4096x4096_S0_S4096x4096_01_n_n_0_wf : ScatterDims.WF S4096x4096 S0 S4096x4096 [0, 1] [] [] 0
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S4096x128.size a
  hwx0_2 : ∀ i : grid0.Coords, EltTy.bits .f32 = 32 ∨ (Rect.block (s := S4096x128) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S4096x4096.size a
  hwx1_0 : ∀ i : grid1.Coords, EltTy.bits .f32 = 32 ∨ (Rect.block (s := S4096x4096) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S4096x128.size a
  hwx1_1 : ∀ i : grid1.Coords, EltTy.bits .f32 = 32 ∨ (Rect.block (s := S4096x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S4096x128.size a
  hwx1_3 : ∀ i : grid1.Coords, EltTy.bits .f32 = 32 ∨ (Rect.block (s := S4096x128) S128x128.size (cc1_transform_3 i) (hinb1_3 i)).WholeWords (EltTy.packing .f32)

variable [Facts₀]

def scatter_S128x128_S0_S128x128_01_n_n_0 : ScatterDims S128x128 S0 S128x128 where
  updateWindowDims := [0, 1]
  insertedWindowDims := []
  scatterDimsToOperandDims := []
  indexVectorDim := 0
  wf := scatter_S128x128_S0_S128x128_01_n_n_0_wf
def scatter_S1x128_S0_S1x128_01_n_n_0 : ScatterDims S1x128 S0 S1x128 where
  updateWindowDims := [0, 1]
  insertedWindowDims := []
  scatterDimsToOperandDims := []
  indexVectorDim := 0
  wf := scatter_S1x128_S0_S1x128_01_n_n_0_wf
def scatter_S4096x128_S0_S4096x128_01_n_n_0 : ScatterDims S4096x128 S0 S4096x128 where
  updateWindowDims := [0, 1]
  insertedWindowDims := []
  scatterDimsToOperandDims := []
  indexVectorDim := 0
  wf := scatter_S4096x128_S0_S4096x128_01_n_n_0_wf
def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v11) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.BCommon.lean ====
/-
  The one-launch graph-convolution program: what its launch and its body's runs are stated over.

  @main pads the weights and the bias (two scatters whose window is the whole array) and then runs one
  region of 8 grid points. Point `t` handles rows `512 t … 512 t + 511` of the adjacency. The features, the
  padded weights, the normalisation column and the bias row are staged once (their blocks are the whole
  arrays); the adjacency is staged twice per point, as its left and its right half of the columns; the
  normalisation is staged a second time as the point's 512 rows. A scratch array holds the scaled
  transformed features: the body writes all of it at the first point and only reads it afterwards.
-/
import proofs.«113051_g2000303721575557_pallasbulk_376_15_alg».proof.Proof.Gen.Kernel.Launch
import proofs.«113051_g2000303721575557_pallasbulk_376_15_alg».proof.Proof.Gen.Kernel.Skeleton
import proofs.«113051_g2000303721575557_pallasbulk_376_15_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh fun c => main_chain c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The branch's condition from the grid coordinate: "this is the first point". -/
abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (by decide +kernel : ∀ t : Fin grid0.N, cond0 (grid0.coords t) ↔ t.val = 0)

/-! ## The staging memrefs at a point, and the scratch -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)

/-- The scratch array: a whole scoped buffer of the kernel's own. -/
abbrev scM : Memref sig .tc .vmem S4096x128 .bf16 := Memref.whole cc0_scratch0
/-- One staging buffer of the output window, through which its contents are stated. -/
abbrev VO : View sig .tc .vmem S512x128 .f32 := (Memref.whole cc0_stg7_0 : Memref sig .tc .vmem S512x128 .f32).view
/-- The scratch as a view. -/
abbrev VS : View sig .tc .vmem S4096x128 .bf16 := scM.view

/-- The region's own invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.BRunA.lean ====
/-
  The body at the first point, run whole: it loads the features, the weights and the normalisation column,
  stores their scaled product into all of the scratch, then loads the two halves of the adjacency rows, the
  two halves of the scratch it has just written, the rows' normalisation and the bias, and stores the point's
  512 output rows.
-/
import proofs.«113051_g2000303721575557_pallasbulk_376_15_alg».proof.Proof.BCommon

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

set_option maxHeartbeats 1000000 in
/-- What the body's stores leave in the output's staging buffer and in the scratch at the first point, as pieces,
    with the proof that from the inputs' buffers at their contents, the output's and the scratch at anything, the
    body runs to the continuation holding the inputs' as they were and the other two with the pieces written. -/
noncomputable def kernelRunA (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i)
    (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) :
    Σ' (L7 : List (View.Piece (Elt F) S512x128 .f32)), { LS : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS

end Cert.Kernel.Hand

end
-- ==== Proof.BRunB.lean ====
/-
  The body at a later point, run whole: the branch is not taken; it loads the two halves of the adjacency rows,
  the two halves of the scratch (which holds what the first point wrote), the rows' normalisation and the
  bias, and stores the point's 512 output rows. The scratch is only read.
-/
import proofs.«113051_g2000303721575557_pallasbulk_376_15_alg».proof.Proof.BCommon

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

set_option maxHeartbeats 1000000 in
/-- What the body's store leaves in the output's staging buffer at a later point, as pieces, with the proof that
    from the inputs' buffers and the scratch at their contents and the output's at anything, the body runs to the
    continuation holding the inputs' and the scratch as they were and the output's with the pieces written. -/
noncomputable def kernelRunB (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : ¬cond0 i)
    (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (xs : Vec F S4096x128 .bf16) :
    { L7 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; isplitr; · ipureintro; exact harg9.read_unread _
    iexact HS

end Cert.Kernel.Hand

end
-- ==== Proof.BFrame.lean ====
/-
  The one-launch program's region, point by point: what each point leaves in the output's staging buffer and in the
  scratch, the proof data, and the body obligation.

  The scratch is written once, at the first point, with the scaled transformed features computed from the three
  whole-array blocks; every later point finds it as the first point left it. So the invariant between points is:
  before the first point the scratch at anything; from then on the scratch at that one array. The output block of
  point `t` is the body's store read back: at the first point it is computed from the scratch as just written, at a
  later point from the scratch as found.

  The normalisation column and the adjacency are each handed to the region through two windows; each of the two
  windows holds half of the array's share, which is all a window that only reads needs.
-/
import proofs.«113051_g2000303721575557_pallasbulk_376_15_alg».proof.Proof.BRunA
import proofs.«113051_g2000303721575557_pallasbulk_376_15_alg».proof.Proof.BRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores' pieces cover their buffers -/

theorem coverA7 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (y : S512x128.Idx) :
    ∃ pc ∈ (kernelRunA c i arg1 harg1 arg2 harg2 arg3 harg3 arg4 harg4 arg5 harg5 arg6 harg6 arg7 harg7 arg8 harg8 arg9 harg9 hc x0 x1 x2 x3 x4 x5 x6).1, y ∈ pc.1.set :=
  View.cover_of_tiledL (kernelRunA c i arg1 harg1 arg2 harg2 arg3 harg3 arg4 harg4 arg5 harg5 arg6 harg6 arg7 harg7 arg8 harg8 arg9 harg9 hc x0 x1 x2 x3 x4 x5 x6).1 S512x128.size (by sl_kernel_rfl) y

theorem coverAS (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (y : S4096x128.Idx) :
    ∃ pc ∈ (kernelRunA c i arg1 harg1 arg2 harg2 arg3 harg3 arg4 harg4 arg5 harg5 arg6 harg6 arg7 harg7 arg8 harg8 arg9 harg9 hc x0 x1 x2 x3 x4 x5 x6).2.1, y ∈ pc.1.set :=
  View.cover_of_tiledL (kernelRunA c i arg1 harg1 arg2 harg2 arg3 harg3 arg4 harg4 arg5 harg5 arg6 harg6 arg7 harg7 arg8 harg8 arg9 harg9 hc x0 x1 x2 x3 x4 x5 x6).2.1 S4096x128.size (by sl_kernel_rfl) y

theorem coverB7 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : ¬cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (xs : Vec F S4096x128 .bf16) (y : S512x128.Idx) :
    ∃ pc ∈ (kernelRunB c i arg1 harg1 arg2 harg2 arg3 harg3 arg4 harg4 arg5 harg5 arg6 harg6 arg7 harg7 arg8 harg8 arg9 harg9 hc x0 x1 x2 x3 x4 x5 x6 xs).1, y ∈ pc.1.set :=
  View.cover_of_tiledL (kernelRunB c i arg1 harg1 arg2 harg2 arg3 harg3 arg4 harg4 arg5 harg5 arg6 harg6 arg7 harg7 arg8 harg8 arg9 harg9 hc x0 x1 x2 x3 x4 x5 x6 xs).1 S512x128.size (by sl_kernel_rfl) y

/-- What the first point leaves in the output's staging buffer: its pieces read back. -/
def outA7 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) : Vec F S512x128 .f32 :=
  VO.read (Elt F) (VO.writes (Elt F) VO.junk (kernelRunA c i arg1 harg1 arg2 harg2 arg3 harg3 arg4 harg4 arg5 harg5 arg6 harg6 arg7 harg7 arg8 harg8 arg9 harg9 hc x0 x1 x2 x3 x4 x5 x6).1)

/-- What the first point leaves in the scratch: its pieces read back. -/
def outAS (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) : Vec F S4096x128 .bf16 :=
  VS.read (Elt F) (VS.writes (Elt F) VS.junk (kernelRunA c i arg1 harg1 arg2 harg2 arg3 harg3 arg4 harg4 arg5 harg5 arg6 harg6 arg7 harg7 arg8 harg8 arg9 harg9 hc x0 x1 x2 x3 x4 x5 x6).2.1)

/-- What a later point leaves in the output's staging buffer, the scratch holding `xs`: its pieces read back. -/
def outB7 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : ¬cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (xs : Vec F S4096x128 .bf16) : Vec F S512x128 .f32 :=
  VO.read (Elt F) (VO.writes (Elt F) VO.junk (kernelRunB c i arg1 harg1 arg2 harg2 arg3 harg3 arg4 harg4 arg5 harg5 arg6 harg6 arg7 harg7 arg8 harg8 arg9 harg9 hc x0 x1 x2 x3 x4 x5 x6 xs).1)

/-! ## Point by point -/

/-- The scratch from the first point on: what the first point stores, from the whole-array blocks. -/
def hwS (c : Dev nD) : Vec F S4096x128 .bf16 :=
  outAS c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM (Memref.isWhole_whole _) ((hcond0 t0_0).mpr rfl) (iblk m c 0 t0_0) (iblk m c 1 t0_0) (iblk m c 2 t0_0) (iblk m c 3 t0_0) (iblk m c 4 t0_0) (iblk m c 5 t0_0) (iblk m c 6 t0_0)

/-- What point `t` leaves in the output's staging buffer. -/
def out7 (c : Dev nD) (t : Fin cfg0.N) : Vec F S512x128 .f32 :=
  if h : t.val = 0 then outA7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t)
  else outB7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (hwS m c)

theorem out7_first (c : Dev nD) (t : Fin cfg0.N) (h : t.val = 0) :
    out7 m c t = outA7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t) := dif_pos h

theorem out7_later (c : Dev nD) (t : Fin cfg0.N) (h : ¬t.val = 0) :
    out7 m c t = outB7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (hwS m c) := dif_neg h

/-- The invariant before position `n`: before the first point the scoped rest and the generator register at anything;
    afterwards the scratch at what the first point stored. -/
def PhiS (c : Dev nD) : ℕ → sProp 𝕄
  | 0 => Pipeline.ΦA spec0 c
  | _ + 1 => iprop(owns (c : Thread nD τ) scM fullShare (hwS m c) ∗ (∃ r, prngReg c r))

theorem PhiS_pos (c : Dev nD) (n : ℕ) (hn : n ≠ 0) :
    PhiS m c n = iprop(owns (c : Thread nD τ) scM fullShare (hwS m c) ∗ (∃ r, prngReg c r)) := by
  cases n with
  | zero => exact absurd rfl hn
  | succ n => rfl

/-! ## The proof data -/

/-- The arrays as the region finds them; after the body each input's buffer at its block and the output's at `out7`;
    the invariant `PhiS`; the two windows on the normalisation column, and the two on the adjacency, each at half of
    the array's share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
  Φ t := PhiS m c t.val
  q w := match w with
    | ⟨0, _⟩ => fullShare
    | ⟨1, _⟩ => fullShare
    | ⟨2, _⟩ => fullShare.left
    | ⟨3, _⟩ => fullShare.left
    | ⟨4, _⟩ => fullShare.right
    | ⟨5, _⟩ => fullShare.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

end Cert.Kernel.Hand

end
-- ==== Proof.BBody.lean ====
/-
  The body obligation of the one-launch program's region: at every grid point, from the invariant and the windows'
  current staging buffers as the pipeline hands them over, the kernel body runs to the invariant of the next point and
  the buffers as the proof data say it leaves them. At the first point the whole-body run with the branch taken applies
  (the scratch is found at anything and left at the scaled transformed features); at a later point the run with the
  branch not taken (the scratch is found at that array and left untouched).
-/
import proofs.«113051_g2000303721575557_pallasbulk_376_15_alg».proof.Proof.BFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) :
    (dats m 0 c).leavesExact 0 t = owns (c : Thread nD τ) (ms0 t) fullShare ((dats m 0 c).after 0 t) := rfl
theorem leaves1 (c : Dev nD) (t : Fin cfg0.N) :
    (dats m 0 c).leavesExact 1 t = owns (c : Thread nD τ) (ms1 t) fullShare ((dats m 0 c).after 1 t) := rfl
theorem leaves2 (c : Dev nD) (t : Fin cfg0.N) :
    (dats m 0 c).leavesExact 2 t = owns (c : Thread nD τ) (ms2 t) fullShare ((dats m 0 c).after 2 t) := rfl
theorem leaves3 (c : Dev nD) (t : Fin cfg0.N) :
    (dats m 0 c).leavesExact 3 t = owns (c : Thread nD τ) (ms3 t) fullShare ((dats m 0 c).after 3 t) := rfl
theorem leaves4 (c : Dev nD) (t : Fin cfg0.N) :
    (dats m 0 c).leavesExact 4 t = owns (c : Thread nD τ) (ms4 t) fullShare ((dats m 0 c).after 4 t) := rfl
theorem leaves5 (c : Dev nD) (t : Fin cfg0.N) :
    (dats m 0 c).leavesExact 5 t = owns (c : Thread nD τ) (ms5 t) fullShare ((dats m 0 c).after 5 t) := rfl
theorem leaves6 (c : Dev nD) (t : Fin cfg0.N) :
    (dats m 0 c).leavesExact 6 t = owns (c : Thread nD τ) (ms6 t) fullShare ((dats m 0 c).after 6 t) := rfl
theorem leaves7 (c : Dev nD) (t : Fin cfg0.N) :
    (dats m 0 c).leavesExact 7 t = owns (c : Thread nD τ) (ms7 t) fullShare ((dats m 0 c).after 7 t) := rfl

theorem Phi_castSucc (c : Dev nD) (t : Fin cfg0.N) : (dats m 0 c).Φ t.castSucc = PhiS m c t.val := by
  dsimp only [dats]; simp only [Fin.coe_castSucc]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) from rfl, Phi_castSucc]
  rw [leaves0, leaves1, leaves2, leaves3, leaves4, leaves5, leaves6, leaves7,
    after0, after1, after2, after3, after4, after5, after6, after7]
  rw [show PhiS m c (t.val + 1) = iprop(owns (c : Thread nD τ) scM fullShare (hwS m c) ∗ (∃ r, prngReg c r)) from rfl]
  by_cases h : t.val = 0
  · obtain rfl : t = t0_0 := Fin.ext h
    rw [show PhiS m c (t0_0 : Fin cfg0.N).val = Pipeline.ΦA spec0 c from rfl, PhiA0_eq, out7_first m c t0_0 rfl]
    unfold outA7 hwS outAS
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunA c (grid0.coords t0_0) _ _ _ _ _ _ _ _ _ _ _ _ _ _ _ _ _ _ ((hcond0 t0_0).mpr rfl) (iblk m c 0 t0_0) (iblk m c 1 t0_0) (iblk m c 2 t0_0) (iblk m c 3 t0_0) (iblk m c 4 t0_0) (iblk m c 5 t0_0) (iblk m c 6 t0_0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, ⟨%e7, H7⟩, ⟨%es, HS⟩⟩
    isplitl [HS Hg]
    · isplitl [HS]
      · unfold owns; iexists _; isplitr
        swap; · iexact HS
        ipureintro; exact View.read_writes_of_cover _ _ _ _ _ (coverAS c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA7 c _ _ _ _ _ _ _ _ _ _ _ _ _ _ _ _ _ _ _ _ _ _ _ _ _ _ _)
  · rw [PhiS_pos m c t.val h, out7_later m c t h]
    unfold outB7
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunB c (grid0.coords t) _ _ _ _ _ _ _ _ _ _ _ _ _ _ _ _ _ _ (fun hc => h ((hcond0 t).mp hc)) (iblk m c 0 t) (iblk m c 1 t) (iblk m c 2 t) (iblk m c 3 t) (iblk m c 4 t) (iblk m c 5 t) (iblk m c 6 t) (hwS m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB7 c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives it back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA0_eq]
  iintro ⟨HS, Hg⟩
  isplitl [HS]
  · iexists _; iexact HS
  iexact Hg

end Cert.Kernel.Hand

end
-- ==== Proof.BLaunch.lean ====
/-
  The launch of the one-launch program: from the body obligation to the run.

  The region is handed eight windows on six arrays: the normalisation column through two of them and the adjacency
  through two of them. The buffers behind the arrays are dealt to the windows one array at a time; an array two
  windows read is split between them by halves of its share. After the run the output array holds what the proof
  data compute, and every other buffer what it held when the region was entered.
-/
import proofs.«113051_g2000303721575557_pallasbulk_376_15_alg».proof.Proof.BBody
import Idealize.ShloMosaic.Lib.Pipeline.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six arrays behind the eight windows. -/
theorem arrRefs_eq : Finset.univ.image (Pipeline.arrRef spec0)
    = ([main_arg0, main_v1, main_arg2, main_arg3, main_v4, main_v5] : List (Ref sig .tc)).toFinset := by decide

/-- The buffers behind the windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v1) ↦{fullShare} V main_v1) ∗ (((c : Thread nD τ).loc main_arg2) ↦{fullShare} V main_arg2) ∗ (((c : Thread nD τ).loc main_arg3) ↦{fullShare} V main_arg3) ∗ (((c : Thread nD τ).loc main_v4) ↦{fullShare} V main_v4) ∗ (((c : Thread nD τ).loc main_v5) ↦{fullShare} V main_v5)) := by
  unfold Pipeline.arrBufs
  exact bigSep_eq_bigSepL_of_eq _ arrRefs_eq (by decide) _

/-- Each window's share of its array: whole for a window alone on its array, a half for each of two on one. -/
theorem share0 (c : Dev nD) : (dats m 0 c).share 0 = fullShare := by
  unfold Dat.share; rw [if_neg (by decide)]; dsimp only [dats]
theorem share1 (c : Dev nD) : (dats m 0 c).share 1 = fullShare := by
  unfold Dat.share; rw [if_neg (by decide)]; dsimp only [dats]
theorem share2 (c : Dev nD) : (dats m 0 c).share 2 = fullShare.left := by
  unfold Dat.share; rw [if_neg (by decide)]; dsimp only [dats]
theorem share3 (c : Dev nD) : (dats m 0 c).share 3 = fullShare.left := by
  unfold Dat.share; rw [if_neg (by decide)]; dsimp only [dats]
theorem share4 (c : Dev nD) : (dats m 0 c).share 4 = fullShare.right := by
  unfold Dat.share; rw [if_neg (by decide)]; dsimp only [dats]
theorem share5 (c : Dev nD) : (dats m 0 c).share 5 = fullShare.right := by
  unfold Dat.share; rw [if_neg (by decide)]; dsimp only [dats]
theorem share6 (c : Dev nD) : (dats m 0 c).share 6 = fullShare := by
  unfold Dat.share; rw [if_neg (by decide)]; dsimp only [dats]
theorem share7 (c : Dev nD) : (dats m 0 c).share 7 = fullShare := by
  unfold Dat.share; rw [if_pos (by decide)]

/-- Before the first point each array holds what the region found. -/
theorem arrAt0_0 (c : Dev nD) : (dats m 0 c).arrAt 0 0 = V m c (Pipeline.arrRef spec0 0) := A_eq m c 0
theorem arrAt0_1 (c : Dev nD) : (dats m 0 c).arrAt 1 0 = V m c (Pipeline.arrRef spec0 1) := A_eq m c 1
theorem arrAt0_2 (c : Dev nD) : (dats m 0 c).arrAt 2 0 = V m c (Pipeline.arrRef spec0 2) := A_eq m c 2
theorem arrAt0_3 (c : Dev nD) : (dats m 0 c).arrAt 3 0 = V m c (Pipeline.arrRef spec0 3) := A_eq m c 3
theorem arrAt0_4 (c : Dev nD) : (dats m 0 c).arrAt 4 0 = V m c (Pipeline.arrRef spec0 4) := A_eq m c 4
theorem arrAt0_5 (c : Dev nD) : (dats m 0 c).arrAt 5 0 = V m c (Pipeline.arrRef spec0 5) := A_eq m c 5
theorem arrAt0_6 (c : Dev nD) : (dats m 0 c).arrAt 6 0 = V m c (Pipeline.arrRef spec0 6) := A_eq m c 6
theorem arrAt0_7 (c : Dev nD) : (dats m 0 c).arrAt 7 0 = V m c (Pipeline.arrRef spec0 7) := A_eq m c 7

/-- The buffers behind the arrays, each whole at the full share, deal the windows their arrays: a window alone on its
    array takes it whole, two windows on one array take half of its share each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  simp only [View.set_whole]
  rw [share0, share1, share2, share3, share4, share5, share6, share7,
    arrAt0_0, arrAt0_1, arrAt0_2, arrAt0_3, arrAt0_4, arrAt0_5, arrAt0_6, arrAt0_7]
  iintro ⟨H0, H1, H2, H3, H4, H5⟩
  ihave H2' := (pointsTo_share (PosShare.mem_left_op_right fullShare)).1 $$ H2
  icases H2' with ⟨H2a, H2b⟩
  ihave H3' := (pointsTo_share (PosShare.mem_left_op_right fullShare)).1 $$ H3
  icases H3' with ⟨H3a, H3b⟩
  isplitl [H0]; · iexact H0
  isplitl [H1]; · iexact H1
  isplitl [H2a]; · iexact H2a
  isplitl [H3a]; · iexact H3a
  isplitl [H3b]; · iexact H3b
  isplitl [H2b]; · iexact H2b
  isplitl [H4]; · iexact H4
  iexact H5

set_option backward.isDefEq.respectTransparency.types false in
/-- At the compiled mesh, from any memory with zero counters: every weakly fair execution of @main terminates, and
    every final state has every array of the region at what the proof data compute and every other unscoped buffer as the
    region found it. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) := by
  classical
  exact Pipeline.θ_run_region_pf (fun q => (cfgs q).toPCfg (Val := Elt F)) (fun q => (cfgs q).toPCfg_adm) (dats m) () cellOf_inj 0
    winFacts₀0 (Pipeline.OwnSemFacts.none spec0) (Pipeline.PreFacts.none spec0) emb₁ defs₀ Variants.none m ρ main
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin m c))
    (hout := fun c => (hout m c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w,
      Pipeline.rest_of_restP Pipeline.Prefetch.none spec0 (fun k => k.elim0) c (V m c) s (fun k => k.elim0) (h c).2.1 (h c).2.2⟩)

end Cert.Kernel.Hand

end
-- ==== Proof.BFinal.lean ====
/-
  The one-launch program's run read at the result and at the arguments: the result array ends at what the region's
  proof data compute, and the five argument arrays end as launched — the features, the normalisation column and
  the adjacency are arrays of windows the region only reads, the weights and the bias are read by host operations
  only, and no host operation writes an argument.
-/
import proofs.«113051_g2000303721575557_pallasbulk_376_15_alg».proof.Proof.BLaunch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The references the host operations write. -/
abbrev hostOps0_W : List (Ref sig .tc) := [main_c, main_c_0, main_cst, main_v0, main_v1, main_cst_1, main_v2, main_v3, main_v4]

theorem hostOps0_writes : (hostOps0 : List (HloOp τ sig (Elt F))).Forall fun op => op.writes ⊆ (hostOps0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A reference no host operation writes reaches the region as launched. -/
theorem V_of (c : Dev nD) (r : Ref sig .tc) (h : r ∉ hostOps0_W) : V m c r = m ((c : Thread nD τ).loc r) :=
  StableHlo.after_of_writes_sub hostOps0 _ hostOps0_writes h

/-- The run, read at the result and at the arguments. -/
theorem run_value : θ_run defs (onTc (τ := τ) (main (F := F))) ⟨m, fun _ => 0, ρ⟩ (fun r => ∀ c : Dev nD,
      r.2.mem ((c.tc : Thread nD τ).loc main_v5) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).1 7,
     ((h c).1 0).trans (((dats m 0 c).arrAt_in 0 rfl _).trans ((A_eq m c 0).trans (V_of m c main_arg0 (by decide)))),
     ((h c).2 main_arg1 (Pipeline.mem_restRefs_of main_arg1 rfl (by decide))).trans (V_of m c main_arg1 (by decide)),
     ((h c).1 2).trans (((dats m 0 c).arrAt_in 2 rfl _).trans ((A_eq m c 2).trans (V_of m c main_arg2 (by decide)))),
     ((h c).1 3).trans (((dats m 0 c).arrAt_in 3 rfl _).trans ((A_eq m c 3).trans (V_of m c main_arg3 (by decide)))),
     ((h c).2 main_arg4 (Pipeline.mem_restRefs_of main_arg4 rfl (by decide))).trans (V_of m c main_arg4 (by decide))⟩)
    (run_main m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.Kernel.Hand

end
-- ==== Proof.KCommon.lean ====
/-
  The one-launch graph-convolution program: what its launch and its body's runs are stated over.

  @main pads the weights and the bias (two scatters whose window is the whole array) and then runs one
  region of 8 grid points. Point `t` handles rows `512 t … 512 t + 511` of the adjacency. The features, the
  padded weights, the normalisation column and the bias row are staged once (their blocks are the whole
  arrays); the adjacency is staged twice per point, as its left and its right half of the columns; the
  normalisation is staged a second time as the point's 512 rows. A scratch array holds the scaled
  transformed features: the body writes all of it at the first point and only reads it afterwards.
-/
import proofs.«113051_g2000303721575557_pallasbulk_376_15_alg».proof.Proof.Gen.KernelIdeal.Launch
import proofs.«113051_g2000303721575557_pallasbulk_376_15_alg».proof.Proof.Gen.KernelIdeal.Skeleton
import proofs.«113051_g2000303721575557_pallasbulk_376_15_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh fun c => main_chain c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The branch's condition from the grid coordinate: "this is the first point". -/
abbrev cond0 (i : grid0.Coords) : Prop :=
  (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (by decide +kernel : ∀ t : Fin grid0.N, cond0 (grid0.coords t) ↔ t.val = 0)

/-! ## The staging memrefs at a point, and the scratch -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .f32 := win0_7.stage (cfg0.slots t 7)
abbrev hs7 (t : Fin cfg0.N) : (ms7 t).IsWhole := hstage0_7 ((cfg0.slots t 7).cast nbuf0_7)

/-- The scratch array: a whole scoped buffer of the kernel's own. -/
abbrev scM : Memref sig .tc .vmem S4096x128 .bf16 := Memref.whole cc0_scratch0
/-- One staging buffer of the output window, through which its contents are stated. -/
abbrev VO : View sig .tc .vmem S512x128 .f32 := (Memref.whole cc0_stg7_0 : Memref sig .tc .vmem S512x128 .f32).view
/-- The scratch as a view. -/
abbrev VS : View sig .tc .vmem S4096x128 .bf16 := scM.view

/-- The region's own invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KRunA.lean ====
/-
  The body at the first point, run whole: it loads the features, the weights and the normalisation column,
  stores their scaled product into all of the scratch, then loads the two halves of the adjacency rows, the
  two halves of the scratch it has just written, the rows' normalisation and the bias, and stores the point's
  512 output rows.
-/
import proofs.«113051_g2000303721575557_pallasbulk_376_15_alg».proof.Proof.KCommon

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

set_option maxHeartbeats 1000000 in
/-- What the body's stores leave in the output's staging buffer and in the scratch at the first point, as pieces,
    with the proof that from the inputs' buffers at their contents, the output's and the scratch at anything, the
    body runs to the continuation holding the inputs' as they were and the other two with the pieces written. -/
noncomputable def kernelRunA (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i)
    (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) :
    Σ' (L7 : List (View.Piece (Elt F) S512x128 .f32)), { LS : List (View.Piece (Elt F) S4096x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS

end Cert.KernelIdeal.Hand

end
-- ==== Proof.KRunB.lean ====
/-
  The body at a later point, run whole: the branch is not taken; it loads the two halves of the adjacency rows,
  the two halves of the scratch (which holds what the first point wrote), the rows' normalisation and the
  bias, and stores the point's 512 output rows. The scratch is only read.
-/
import proofs.«113051_g2000303721575557_pallasbulk_376_15_alg».proof.Proof.KCommon

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

set_option maxHeartbeats 1000000 in
/-- What the body's store leaves in the output's staging buffer at a later point, as pieces, with the proof that
    from the inputs' buffers and the scratch at their contents and the output's at anything, the body runs to the
    continuation holding the inputs' and the scratch as they were and the output's with the pieces written. -/
noncomputable def kernelRunB (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : ¬cond0 i)
    (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (xs : Vec F S4096x128 .bf16) :
    { L7 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; isplitr; · ipureintro; exact harg9.read_unread _
    iexact HS

end Cert.KernelIdeal.Hand

end
-- ==== Proof.KFrame.lean ====
/-
  The one-launch program's region, point by point: what each point leaves in the output's staging buffer and in the
  scratch, the proof data, and the body obligation.

  The scratch is written once, at the first point, with the scaled transformed features computed from the three
  whole-array blocks; every later point finds it as the first point left it. So the invariant between points is:
  before the first point the scratch at anything; from then on the scratch at that one array. The output block of
  point `t` is the body's store read back: at the first point it is computed from the scratch as just written, at a
  later point from the scratch as found.

  The normalisation column and the adjacency are each handed to the region through two windows; each of the two
  windows holds half of the array's share, which is all a window that only reads needs.
-/
import proofs.«113051_g2000303721575557_pallasbulk_376_15_alg».proof.Proof.KRunA
import proofs.«113051_g2000303721575557_pallasbulk_376_15_alg».proof.Proof.KRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores' pieces cover their buffers -/

theorem coverA7 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (y : S512x128.Idx) :
    ∃ pc ∈ (kernelRunA c i arg1 harg1 arg2 harg2 arg3 harg3 arg4 harg4 arg5 harg5 arg6 harg6 arg7 harg7 arg8 harg8 arg9 harg9 hc x0 x1 x2 x3 x4 x5 x6).1, y ∈ pc.1.set :=
  View.cover_of_tiledL (kernelRunA c i arg1 harg1 arg2 harg2 arg3 harg3 arg4 harg4 arg5 harg5 arg6 harg6 arg7 harg7 arg8 harg8 arg9 harg9 hc x0 x1 x2 x3 x4 x5 x6).1 S512x128.size (by sl_kernel_rfl) y

theorem coverAS (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (y : S4096x128.Idx) :
    ∃ pc ∈ (kernelRunA c i arg1 harg1 arg2 harg2 arg3 harg3 arg4 harg4 arg5 harg5 arg6 harg6 arg7 harg7 arg8 harg8 arg9 harg9 hc x0 x1 x2 x3 x4 x5 x6).2.1, y ∈ pc.1.set :=
  View.cover_of_tiledL (kernelRunA c i arg1 harg1 arg2 harg2 arg3 harg3 arg4 harg4 arg5 harg5 arg6 harg6 arg7 harg7 arg8 harg8 arg9 harg9 hc x0 x1 x2 x3 x4 x5 x6).2.1 S4096x128.size (by sl_kernel_rfl) y

theorem coverB7 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : ¬cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (xs : Vec F S4096x128 .bf16) (y : S512x128.Idx) :
    ∃ pc ∈ (kernelRunB c i arg1 harg1 arg2 harg2 arg3 harg3 arg4 harg4 arg5 harg5 arg6 harg6 arg7 harg7 arg8 harg8 arg9 harg9 hc x0 x1 x2 x3 x4 x5 x6 xs).1, y ∈ pc.1.set :=
  View.cover_of_tiledL (kernelRunB c i arg1 harg1 arg2 harg2 arg3 harg3 arg4 harg4 arg5 harg5 arg6 harg6 arg7 harg7 arg8 harg8 arg9 harg9 hc x0 x1 x2 x3 x4 x5 x6 xs).1 S512x128.size (by sl_kernel_rfl) y

/-- What the first point leaves in the output's staging buffer: its pieces read back. -/
def outA7 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) : Vec F S512x128 .f32 :=
  VO.read (Elt F) (VO.writes (Elt F) VO.junk (kernelRunA c i arg1 harg1 arg2 harg2 arg3 harg3 arg4 harg4 arg5 harg5 arg6 harg6 arg7 harg7 arg8 harg8 arg9 harg9 hc x0 x1 x2 x3 x4 x5 x6).1)

/-- What the first point leaves in the scratch: its pieces read back. -/
def outAS (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) : Vec F S4096x128 .bf16 :=
  VS.read (Elt F) (VS.writes (Elt F) VS.junk (kernelRunA c i arg1 harg1 arg2 harg2 arg3 harg3 arg4 harg4 arg5 harg5 arg6 harg6 arg7 harg7 arg8 harg8 arg9 harg9 hc x0 x1 x2 x3 x4 x5 x6).2.1)

/-- What a later point leaves in the output's staging buffer, the scratch holding `xs`: its pieces read back. -/
def outB7 (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : ¬cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (xs : Vec F S4096x128 .bf16) : Vec F S512x128 .f32 :=
  VO.read (Elt F) (VO.writes (Elt F) VO.junk (kernelRunB c i arg1 harg1 arg2 harg2 arg3 harg3 arg4 harg4 arg5 harg5 arg6 harg6 arg7 harg7 arg8 harg8 arg9 harg9 hc x0 x1 x2 x3 x4 x5 x6 xs).1)

/-! ## Point by point -/

/-- The scratch from the first point on: what the first point stores, from the whole-array blocks. -/
def hwS (c : Dev nD) : Vec F S4096x128 .bf16 :=
  outAS c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scM (Memref.isWhole_whole _) ((hcond0 t0_0).mpr rfl) (iblk m c 0 t0_0) (iblk m c 1 t0_0) (iblk m c 2 t0_0) (iblk m c 3 t0_0) (iblk m c 4 t0_0) (iblk m c 5 t0_0) (iblk m c 6 t0_0)

/-- What point `t` leaves in the output's staging buffer. -/
def out7 (c : Dev nD) (t : Fin cfg0.N) : Vec F S512x128 .f32 :=
  if h : t.val = 0 then outA7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t)
  else outB7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (hwS m c)

theorem out7_first (c : Dev nD) (t : Fin cfg0.N) (h : t.val = 0) :
    out7 m c t = outA7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t) := dif_pos h

theorem out7_later (c : Dev nD) (t : Fin cfg0.N) (h : ¬t.val = 0) :
    out7 m c t = outB7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (hwS m c) := dif_neg h

/-- The invariant before position `n`: before the first point the scoped rest and the generator register at anything;
    afterwards the scratch at what the first point stored. -/
def PhiS (c : Dev nD) : ℕ → sProp 𝕄
  | 0 => Pipeline.ΦA spec0 c
  | _ + 1 => iprop(owns (c : Thread nD τ) scM fullShare (hwS m c) ∗ (∃ r, prngReg c r))

theorem PhiS_pos (c : Dev nD) (n : ℕ) (hn : n ≠ 0) :
    PhiS m c n = iprop(owns (c : Thread nD τ) scM fullShare (hwS m c) ∗ (∃ r, prngReg c r)) := by
  cases n with
  | zero => exact absurd rfl hn
  | succ n => rfl

/-! ## The proof data -/

/-- The arrays as the region finds them; after the body each input's buffer at its block and the output's at `out7`;
    the invariant `PhiS`; the two windows on the normalisation column, and the two on the adjacency, each at half of
    the array's share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
  Φ t := PhiS m c t.val
  q w := match w with
    | ⟨0, _⟩ => fullShare
    | ⟨1, _⟩ => fullShare
    | ⟨2, _⟩ => fullShare.left
    | ⟨3, _⟩ => fullShare.left
    | ⟨4, _⟩ => fullShare.right
    | ⟨5, _⟩ => fullShare.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

end Cert.KernelIdeal.Hand

end
-- ==== Proof.KBody.lean ====
/-
  The body obligation of the one-launch program's region: at every grid point, from the invariant and the windows'
  current staging buffers as the pipeline hands them over, the kernel body runs to the invariant of the next point and
  the buffers as the proof data say it leaves them. At the first point the whole-body run with the branch taken applies
  (the scratch is found at anything and left at the scaled transformed features); at a later point the run with the
  branch not taken (the scratch is found at that array and left untouched).
-/
import proofs.«113051_g2000303721575557_pallasbulk_376_15_alg».proof.Proof.KFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) :
    (dats m 0 c).leavesExact 0 t = owns (c : Thread nD τ) (ms0 t) fullShare ((dats m 0 c).after 0 t) := rfl
theorem leaves1 (c : Dev nD) (t : Fin cfg0.N) :
    (dats m 0 c).leavesExact 1 t = owns (c : Thread nD τ) (ms1 t) fullShare ((dats m 0 c).after 1 t) := rfl
theorem leaves2 (c : Dev nD) (t : Fin cfg0.N) :
    (dats m 0 c).leavesExact 2 t = owns (c : Thread nD τ) (ms2 t) fullShare ((dats m 0 c).after 2 t) := rfl
theorem leaves3 (c : Dev nD) (t : Fin cfg0.N) :
    (dats m 0 c).leavesExact 3 t = owns (c : Thread nD τ) (ms3 t) fullShare ((dats m 0 c).after 3 t) := rfl
theorem leaves4 (c : Dev nD) (t : Fin cfg0.N) :
    (dats m 0 c).leavesExact 4 t = owns (c : Thread nD τ) (ms4 t) fullShare ((dats m 0 c).after 4 t) := rfl
theorem leaves5 (c : Dev nD) (t : Fin cfg0.N) :
    (dats m 0 c).leavesExact 5 t = owns (c : Thread nD τ) (ms5 t) fullShare ((dats m 0 c).after 5 t) := rfl
theorem leaves6 (c : Dev nD) (t : Fin cfg0.N) :
    (dats m 0 c).leavesExact 6 t = owns (c : Thread nD τ) (ms6 t) fullShare ((dats m 0 c).after 6 t) := rfl
theorem leaves7 (c : Dev nD) (t : Fin cfg0.N) :
    (dats m 0 c).leavesExact 7 t = owns (c : Thread nD τ) (ms7 t) fullShare ((dats m 0 c).after 7 t) := rfl

theorem Phi_castSucc (c : Dev nD) (t : Fin cfg0.N) : (dats m 0 c).Φ t.castSucc = PhiS m c t.val := by
  dsimp only [dats]; simp only [Fin.coe_castSucc]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) from rfl, Phi_castSucc]
  rw [leaves0, leaves1, leaves2, leaves3, leaves4, leaves5, leaves6, leaves7,
    after0, after1, after2, after3, after4, after5, after6, after7]
  rw [show PhiS m c (t.val + 1) = iprop(owns (c : Thread nD τ) scM fullShare (hwS m c) ∗ (∃ r, prngReg c r)) from rfl]
  by_cases h : t.val = 0
  · obtain rfl : t = t0_0 := Fin.ext h
    rw [show PhiS m c (t0_0 : Fin cfg0.N).val = Pipeline.ΦA spec0 c from rfl, PhiA0_eq, out7_first m c t0_0 rfl]
    unfold outA7 hwS outAS
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunA c (grid0.coords t0_0) _ _ _ _ _ _ _ _ _ _ _ _ _ _ _ _ _ _ ((hcond0 t0_0).mpr rfl) (iblk m c 0 t0_0) (iblk m c 1 t0_0) (iblk m c 2 t0_0) (iblk m c 3 t0_0) (iblk m c 4 t0_0) (iblk m c 5 t0_0) (iblk m c 6 t0_0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, ⟨%e7, H7⟩, ⟨%es, HS⟩⟩
    isplitl [HS Hg]
    · isplitl [HS]
      · unfold owns; iexists _; isplitr
        swap; · iexact HS
        ipureintro; exact View.read_writes_of_cover _ _ _ _ _ (coverAS c _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA7 c _ _ _ _ _ _ _ _ _ _ _ _ _ _ _ _ _ _ _ _ _ _ _ _ _ _ _)
  · rw [PhiS_pos m c t.val h, out7_later m c t h]
    unfold outB7
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunB c (grid0.coords t) _ _ _ _ _ _ _ _ _ _ _ _ _ _ _ _ _ _ (fun hc => h ((hcond0 t).mp hc)) (iblk m c 0 t) (iblk m c 1 t) (iblk m c 2 t) (iblk m c 3 t) (iblk m c 4 t) (iblk m c 5 t) (iblk m c 6 t) (hwS m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB7 c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives it back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), PhiA0_eq]
  iintro ⟨HS, Hg⟩
  isplitl [HS]
  · iexists _; iexact HS
  iexact Hg

end Cert.KernelIdeal.Hand

end
-- ==== Proof.KLaunch.lean ====
/-
  The launch of the one-launch program: from the body obligation to the run.

  The region is handed eight windows on six arrays: the normalisation column through two of them and the adjacency
  through two of them. The buffers behind the arrays are dealt to the windows one array at a time; an array two
  windows read is split between them by halves of its share. After the run the output array holds what the proof
  data compute, and every other buffer what it held when the region was entered.
-/
import proofs.«113051_g2000303721575557_pallasbulk_376_15_alg».proof.Proof.KBody
import Idealize.ShloMosaic.Lib.Pipeline.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six arrays behind the eight windows. -/
theorem arrRefs_eq : Finset.univ.image (Pipeline.arrRef spec0)
    = ([main_arg0, main_v1, main_arg2, main_arg3, main_v4, main_v5] : List (Ref sig .tc)).toFinset := by decide

/-- The buffers behind the windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v1) ↦{fullShare} V main_v1) ∗ (((c : Thread nD τ).loc main_arg2) ↦{fullShare} V main_arg2) ∗ (((c : Thread nD τ).loc main_arg3) ↦{fullShare} V main_arg3) ∗ (((c : Thread nD τ).loc main_v4) ↦{fullShare} V main_v4) ∗ (((c : Thread nD τ).loc main_v5) ↦{fullShare} V main_v5)) := by
  unfold Pipeline.arrBufs
  exact bigSep_eq_bigSepL_of_eq _ arrRefs_eq (by decide) _

/-- Each window's share of its array: whole for a window alone on its array, a half for each of two on one. -/
theorem share0 (c : Dev nD) : (dats m 0 c).share 0 = fullShare := by
  unfold Dat.share; rw [if_neg (by decide)]; dsimp only [dats]
theorem share1 (c : Dev nD) : (dats m 0 c).share 1 = fullShare := by
  unfold Dat.share; rw [if_neg (by decide)]; dsimp only [dats]
theorem share2 (c : Dev nD) : (dats m 0 c).share 2 = fullShare.left := by
  unfold Dat.share; rw [if_neg (by decide)]; dsimp only [dats]
theorem share3 (c : Dev nD) : (dats m 0 c).share 3 = fullShare.left := by
  unfold Dat.share; rw [if_neg (by decide)]; dsimp only [dats]
theorem share4 (c : Dev nD) : (dats m 0 c).share 4 = fullShare.right := by
  unfold Dat.share; rw [if_neg (by decide)]; dsimp only [dats]
theorem share5 (c : Dev nD) : (dats m 0 c).share 5 = fullShare.right := by
  unfold Dat.share; rw [if_neg (by decide)]; dsimp only [dats]
theorem share6 (c : Dev nD) : (dats m 0 c).share 6 = fullShare := by
  unfold Dat.share; rw [if_neg (by decide)]; dsimp only [dats]
theorem share7 (c : Dev nD) : (dats m 0 c).share 7 = fullShare := by
  unfold Dat.share; rw [if_pos (by decide)]

/-- Before the first point each array holds what the region found. -/
theorem arrAt0_0 (c : Dev nD) : (dats m 0 c).arrAt 0 0 = V m c (Pipeline.arrRef spec0 0) := A_eq m c 0
theorem arrAt0_1 (c : Dev nD) : (dats m 0 c).arrAt 1 0 = V m c (Pipeline.arrRef spec0 1) := A_eq m c 1
theorem arrAt0_2 (c : Dev nD) : (dats m 0 c).arrAt 2 0 = V m c (Pipeline.arrRef spec0 2) := A_eq m c 2
theorem arrAt0_3 (c : Dev nD) : (dats m 0 c).arrAt 3 0 = V m c (Pipeline.arrRef spec0 3) := A_eq m c 3
theorem arrAt0_4 (c : Dev nD) : (dats m 0 c).arrAt 4 0 = V m c (Pipeline.arrRef spec0 4) := A_eq m c 4
theorem arrAt0_5 (c : Dev nD) : (dats m 0 c).arrAt 5 0 = V m c (Pipeline.arrRef spec0 5) := A_eq m c 5
theorem arrAt0_6 (c : Dev nD) : (dats m 0 c).arrAt 6 0 = V m c (Pipeline.arrRef spec0 6) := A_eq m c 6
theorem arrAt0_7 (c : Dev nD) : (dats m 0 c).arrAt 7 0 = V m c (Pipeline.arrRef spec0 7) := A_eq m c 7

/-- The buffers behind the arrays, each whole at the full share, deal the windows their arrays: a window alone on its
    array takes it whole, two windows on one array take half of its share each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  simp only [View.set_whole]
  rw [share0, share1, share2, share3, share4, share5, share6, share7,
    arrAt0_0, arrAt0_1, arrAt0_2, arrAt0_3, arrAt0_4, arrAt0_5, arrAt0_6, arrAt0_7]
  iintro ⟨H0, H1, H2, H3, H4, H5⟩
  ihave H2' := (pointsTo_share (PosShare.mem_left_op_right fullShare)).1 $$ H2
  icases H2' with ⟨H2a, H2b⟩
  ihave H3' := (pointsTo_share (PosShare.mem_left_op_right fullShare)).1 $$ H3
  icases H3' with ⟨H3a, H3b⟩
  isplitl [H0]; · iexact H0
  isplitl [H1]; · iexact H1
  isplitl [H2a]; · iexact H2a
  isplitl [H3a]; · iexact H3a
  isplitl [H3b]; · iexact H3b
  isplitl [H2b]; · iexact H2b
  isplitl [H4]; · iexact H4
  iexact H5

set_option backward.isDefEq.respectTransparency.types false in
/-- At the compiled mesh, from any memory with zero counters: every weakly fair execution of @main terminates, and
    every final state has every array of the region at what the proof data compute and every other unscoped buffer as the
    region found it. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) := by
  classical
  exact Pipeline.θ_run_region_pf (fun q => (cfgs q).toPCfg (Val := Elt F)) (fun q => (cfgs q).toPCfg_adm) (dats m) () cellOf_inj 0
    winFacts₀0 (Pipeline.OwnSemFacts.none spec0) (Pipeline.PreFacts.none spec0) emb₁ defs₀ Variants.none m ρ main
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin m c))
    (hout := fun c => (hout m c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w,
      Pipeline.rest_of_restP Pipeline.Prefetch.none spec0 (fun k => k.elim0) c (V m c) s (fun k => k.elim0) (h c).2.1 (h c).2.2⟩)

end Cert.KernelIdeal.Hand

end
-- ==== Proof.KFinal.lean ====
/-
  The one-launch program's run read at the result and at the arguments: the result array ends at what the region's
  proof data compute, and the five argument arrays end as launched — the features, the normalisation column and
  the adjacency are arrays of windows the region only reads, the weights and the bias are read by host operations
  only, and no host operation writes an argument.
-/
import proofs.«113051_g2000303721575557_pallasbulk_376_15_alg».proof.Proof.KLaunch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The references the host operations write. -/
abbrev hostOps0_W : List (Ref sig .tc) := [main_c, main_c_0, main_cst, main_v0, main_v1, main_cst_1, main_v2, main_v3, main_v4]

theorem hostOps0_writes : (hostOps0 : List (HloOp τ sig (Elt F))).Forall fun op => op.writes ⊆ (hostOps0_W.map (Proc.devRef (τ := τ) .tc)).toFinset := by
  simp only [List.Forall]
  exact ⟨by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.reshape_writes, Finset.singleton_subset_iff, List.mem_toFinset]; exact List.mem_map_of_mem (by decide)⟩

/-- A reference no host operation writes reaches the region as launched. -/
theorem V_of (c : Dev nD) (r : Ref sig .tc) (h : r ∉ hostOps0_W) : V m c r = m ((c : Thread nD τ).loc r) :=
  StableHlo.after_of_writes_sub hostOps0 _ hostOps0_writes h

/-- The run, read at the result and at the arguments. -/
theorem run_value : θ_run defs (onTc (τ := τ) (main (F := F))) ⟨m, fun _ => 0, ρ⟩ (fun r => ∀ c : Dev nD,
      r.2.mem ((c.tc : Thread nD τ).loc main_v5) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).1 7,
     ((h c).1 0).trans (((dats m 0 c).arrAt_in 0 rfl _).trans ((A_eq m c 0).trans (V_of m c main_arg0 (by decide)))),
     ((h c).2 main_arg1 (Pipeline.mem_restRefs_of main_arg1 rfl (by decide))).trans (V_of m c main_arg1 (by decide)),
     ((h c).1 2).trans (((dats m 0 c).arrAt_in 2 rfl _).trans ((A_eq m c 2).trans (V_of m c main_arg2 (by decide)))),
     ((h c).1 3).trans (((dats m 0 c).arrAt_in 3 rfl _).trans ((A_eq m c 3).trans (V_of m c main_arg3 (by decide)))),
     ((h c).2 main_arg4 (Pipeline.mem_restRefs_of main_arg4 rfl (by decide))).trans (V_of m c main_arg4 (by decide))⟩)
    (run_main m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.KernelIdeal.Hand

end
-- ==== Proof.KPieces.lean ====
/-
  What the body's stores leave, as the named arithmetic of the loaded blocks: the scratch after the first point is
  the scaled transformed features of the three whole arrays; the output block is the rectified aggregation of the
  two adjacency halves with the lower and the upper 2048 rows of the scratch, which at the first point is the scratch
  as just stored and at a later point the scratch as found.
-/
import proofs.«113051_g2000303721575557_pallasbulk_376_15_alg».proof.Proof.KFrame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

/-- The zero offset pair, as the constant function. -/
theorem hz : (![0, 0] : Fin 2 → Nat) = fun _ => 0 := funext fun a => by fin_cases a <;> rfl

/-- Rows 0 … 2047 of a [4096, 128] array. -/
def rowsLo (x : Vec F S4096x128 .bf16) : Vec F S2048x128 .bf16 :=
  View.ld x (Rect.unit (s := S4096x128) ![0, 0] S2048x128.size inb_S4096x128_S2048x128_0_0)

/-- Rows 2048 … 4095 of a [4096, 128] array. -/
def rowsHi (x : Vec F S4096x128 .bf16) : Vec F S2048x128 .bf16 :=
  View.ld x (Rect.unit (s := S4096x128) ![2048, 0] S2048x128.size inb_S4096x128_S2048x128_2048_0)

/-- Row `k` of the lower half is row `k` of the array. -/
theorem rowsLo_apply (x : Vec F S4096x128 .bf16) (k : Fin 2048) (q : Fin 128) :
    rowsLo x (ix2 k q) = x (ix2 (⟨k.val, by have := k.isLt; omega⟩ : Fin 4096) q) := by
  unfold rowsLo
  refine congrArg x (funext fun a => Fin.ext ?_)
  match a with
  | ⟨0, _⟩ => show 0 + 1 * k.val = k.val; omega
  | ⟨1, _⟩ => show 0 + 1 * q.val = q.val; omega

/-- Row `k` of the upper half is row `2048 + k` of the array. -/
theorem rowsHi_apply (x : Vec F S4096x128 .bf16) (k : Fin 2048) (q : Fin 128) :
    rowsHi x (ix2 k q) = x (ix2 (⟨2048 + k.val, by have := k.isLt; omega⟩ : Fin 4096) q) := by
  unfold rowsHi
  refine congrArg x (funext fun a => Fin.ext ?_)
  match a with
  | ⟨0, _⟩ => show 2048 + 1 * k.val = 2048 + k.val; omega
  | ⟨1, _⟩ => show 0 + 1 * q.val = q.val; omega

/-- A load through any rectangle of a buffer that one whole-shape store has just filled reads the stored array there. -/
theorem readCov_whole_store {S : Shape} {e : EltTy} {sig' : RefSig} {κ : Kind} {sp : Space} (v : View sig' κ sp S e)
    {off : Fin S.rank → Nat} (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ _ (fun y => ⟨_, List.mem_singleton_self _, View.mem_set_unit_zero h inb y⟩), View.canon_unit_zero h]

/-- The scratch after the first point: the scaled transformed features of the three loaded arrays. -/
theorem outAS_eq (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) :
    outAS c i arg1 harg1 arg2 harg2 arg3 harg3 arg4 harg4 arg5 harg5 arg6 harg6 arg7 harg7 arg8 harg8 arg9 harg9 hc x0 x1 x2 x3 x4 x5 x6 = k0_pay1 x0 x1 x2 := by
  unfold outAS
  rw [View.read_writes_eq_canon _ _ _ (coverAS c i arg1 harg1 arg2 harg2 arg3 harg3 arg4 harg4 arg5 harg5 arg6 harg6 arg7 harg7 arg8 harg8 arg9 harg9 hc x0 x1 x2 x3 x4 x5 x6)]
  unfold kernelRunA
  dsimp only
  sl_unfold_words
  rw [View.canon_unit_zero hz]
  simp only [View.readAt_eq_ld, harg1.read_unread, harg2.read_unread, harg3.read_unread, View.ld_unit_zero (S := S4096x128) hz, View.ld_unit_zero (S := S128x128) hz, View.ld_unit_zero (S := S4096x1) hz]

/-- The output block of the first point: the aggregation over the two halves of the scratch it has just stored. -/
theorem outA7_eq (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) :
    outA7 c i arg1 harg1 arg2 harg2 arg3 harg3 arg4 harg4 arg5 harg5 arg6 harg6 arg7 harg7 arg8 harg8 arg9 harg9 hc x0 x1 x2 x3 x4 x5 x6 = k0_pay2 x3 (rowsLo (k0_pay1 x0 x1 x2)) x4 (rowsHi (k0_pay1 x0 x1 x2)) x5 x6 := by
  unfold outA7
  rw [View.read_writes_eq_canon _ _ _ (coverA7 c i arg1 harg1 arg2 harg2 arg3 harg3 arg4 harg4 arg5 harg5 arg6 harg6 arg7 harg7 arg8 harg8 arg9 harg9 hc x0 x1 x2 x3 x4 x5 x6)]
  unfold kernelRunA
  dsimp only
  sl_unfold_words
  rw [View.canon_unit_zero (S := S512x128) hz]
  simp only [View.readAt_eq_ld, harg1.read_unread, harg2.read_unread, harg3.read_unread, harg4.read_unread, harg5.read_unread, harg6.read_unread, harg7.read_unread, View.ld_unit_zero (S := S4096x128) hz, View.ld_unit_zero (S := S128x128) hz, View.ld_unit_zero (S := S4096x1) hz, View.ld_unit_zero (S := S512x2048) hz, View.ld_unit_zero (S := S512x1) hz, View.ld_unit_zero (S := S1x128) hz, readCov_whole_store (F := F) (S := S4096x128) _ hz]
  rfl

/-- The output block of a later point: the aggregation over the two halves of the scratch as found. -/
theorem outB7_eq (c : Dev nD) (i : grid0.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .bf16) (harg9 : arg9.IsWhole) (hc : ¬cond0 i) (x0 : Vec F S4096x128 .f32) (x1 : Vec F S128x128 .f32) (x2 : Vec F S4096x1 .f32) (x3 : Vec F S512x2048 .f32) (x4 : Vec F S512x2048 .f32) (x5 : Vec F S512x1 .f32) (x6 : Vec F S1x128 .f32) (xs : Vec F S4096x128 .bf16) :
    outB7 c i arg1 harg1 arg2 harg2 arg3 harg3 arg4 harg4 arg5 harg5 arg6 harg6 arg7 harg7 arg8 harg8 arg9 harg9 hc x0 x1 x2 x3 x4 x5 x6 xs = k0_pay2 x3 (rowsLo xs) x4 (rowsHi xs) x5 x6 := by
  unfold outB7
  rw [View.read_writes_eq_canon _ _ _ (coverB7 c i arg1 harg1 arg2 harg2 arg3 harg3 arg4 harg4 arg5 harg5 arg6 harg6 arg7 harg7 arg8 harg8 arg9 harg9 hc x0 x1 x2 x3 x4 x5 x6 xs)]
  unfold kernelRunB
  dsimp only
  sl_unfold_words
  rw [View.canon_unit_zero (S := S512x128) hz]
  simp only [View.readAt_eq_ld, harg4.read_unread, harg5.read_unread, harg6.read_unread, harg7.read_unread, harg9.read_unread, View.ld_unit_zero (S := S512x2048) hz, View.ld_unit_zero (S := S512x1) hz, View.ld_unit_zero (S := S1x128) hz]
  rfl

end Cert.KernelIdeal.Hand

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KPayload.lean ====
/-
  The two named pieces of the body's arithmetic read at an index, at the ideal instance, where a rounding to a
  narrower format is the identity, a product of arrays into the zero accumulator is the plain sum of products, and a
  broadcast repeats a column or a row.
-/
import proofs.«113051_g2000303721575557_pallasbulk_376_15_alg».proof.Proof.Gen.KernelIdeal.Skeleton
import proofs.«113051_g2000303721575557_pallasbulk_376_15_alg».proof.Proof.LibDot2
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Hand

open Idealize.ShloMosaic Idealize.ShloMosaic.TcCoe
open Cert.KernelIdeal Cert.KernelIdeal.Gen
open Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The scratch's stored value at node `k` and feature `f`: the transformed features `Σ_j h[k, j] · W[j, f]` times the
    node's normalisation. -/
theorem pay1_apply (x0 : FVec Ideal S4096x128 .f32) (x1 : FVec Ideal S128x128 .f32) (x2 : FVec Ideal S4096x1 .f32) (k : Fin 4096) (f : Fin 128) :
    k0_pay1 (F := Ideal) x0 x1 x2 (ix2 k f) = (∑ j : Fin 128, x0 (ix2 k j) * x1 (ix2 j f)) * x2 (ix2 k (0 : Fin 1)) := by
  unfold k0_pay1
  refine (congrFun (shapeCast_self _ shapeCasts_S4096x128_S4096x128) (ix2 k f)).trans ?_
  show FloatOps.matmul (F := Ideal) (Dot2.mmDims 4096 128 128 dot_S4096x128_S128x128_S4096x128_1_0_0_1_n_n_wf) none x0 (shapeCast S128x128 x1 shapeCasts_S128x128_S128x128) (constant S4096x128 .f32 0x00000000#32) (ix2 k f) * broadcastTo S4096x128 x2 broadcasts_S4096x1_S4096x128 (ix2 k f) = _
  refine congrArg₂ (· * ·) ?_ ?_
  · refine (Dot2.matmul_zero_mm_apply _ none x0 _ k f).trans ?_
    exact Finset.sum_congr rfl fun j _ => congrArg (x0 (ix2 k j) * ·) (congrFun (shapeCast_self x1 _) (ix2 j f))
  · exact broadcastTo_a1_ab_apply x2 _ k f

/-- The output block's stored value at row `p` and feature `q`: the two half-sums of adjacency entries times scratch
    entries, added, times the row's normalisation, plus the bias, rectified. -/
theorem pay2_apply (x3 : FVec Ideal S512x2048 .f32) (v5 : FVec Ideal S2048x128 .bf16) (x4 : FVec Ideal S512x2048 .f32) (v9 : FVec Ideal S2048x128 .bf16)
    (x5 : FVec Ideal S512x1 .f32) (x6 : FVec Ideal S1x128 .f32) (p : Fin 512) (q : Fin 128) :
    k0_pay2 (F := Ideal) x3 v5 x4 v9 x5 x6 (ix2 p q)
      = max (((∑ k : Fin 2048, x3 (ix2 p k) * v5 (ix2 k q)) + (∑ k : Fin 2048, x4 (ix2 p k) * v9 (ix2 k q))) * x5 (ix2 p (0 : Fin 1)) + x6 (ix2 (0 : Fin 1) q)) 0 := by
  unfold k0_pay2
  show max ((FloatOps.matmul (F := Ideal) (Dot2.mmDims 512 2048 128 dot_S512x2048_S2048x128_S512x128_1_0_0_1_n_n_wf) none (truncf .bf16 x3 bitsLt_bf16_f32) v5 (constant S512x128 .f32 0x00000000#32) (ix2 p q)
      + FloatOps.matmul (F := Ideal) (Dot2.mmDims 512 2048 128 dot_S512x2048_S2048x128_S512x128_1_0_0_1_n_n_wf) none (truncf .bf16 x4 bitsLt_bf16_f32) v9 (constant S512x128 .f32 0x00000000#32) (ix2 p q))
        * broadcastTo S512x128 x5 broadcasts_S512x1_S512x128 (ix2 p q)
      + broadcastTo S512x128 (shapeCast S1x128 x6 shapeCasts_S1x128_S1x128) broadcasts_S1x128_S512x128 (ix2 p q)) (Ideal.ofBits .f32 0x00000000#32) = _
  refine congrArg₂ max (congrArg₂ (· + ·) (congrArg₂ (· * ·) (congrArg₂ (· + ·) ?_ ?_) ?_) ?_) Ideal.ofBits_zero_f32
  · exact Dot2.matmul_zero_mm_apply _ none (truncf .bf16 x3 bitsLt_bf16_f32) v5 p q
  · exact Dot2.matmul_zero_mm_apply _ none (truncf .bf16 x4 bitsLt_bf16_f32) v9 p q
  · exact broadcastTo_a1_ab_apply x5 _ p q
  · refine (broadcastTo_1b_ab_apply _ _ p q).trans ?_
    exact congrFun (shapeCast_self x6 _) (ix2 (0 : Fin 1) q)

end Cert.KernelIdeal.Hand

end
-- ==== Proof.KBlocks.lean ====
/-
  The windows' blocks as parts of the arrays the region finds: the features, the weights, the normalisation column and
  the bias row are staged whole; point `t` stages rows `512 t … 512 t + 511` of the adjacency as two halves of the
  columns (`0 … 2047` and `2048 … 4095`) and the same rows of the normalisation column; it writes back the same rows
  of the output.
-/
import proofs.«113051_g2000303721575557_pallasbulk_376_15_alg».proof.Proof.KFrame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

variable (m : (ℓ : Loc nD τ sig) → Buf (Elt F) ℓ)

/-- The printed index maps, decided over the grid: the whole-array windows sit at block 0 on both axes; the adjacency
    halves, the rows' normalisation and the output move with the point along the rows, the right adjacency half at
    column block 1. -/
theorem idx_facts : ∀ t : Fin cfg0.N, t.val < 8
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 1
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The features' block is the whole array. -/
theorem blk0_eq (c : Dev nD) (t : Fin cfg0.N) : (iblk m c 0 t : Vec F S4096x128 .f32) = V m c main_arg0 := by
  obtain ⟨-, e0, e1, -⟩ := idx_facts t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 4096 + 1 * (y 0).val = (y 0).val; omega
  | ⟨1, _⟩ => show win0_0.index t (1 : Fin 2) * 128 + 1 * (y 1).val = (y 1).val; omega

/-- The weights' block is the whole array. -/
theorem blk1_eq (c : Dev nD) (t : Fin cfg0.N) : (iblk m c 1 t : Vec F S128x128 .f32) = V m c main_v1 := by
  obtain ⟨-, -, -, e0, e1, -⟩ := idx_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The whole-column block of the normalisation is the whole array. -/
theorem blk2_eq (c : Dev nD) (t : Fin cfg0.N) : (iblk m c 2 t : Vec F S4096x1 .f32) = V m c main_arg2 := by
  obtain ⟨-, -, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 4096 + 1 * (y 0).val = (y 0).val; omega
  | ⟨1, _⟩ => show win0_2.index t (1 : Fin 2) * 1 + 1 * (y 1).val = (y 1).val; omega

/-- The bias row's block is the whole array. -/
theorem blk6_eq (c : Dev nD) (t : Fin cfg0.N) : (iblk m c 6 t : Vec F S1x128 .f32) = V m c main_v4 := by
  obtain ⟨-, -, -, -, -, -, -, -, -, -, -, -, -, e0, e1, -⟩ := idx_facts t
  funext y
  show V m c main_v4 (((cfg0.win 6).blk t).view.emb y) = V m c main_v4 y
  refine congrArg (V m c main_v4) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The left adjacency block at `(p, k)` is the adjacency at row `512 t + p`, column `k`. -/
theorem blk3_apply (c : Dev nD) (t : Fin cfg0.N) (p : Fin 512) (k : Fin 2048) :
    (iblk m c 3 t : Vec F S512x2048 .f32) (ix2 p k)
      = (V m c main_arg3 : Vec F S4096x4096 .f32) (ix2 (⟨512 * t.val + p.val, by have := (idx_facts t).1; have := p.isLt; omega⟩ : Fin 4096) (⟨k.val, by have := k.isLt; omega⟩ : Fin 4096)) := by
  obtain ⟨-, -, -, -, -, -, -, e0, e1, -⟩ := idx_facts t
  show V m c main_arg3 (((cfg0.win 3).blk t).view.emb (ix2 p k)) = V m c main_arg3 _
  refine congrArg (V m c main_arg3) (funext fun a => Fin.ext ?_)
  match a with
  | ⟨0, _⟩ => show win0_3.index t (0 : Fin 2) * 512 + 1 * p.val = 512 * t.val + p.val; omega
  | ⟨1, _⟩ => show win0_3.index t (1 : Fin 2) * 2048 + 1 * k.val = k.val; omega

/-- The right adjacency block at `(p, k)` is the adjacency at row `512 t + p`, column `2048 + k`. -/
theorem blk4_apply (c : Dev nD) (t : Fin cfg0.N) (p : Fin 512) (k : Fin 2048) :
    (iblk m c 4 t : Vec F S512x2048 .f32) (ix2 p k)
      = (V m c main_arg3 : Vec F S4096x4096 .f32) (ix2 (⟨512 * t.val + p.val, by have := (idx_facts t).1; have := p.isLt; omega⟩ : Fin 4096) (⟨2048 + k.val, by have := k.isLt; omega⟩ : Fin 4096)) := by
  obtain ⟨-, -, -, -, -, -, -, -, -, e0, e1, -⟩ := idx_facts t
  show V m c main_arg3 (((cfg0.win 4).blk t).view.emb (ix2 p k)) = V m c main_arg3 _
  refine congrArg (V m c main_arg3) (funext fun a => Fin.ext ?_)
  match a with
  | ⟨0, _⟩ => show win0_4.index t (0 : Fin 2) * 512 + 1 * p.val = 512 * t.val + p.val; omega
  | ⟨1, _⟩ => show win0_4.index t (1 : Fin 2) * 2048 + 1 * k.val = 2048 + k.val; omega

/-- The rows' normalisation block at `(p, 0)` is the normalisation of row `512 t + p`. -/
theorem blk5_apply (c : Dev nD) (t : Fin cfg0.N) (p : Fin 512) :
    (iblk m c 5 t : Vec F S512x1 .f32) (ix2 p (0 : Fin 1))
      = (V m c main_arg2 : Vec F S4096x1 .f32) (ix2 (⟨512 * t.val + p.val, by have := (idx_facts t).1; have := p.isLt; omega⟩ : Fin 4096) (0 : Fin 1)) := by
  obtain ⟨-, -, -, -, -, -, -, -, -, -, -, e0, e1, -⟩ := idx_facts t
  show V m c main_arg2 (((cfg0.win 5).blk t).view.emb (ix2 p (0 : Fin 1))) = V m c main_arg2 _
  refine congrArg (V m c main_arg2) (funext fun a => Fin.ext ?_)
  match a with
  | ⟨0, _⟩ => show win0_5.index t (0 : Fin 2) * 512 + 1 * p.val = 512 * t.val + p.val; omega
  | ⟨1, _⟩ => show win0_5.index t (1 : Fin 2) * 1 + 1 * 0 = 0; omega

end Cert.KernelIdeal.Hand

end
-- ==== Proof.Spec.lean ====
/-
  The mathematics of the graph-convolution layer, as two index-level functions of the five argument
  arrays over the extended reals: features `h : [4096, 128]`, weights `W : [128, 128]`, the symmetric
  normalisation `n : [4096, 1]`, the dense adjacency `A : [4096, 4096]` and the bias `b : [128]`.

  Both programs compute, at node `i` and output feature `f`,
      max (n_i · Σ_k A_ik · n_k · (h·W)_kf + b_f, 0),
  arranged differently.
  * One side scales the transformed features first, `(h·W)_kf · n_k`, sums the products with row `i`
    of `A` over the two halves of the node axis (`k < 2048` and `k ≥ 2048`), adds the halves, and
    multiplies the sum by `n_i` (`fusedOut`).
  * The other folds both normalisations into the adjacency, `(n_i · A_ik) · n_k`, and accumulates
    the products with `(h·W)_kf` over 32 consecutive blocks of 128 nodes, block after block
    (`foldedOut`).
  That the two agree on finite inputs is a matter of distributing `n_i` over the sum and regrouping
  it; it is proved in the algebra module.
-/
import Mathlib.Data.EReal.Basic
import Mathlib.Algebra.BigOperators.Group.Finset.Basic
import Idealize.ShloMosaic.Lib.ValueIdx

noncomputable section

open scoped BigOperators

namespace Cert.Spec

open Idealize.ShloMosaic Idealize.ShloMosaic.ValueIdx

abbrev IdxH : Type := (⟨2, ![4096, 128]⟩ : Shape).Idx
abbrev IdxW : Type := (⟨2, ![128, 128]⟩ : Shape).Idx
abbrev IdxN : Type := (⟨2, ![4096, 1]⟩ : Shape).Idx
abbrev IdxA : Type := (⟨2, ![4096, 4096]⟩ : Shape).Idx
abbrev IdxB : Type := (⟨1, ![128]⟩ : Shape).Idx

/-- Node `k` of the lower half (`k < 2048`) as a node. -/
def lo (k : Fin 2048) : Fin 4096 := ⟨k.val, by have := k.isLt; omega⟩
/-- Node `2048 + k` of the upper half as a node. -/
def hi (k : Fin 2048) : Fin 4096 := ⟨2048 + k.val, by have := k.isLt; omega⟩
/-- Node `128 · kb + k`: node `k` of block `kb` of the 32 blocks of 128 nodes. -/
def inBlock (kb : Fin 32) (k : Fin 128) : Fin 4096 := ⟨128 * kb.val + k.val, by have := kb.isLt; have := k.isLt; omega⟩

/-- Every entry is a real number (neither infinity). -/
def IsReal {ι : Type} (x : ι → EReal) : Prop := ∀ j, ∃ r : ℝ, x j = (r : EReal)

variable (h : IdxH → EReal) (W : IdxW → EReal) (n : IdxN → EReal) (A : IdxA → EReal) (b : IdxB → EReal)

/-- The transformed features `(h · W)[k, f] = Σ_j h[k, j] · W[j, f]`. -/
def xw (k : Fin 4096) (f : Fin 128) : EReal := ∑ j : Fin 128, h (ix2 k j) * W (ix2 j f)

/-- The transformed features of node `k` scaled by its normalisation: `(h · W)[k, f] · n[k]`. -/
def scaled (k : Fin 4096) (f : Fin 128) : EReal := xw h W k f * n (ix2 k 0)

/-- Aggregation of the scaled features over both halves of the node axis, the row's normalisation
    applied to the sum, bias, rectifier. -/
def fusedOut (i : Fin 4096) (f : Fin 128) : EReal :=
  max (((∑ k : Fin 2048, A (ix2 i (lo k)) * scaled h W n (lo k) f)
        + (∑ k : Fin 2048, A (ix2 i (hi k)) * scaled h W n (hi k) f)) * n (ix2 i 0) + b (ix1 f)) 0

/-- The adjacency with both normalisations folded in: `(n[i] · A[i, k]) · n[k]`. -/
def normAdj (i k : Fin 4096) : EReal := (n (ix2 i 0) * A (ix2 i k)) * n (ix2 k 0)

/-- One block's contribution: `Σ_{k in block kb} normAdj[i, k] · (h · W)[k, f]`. -/
def blockSum (i : Fin 4096) (f : Fin 128) (kb : Fin 32) : EReal :=
  ∑ k : Fin 128, normAdj n A i (inBlock kb k) * xw h W (inBlock kb k) f

/-- The accumulator after blocks `0 … kb`, added in that order (block numbers past 31 add nothing). -/
def accUpTo (i : Fin 4096) (f : Fin 128) : ℕ → EReal
  | 0 => blockSum h W n A i f ⟨0, by decide⟩
  | kb + 1 => if hk : kb + 1 < 32 then accUpTo i f kb + blockSum h W n A i f ⟨kb + 1, hk⟩ else accUpTo i f kb

/-- The blockwise accumulation of all 32 blocks, bias, rectifier. -/
def foldedOut (i : Fin 4096) (f : Fin 128) : EReal :=
  max (accUpTo h W n A i f 31 + b (ix1 f)) 0

end Cert.Spec

end
-- ==== Proof.KValue.lean ====
/-
  What the one-launch program's region leaves in the output array, at the ideal instance: at node `i` and feature `f`
  the rectified sum `fusedOut` of the arrays the region was entered with.

  Every point leaves in its block the aggregation of its two adjacency blocks with the lower and the upper half of one
  and the same scratch array, the scaled transformed features of the whole arrays; read index by index that is the
  fused layer at the block's rows, and the eight blocks of 512 rows tile the output.
-/
import proofs.«113051_g2000303721575557_pallasbulk_376_15_alg».proof.Proof.KFrame
import proofs.«113051_g2000303721575557_pallasbulk_376_15_alg».proof.Proof.KPieces
import proofs.«113051_g2000303721575557_pallasbulk_376_15_alg».proof.Proof.KPayload
import proofs.«113051_g2000303721575557_pallasbulk_376_15_alg».proof.Proof.KBlocks
import proofs.«113051_g2000303721575557_pallasbulk_376_15_alg».proof.Proof.Spec
import proofs.«113051_g2000303721575557_pallasbulk_376_15_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

open Idealize.ShloMosaic.ValueIdx

/-! ## The scratch and the output block as the named arithmetic of the arrays and the point's blocks -/

section Generic
variable (m : (ℓ : Loc nD τ sig) → Buf (Elt F) ℓ)

/-- The scratch from the first point on: the scaled transformed features of the three whole arrays. -/
theorem hwS_eq (c : Dev nD) : hwS m c = k0_pay1 (V m c main_arg0) (V m c main_v1) (V m c main_arg2) := by
  unfold hwS
  rw [outAS_eq, blk0_eq m c t0_0, blk1_eq m c t0_0, blk2_eq m c t0_0]

/-- What any point leaves in the output's staging buffer: the aggregation of its two adjacency blocks with the two
    halves of the one scratch, its rows' normalisation and the bias row. The first point reads the scratch it has
    just stored, a later point the scratch it finds, and the two are the same array. -/
theorem out7_eq (c : Dev nD) (t : Fin cfg0.N) :
    out7 m c t = k0_pay2 (iblk m c 3 t) (rowsLo (k0_pay1 (V m c main_arg0) (V m c main_v1) (V m c main_arg2))) (iblk m c 4 t) (rowsHi (k0_pay1 (V m c main_arg0) (V m c main_v1) (V m c main_arg2))) (iblk m c 5 t) (V m c main_v4) := by
  by_cases h : t.val = 0
  · rw [out7_first m c t h, outA7_eq, blk0_eq m c t, blk1_eq m c t, blk2_eq m c t, blk6_eq m c t]
  · rw [out7_later m c t h, outB7_eq, hwS_eq m c, blk6_eq m c t]

end Generic

/-! ## At the ideal instance, index by index -/

/-- The aggregation over the two halves of the scaled transformed features, at row `p` and feature `q` of a point's
    block, over any arrays and blocks. -/
theorem agg_apply (h : FVec Ideal S4096x128 .f32) (W : FVec Ideal S128x128 .f32) (n : FVec Ideal S4096x1 .f32)
    (a3 a4 : FVec Ideal S512x2048 .f32) (n5 : FVec Ideal S512x1 .f32) (b : FVec Ideal S1x128 .f32) (p : Fin 512) (q : Fin 128) :
    k0_pay2 (F := Ideal) a3 (rowsLo (F := Ideal) (k0_pay1 (F := Ideal) h W n)) a4 (rowsHi (F := Ideal) (k0_pay1 (F := Ideal) h W n)) n5 b (ix2 p q)
      = max (((∑ k : Fin 2048, a3 (ix2 p k) * Cert.Spec.scaled h W n (Cert.Spec.lo k) q)
            + (∑ k : Fin 2048, a4 (ix2 p k) * Cert.Spec.scaled h W n (Cert.Spec.hi k) q)) * n5 (ix2 p (0 : Fin 1)) + b (ix2 (0 : Fin 1) q)) 0 := by
  refine (pay2_apply a3 _ a4 _ n5 b p q).trans ?_
  have hlo : ∀ k : Fin 2048, rowsLo (F := Ideal) (k0_pay1 (F := Ideal) h W n) (ix2 k q) = Cert.Spec.scaled h W n (Cert.Spec.lo k) q := fun k =>
    (rowsLo_apply (F := Ideal) (k0_pay1 (F := Ideal) h W n) k q).trans (pay1_apply h W n _ q)
  have hhi : ∀ k : Fin 2048, rowsHi (F := Ideal) (k0_pay1 (F := Ideal) h W n) (ix2 k q) = Cert.Spec.scaled h W n (Cert.Spec.hi k) q := fun k =>
    (rowsHi_apply (F := Ideal) (k0_pay1 (F := Ideal) h W n) k q).trans (pay1_apply h W n _ q)
  simp only [hlo, hhi]

section AtIdeal
variable (m : (ℓ : Loc nD τ sig) → Buf (Elt Ideal) ℓ)

/-- What point `t` leaves at row `p`, feature `q` of its block: the fused layer at node `512 t + p`. -/
theorem out7_apply (c : Dev nD) (t : Fin cfg0.N) (p : Fin 512) (q : Fin 128) :
    out7 (F := Ideal) m c t (ix2 p q)
      = Cert.Spec.fusedOut (V m c main_arg0) (V m c main_v1) (V m c main_arg2) (V m c main_arg3) (fun i : Cert.Spec.IdxB => V m c main_v4 (ix2 0 (i 0))) (⟨512 * t.val + p.val, by have := (idx_facts t).1; have := p.isLt; omega⟩ : Fin 4096) q := by
  rw [out7_eq m c t]
  refine (agg_apply (V m c main_arg0) (V m c main_v1) (V m c main_arg2) (iblk m c 3 t) (iblk m c 4 t) (iblk m c 5 t) (V m c main_v4) p q).trans ?_
  unfold Cert.Spec.fusedOut
  refine congrArg₂ max (congrArg₂ (· + ·) (congrArg₂ (· * ·) (congrArg₂ (· + ·) ?_ ?_) ?_) ?_) rfl
  · exact Finset.sum_congr rfl fun k _ => congrArg (· * _) (blk3_apply m c t p k)
  · exact Finset.sum_congr rfl fun k _ => congrArg (· * _) (blk4_apply m c t p k)
  · exact blk5_apply m c t p
  · rfl

/-! ## The output array -/

/-- WHAT POINT `t` WRITES BACK is block `t` of the fused layer of the arrays the region found. -/
theorem flushed_eq (c : Dev nD) (t : Fin cfg0.N) :
    (dats (F := Ideal) m 0 c).flushed 7 t
      = ((cfg0.win 7).blk t).view.read (Elt Ideal) (fun j : S4096x128.Idx => Cert.Spec.fusedOut (V m c main_arg0) (V m c main_v1) (V m c main_arg2) (V m c main_arg3) (fun i : Cert.Spec.IdxB => V m c main_v4 (ix2 0 (i 0))) (j 0) (j 1)) := by
  obtain ⟨ht, -, -, -, -, -, -, -, -, -, -, -, -, -, -, e0, e1⟩ := idx_facts t
  show (cfg0.win 7).cut (grid0.coords t) ((dats m 0 c).after 7 t) = _
  rw [after7]
  show (fun y : S512x128.Idx => out7 m c t y)
    = fun y : S512x128.Idx => Cert.Spec.fusedOut (V m c main_arg0) (V m c main_v1) (V m c main_arg2) (V m c main_arg3) (fun i : Cert.Spec.IdxB => V m c main_v4 (ix2 0 (i 0))) ((((cfg0.win 7).blk t).view.emb y) 0) ((((cfg0.win 7).blk t).view.emb y) 1)
  funext y
  refine ((congrArg (out7 m c t) (eq_ix2 y)).trans (out7_apply m c t (y 0) (y 1))).trans ?_
  refine congrArg₂ (Cert.Spec.fusedOut (V m c main_arg0) (V m c main_v1) (V m c main_arg2) (V m c main_arg3) (fun i : Cert.Spec.IdxB => V m c main_v4 (ix2 0 (i 0)))) (Fin.ext ?_) (Fin.ext ?_)
  · show 512 * t.val + (y 0).val = win0_7.index t (0 : Fin 2) * 512 + 1 * (y 0).val; omega
  · show (y 1).val = win0_7.index t (1 : Fin 2) * 128 + 1 * (y 1).val; omega

/-- An index of the output array is in point `t`'s block iff each coordinate is in the block's range on its axis. -/
theorem mem_blk7 (t : Fin cfg0.N) (i : S4096x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v5).slice (win0_7.rect t)).set ↔ _
  rw [View.set_slice_whole, Rect.mem_set_unit]
  exact Iff.rfl

/-- Every output row is in some point's block: row `r` in that of point `r / 512`. -/
theorem cover7 (i : S4096x128.Idx) : ∃ t : Fin cfg0.N, (cfg0.win 7).flush t = true ∧ i ∈ ((cfg0.win 7).blk t).view.set := by
  have hi0 : (i 0).val < 4096 := (i 0).isLt
  have hi1 : (i 1).val < 128 := (i 1).isLt
  let t : Fin cfg0.N := ⟨(i 0).val / 512, by rw [show cfg0.N = 8 from N_0]; omega⟩
  obtain ⟨-, -, -, -, -, -, -, -, -, -, -, -, -, -, -, e0, e1⟩ := idx_facts t
  have et : t.val = (i 0).val / 512 := rfl
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 128 ≤ (i 1).val ∧ (i 1).val < win0_7.index t (1 : Fin 2) * 128 + 128; omega

end AtIdeal

/-- After the region the output array holds, index by index, the fused layer of the arrays the region found: the
    features, the padded weights, the normalisation column, the adjacency and the padded bias row. -/
theorem out_value (m : (ℓ : Loc nD τ sig) → Buf (Elt Ideal) ℓ) (c : Dev nD) :
    (dats (F := Ideal) m 0 c).arrAt 7 cfg0.N
      = fun j : S4096x128.Idx => Cert.Spec.fusedOut (V m c main_arg0) (V m c main_v1) (V m c main_arg2) (V m c main_arg3)
          (fun i : Cert.Spec.IdxB => V m c main_v4 (ix2 0 (i 0))) (j 0) (j 1) := by
  exact (dats (F := Ideal) m 0 c).arrAt_eq_of_cover 7
    (fun j : S4096x128.Idx => Cert.Spec.fusedOut (V m c main_arg0) (V m c main_v1) (V m c main_arg2) (V m c main_arg3) (fun i : Cert.Spec.IdxB => V m c main_v4 (ix2 0 (i 0))) (j 0) (j 1))
    (fun t _ => flushed_eq m c t) cover7

end Cert.KernelIdeal.Hand

end
-- ==== Proof.LibScatter.lean ====
/-
  A scatter that overwrites its whole operand.

  The host's scatter visits the update's entries one after the other; each lands at one entry of the operand (its
  start index plus its window coordinate) and, when the combining function returns the update's element, replaces
  it. If every update entry `j` lands at operand entry `j` — operand and update of one shape — every operand entry is
  replaced by the update's, and the result is the update, whatever the operand held.

  That is so for the scatter a padding to the array's own size lowers to, on a rank-2 array: both update axes are
  window axes, no operand axis is inserted and none takes a start index, so the start is zero on every axis and the
  window coordinate is the update entry's own.
-/
import Idealize.ShloMosaic.PureOps.ShapeOps
import Idealize.ShloMosaic.PureOps.Dims
import Mathlib.Logic.Equiv.Defs
import Mathlib.Data.List.Basic

noncomputable section

namespace Idealize.ShloMosaic

variable {α : Type} {s si : Shape} {w : Nat}

/-- A scatter of an update of the operand's own shape whose every entry `j` lands at operand entry `j`, the combining
    function returning the update's element, leaves the update: each entry is replaced once, in row-major order,
    and none is dropped. -/
theorem Host.scatter_eq_update_of_resultIdx (d : ScatterDims s si s) (idx : IVec si w)
    (h : ∀ j, d.resultIdx? j idx = some j) (x upd : s.Idx → α) :
    Host.scatter d (fun _ b => b) x idx upd = upd := by
  unfold Host.scatter
  simp only [h]
  have key : ∀ (L : List (Fin s.numel)) (y : s.Idx → α) (i : s.Idx),
      L.foldl (fun r n => fun i' => if i' = s.rowMajor.symm n then upd (s.rowMajor.symm n) else r i') y i
        = if ∃ n ∈ L, s.rowMajor.symm n = i then upd i else y i := by
    intro L
    induction L with
    | nil => intro y i; simp
    | cons n L ih =>
      intro y i
      rw [List.foldl_cons, ih]
      by_cases hL : ∃ n' ∈ L, s.rowMajor.symm n' = i
      · obtain ⟨n', hn', e⟩ := hL
        rw [if_pos ⟨n', hn', e⟩, if_pos ⟨n', List.mem_cons_of_mem _ hn', e⟩]
      · rw [if_neg hL]
        by_cases hn : i = s.rowMajor.symm n
        · rw [if_pos hn, if_pos ⟨n, List.mem_cons_self, hn.symm⟩, hn]
        · rw [if_neg hn, if_neg]
          rintro ⟨n', hn', e⟩
          rcases List.mem_cons.mp hn' with rfl | h'
          · exact hn e.symm
          · exact hL ⟨n', h', e⟩
  funext i
  rw [key, if_pos ⟨s.rowMajor i, List.mem_finRange _, Equiv.symm_apply_apply _ _⟩]

/-- On a rank-2 operand, with both update axes window axes, no inserted axis and no operand axis taking a start
    index, update entry `j` lands at operand entry `j`: the start is zero and the window coordinate on each axis
    is `j`'s. -/
theorem ScatterDims.resultIdx?_whole_window {dims : Fin 2 → Nat} (d : ScatterDims ⟨2, dims⟩ si ⟨2, dims⟩)
    (huw : d.updateWindowDims = [0, 1]) (hiw : d.insertedWindowDims = []) (hsd : d.scatterDimsToOperandDims = [])
    (j : (⟨2, dims⟩ : Shape).Idx) (idx : IVec si w) : d.resultIdx? j idx = some j := by
  obtain ⟨uw, iw, sd, iv, wf⟩ := d
  dsimp only at huw hiw hsd
  subst huw hiw hsd
  have hs : ∀ a, (ScatterDims.mk (s := ⟨2, dims⟩) (si := si) (u := ⟨2, dims⟩) [0, 1] [] [] iv wf).start j idx a = 0 := fun a => by
    unfold ScatterDims.start
    rw [dif_neg (List.not_mem_nil)]
  have hk : ∀ a : Fin 2, a ∈ (ScatterDims.mk (s := ⟨2, dims⟩) (si := si) (u := ⟨2, dims⟩) [0, 1] [] [] iv wf).sKept := fun a =>
    List.mem_filter.2 ⟨List.mem_finRange a, by simp⟩
  have hw : ∀ a, (ScatterDims.mk (s := ⟨2, dims⟩) (si := si) (u := ⟨2, dims⟩) [0, 1] [] [] iv wf).window j a = (j a).val := fun a => by
    unfold ScatterDims.window
    rw [dif_pos (hk a)]
    match a with
    | ⟨0, _⟩ => rfl
    | ⟨1, _⟩ => rfl
  unfold ScatterDims.resultIdx?
  rw [dif_pos (fun a => by rw [hs, hw]; have := (j a).isLt; omega)]
  congr 1
  funext a
  apply Fin.ext
  show ((ScatterDims.mk (s := ⟨2, dims⟩) (si := si) (u := ⟨2, dims⟩) [0, 1] [] [] iv wf).start j idx a
      + ((ScatterDims.mk (s := ⟨2, dims⟩) (si := si) (u := ⟨2, dims⟩) [0, 1] [] [] iv wf).window j a : Int)).toNat = (j a).val
  rw [hs, hw]; omega

/-- So such a scatter — what a padding of a rank-2 array to its own size lowers to — leaves the update, whatever the
    operand and the (empty) scatter indices are. -/
theorem Host.scatter_whole_window {dims : Fin 2 → Nat} (d : ScatterDims ⟨2, dims⟩ si ⟨2, dims⟩)
    (huw : d.updateWindowDims = [0, 1]) (hiw : d.insertedWindowDims = []) (hsd : d.scatterDimsToOperandDims = [])
    (x : (⟨2, dims⟩ : Shape).Idx → α) (idx : IVec si w) (upd : (⟨2, dims⟩ : Shape).Idx → α) :
    Host.scatter d (fun _ b => b) x idx upd = upd :=
  Host.scatter_eq_update_of_resultIdx d idx (fun j => d.resultIdx?_whole_window huw hiw hsd j idx) x upd

end Idealize.ShloMosaic

end
-- ==== Proof.KHost.lean ====
/-
  The one-launch program's two paddings, read: the weights scattered whole over a zero array are the weights, and the
  bias, reshaped to a row and scattered whole over a zero row, is the bias as a row.
-/
import proofs.«113051_g2000303721575557_pallasbulk_376_15_alg».proof.Proof.KCommon
import proofs.«113051_g2000303721575557_pallasbulk_376_15_alg».proof.Proof.LibScatter
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The padded weights are the weights. -/
theorem V_v1 (c : Dev nD) : V m c main_v1 = m ((c : Thread nD τ).loc main_arg1) := by
  dsimp only [V, hostOps0]
  after_results
  exact Host.scatter_whole_window scatter_S128x128_S0_S128x128_01_n_n_0 rfl rfl rfl _ _ _

/-- The padded bias row is the bias reshaped to a row. -/
theorem V_v4 (c : Dev nD) :
    V m c main_v4 = shapeCast S1x128 (m ((c : Thread nD τ).loc main_arg4)) shapeCasts_S128_S1x128 := by
  dsimp only [V, hostOps0]
  after_results
  exact Host.scatter_whole_window scatter_S1x128_S0_S1x128_01_n_n_0 rfl rfl rfl _ _ _

end Cert.KernelIdeal.Hand

end
-- ==== Proof.RVals.lean ====
/-
  The reference program's buffers after its host operations: the adjacency with both normalisations folded in, the
  padded weights, features and bias (each padding a scatter whose window is the whole array).
-/
import proofs.«113051_g2000303721575557_pallasbulk_376_15_alg».proof.Proof.Gen.ReferenceIdeal.Launch
import Idealize.ShloMosaic.Lib.StableHlo.Run

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
variable {F : FTy → Type} [FloatOps F]

local notation "𝕄" => MT nD τ sig Unit (Elt F) ℕ (UR sig nD τ) ℕ

/-- Core `c`'s buffers after the host operations that precede the first region, from the launch memory `m`. -/
abbrev W1 (m : (ℓ : Loc nD τ sig) → Buf (Elt F) ℓ) (c : Dev nD) (b : Ref sig .tc) : Buf (Elt F) ((c : Thread nD τ).loc b) :=
  StableHlo.after hostOps0 (fun b => m (c, b)) (Proc.devRef .tc b)

end Cert.ReferenceIdeal.Hand

end
-- ==== Proof.RBody0.lean ====
/-
  The reference's first region: the transformed features `h · W`, 128 rows per grid point (32 points). Each point
  loads its block of 128 feature rows and the whole weight matrix and stores their product into its block of the
  result. Stated for ANY contents `W` the region is entered with.
-/
import proofs.«113051_g2000303721575557_pallasbulk_376_15_alg».proof.Proof.Gen.ReferenceIdeal.Launch
import proofs.«113051_g2000303721575557_pallasbulk_376_15_alg».proof.Proof.Gen.ReferenceIdeal.Skeleton
import proofs.«113051_g2000303721575557_pallasbulk_376_15_alg».proof.Proof.Gen.ReferenceIdeal.Points
import proofs.«113051_g2000303721575557_pallasbulk_376_15_alg».proof.Proof.Spec
import proofs.«113051_g2000303721575557_pallasbulk_376_15_alg».proof.Proof.LibDot2
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
variable {F : FTy → Type} [FloatOps F]

local notation "𝕄" => MT nD τ sig Unit (Elt F) ℕ (UR sig nD τ) ℕ

/-- Window `w`'s block at point `t`, read off its array. -/
def iblk0 (W : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-! ## One run of the body

The three staging buffers are 128 × 128 and the body touches each through the rectangle that is all of it: it reads
the feature block and the weights, multiplies them into a zero accumulator, and stores the product over the whole
result buffer. -/

/-- The rectangle that is all of a 128 × 128 buffer. -/
abbrev all128 : Rect S128x128 := Rect.unit (s := S128x128) ![0, 0] S128x128.size inb_S128x128_S128x128_0_0

/-- The result buffer after the body, from the contents `x` of the feature buffer and `y` of the weight buffer: the
    one store, of the product of what the two loads read. -/
def prod0 (x y : Vec F S128x128 .f32) : Vec F S128x128 .f32 :=
  View.canon [⟨all128, k0_pay1 (View.ld x all128) (View.ld y all128)⟩]

/-- The one store fills the buffer. -/
theorem all128_covers (p : Vec F S128x128 .f32) (j : S128x128.Idx) :
    ∃ pc ∈ ([⟨all128, p⟩] : List (View.Piece (Elt F) S128x128 .f32)), j ∈ pc.1.set :=
  View.cover_of_tiled [⟨all128, p⟩] S128x128.size (by rfl) j

set_option maxHeartbeats 1000000 in
/-- The body on whole staging memrefs — the inputs' at `x` and `y`, the result's at anything — runs to a state with
    the inputs' unchanged and the result's at `prod0 x y`. -/
theorem run0 (c : Dev nD) (E : Set ℕ) (i : grid0.Coords)
    (a1 : Memref sig .tc .vmem S128x128 .f32) (h1 : a1.IsWhole) (a2 : Memref sig .tc .vmem S128x128 .f32) (h2 : a2.IsWhole)
    (a3 : Memref sig .tc .vmem S128x128 .f32) (h3 : a3.IsWhole) (x y : Vec F S128x128 .f32) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y ∗ owns (c : Thread nD τ) a3 fullShare (prod0 x y)) -∗ K ⟨⟩))
      ⊢ wp frame (wpE (defs₀ (F := F)) Variants.none c none) E (cc0_xw_kernel i a1 h1 a2 h2 a3 h3) K := by
  simp only [cc0_xw_kernel_eq_skeleton]; unfold cc0_xw_kernel_skel
  unfold owns
  iintro ⟨⟨%fx, %hx, Hx⟩, ⟨%fy, %hy, Hy⟩, ⟨%d, %fo, -, Ho⟩, Hk⟩
  subst hx hy
  sl_exec
  sl_step
  iapply Hk
  isplitl [Hx]
  · iexists fx; isplitr; · ipureintro; rfl
    iexact Hx
  isplitl [Hy]
  · iexists fy; isplitr; · ipureintro; rfl
    iexact Hy
  iexists _; isplitr
  swap; · iexact Ho
  ipureintro
  exact View.read_writes_eq_canon _ _ _ (all128_covers _)

/-! ## The region's proof data -/

/-- What point `t` leaves in the result's staging buffer. -/
def out0 (W : (c : Dev nD) → (b : Ref sig .tc) → Buf (Elt F) ((c : Thread nD τ).loc b)) (c : Dev nD) (t : Fin cfg0.N) : Vec F S128x128 .f32 :=
  prod0 (iblk0 W c 0 t) (iblk0 W c 1 t)

/-- The region's proof data: the arrays as found; after the body each input's buffer at its block and the result's at
    `out0`; the invariant the scoped rest and the generator register at anything; full shares; nothing owed. -/
def dat0 (W : (c : Dev nD) → (b : Ref sig .tc) → Buf (Elt F) ((c : Thread nD τ).loc b)) (c : Dev nD) : Dat τ (Elt F) Unit ℕ (UR sig nD τ) ℕ cfg0 c where
  A w := W c (Pipeline.arrRef spec0 w)
  after w t := match w with
    | ⟨0, _⟩ => iblk0 W c 0 t
    | ⟨1, _⟩ => iblk0 W c 1 t
    | ⟨2, _⟩ => out0 W c t
  Φ _ := Pipeline.ΦA spec0 c
  q _ := fullShare
  owed _ := 0

theorem dat0_A (W : (c : Dev nD) → (b : Ref sig .tc) → Buf (Elt F) ((c : Thread nD τ).loc b)) (c : Dev nD) (w : Fin cfg0.W) : (dat0 W c).A w = W c (Pipeline.arrRef spec0 w) := by dsimp only [dat0]

section
variable (W : (c : Dev nD) → (b : Ref sig .tc) → Buf (Elt F) ((c : Thread nD τ).loc b)) (c : Dev nD)

theorem dat0_after0 (t : Fin cfg0.N) : (dat0 W c).after 0 t = iblk0 W c 0 t := by dsimp only [dat0]
theorem dat0_after1 (t : Fin cfg0.N) : (dat0 W c).after 1 t = iblk0 W c 1 t := by dsimp only [dat0]
theorem dat0_after2 (t : Fin cfg0.N) : (dat0 W c).after 2 t = out0 W c t := by dsimp only [dat0]

/-- The feature window's current buffer holds the point's block when the body runs: the window is fetched at every
    point and the body leaves the block in place. -/
theorem dat0_before0 (t : Fin cfg0.N) (d) : (dat0 W c).before 0 t d = iblk0 W c 0 t := by
  have hkeep : ∀ s, (cfg0.win 0).cut (cfg0.grid.coords s) ((dat0 W c).after 0 s) = (dat0 W c).blockOf 0 s := fun s => by
    rw [dat0_after0]; unfold Dat.blockOf iblk0; rw [dat0_A]; try rfl
  rw [(dat0 W c).before_in_eq_fetched 0 rfl (fun _ => rfl) (fun _ _ _ => rfl) hkeep t d]
  unfold Dat.fetched Dat.blockOf iblk0; rw [dat0_A]; try rfl

/-- The weight window's current buffer holds the whole weight matrix at every point, though it is fetched at the first
    only: its block index never moves. -/
theorem dat0_before1 (t : Fin cfg0.N) (d) : (dat0 W c).before 1 t d = iblk0 W c 1 t := by
  have hkeep : ∀ s, (cfg0.win 1).cut (cfg0.grid.coords s) ((dat0 W c).after 1 s) = (dat0 W c).blockOf 1 s := fun s => by
    rw [dat0_after1]; unfold Dat.blockOf iblk0; rw [dat0_A]; try rfl
  rw [(dat0 W c).before_in_eq_fetched 1 rfl (fun _ => rfl) (fun _ _ _ => rfl) hkeep t d]
  unfold Dat.fetched Dat.blockOf iblk0; rw [dat0_A]; try rfl

end

/-- The body obligation at every point. -/
theorem body0 (W : (c : Dev nD) → (b : Ref sig .tc) → Buf (Elt F) ((c : Thread nD τ).loc b)) (c : Dev nD) : BodyObligation (dat0 (F := F) W c) (defs₀ (F := F)) Variants.none () Set.univ := fun t => by
  rw [bigSep_W0, bigSep_W0]
  show iprop((dat0 W c).Φ t.castSucc ∗ (dat0 W c).owesAt () t.castSucc
      ∗ (∃ d, owns (c : Thread nD τ) (st0_0 t) fullShare ((dat0 W c).before 0 t d))
      ∗ (∃ d, owns (c : Thread nD τ) (st0_1 t) fullShare ((dat0 W c).before 1 t d))
      ∗ (∃ d, owns (c : Thread nD τ) (st0_2 t) fullShare ((dat0 W c).before 2 t d)))
    ⊢ wp frame (wpE (defs₀ (F := F)) Variants.none c none) Set.univ (bodyAt0 t) (fun _ =>
        iprop((dat0 W c).Φ t.castSucc ∗ (dat0 W c).owesAt () t.castSucc
          ∗ owns (c : Thread nD τ) (st0_0 t) fullShare ((dat0 W c).after 0 t)
          ∗ owns (c : Thread nD τ) (st0_1 t) fullShare ((dat0 W c).after 1 t)
          ∗ owns (c : Thread nD τ) (st0_2 t) fullShare ((dat0 W c).after 2 t)))
  simp only [dat0_before0, dat0_before1]
  rw [dat0_after0, dat0_after1, dat0_after2]
  unfold bodyAt0 out0
  iintro ⟨HΦ, Hw, ⟨%d0, H0⟩, ⟨%d1, H1⟩, ⟨%d2, H2⟩⟩
  iapply (run0 c Set.univ _ _ _ _ _ _ _ (iblk0 W c 0 t) (iblk0 W c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

/-! ## The result array, at the ideal instance

Point `t` writes rows `128 t … 128 t + 127` of the result, all 128 columns; over the 32 points the blocks tile the
array. Entry `(p, q)` of the stored block is the inner product of row `p` of the feature block with column `q` of
the weights, and row `p` of the feature block is row `128 t + p` of the feature array. -/

section Value

open Idealize.ShloMosaic.ValueIdx

theorem zero2 : (![0, 0] : Fin 2 → Nat) = fun _ => 0 := funext fun a => by fin_cases a <;> rfl

/-- The stored block at `(p, q)`: the sum over `k` of `x[p, k] · y[k, q]`. -/
theorem prod0_apply (x y : Vec Ideal S128x128 .f32) (p q : Fin 128) :
    prod0 x y (ix2 p q) = ∑ k : Fin 128, x (ix2 p k) * y (ix2 k q) := by
  unfold prod0
  rw [View.canon_unit_zero zero2]
  unfold k0_pay1
  simp only [View.ld_unit_zero (S := S128x128) zero2, shapeCast_self]
  exact Dot2.matmul_zero_mm_apply _ none x y p q

/-- Where the blocks sit: at point `t` the feature window and the result window are at block row `t`, the weight
    window at block row 0; every window at block column 0. -/
theorem blockAt0 : ∀ t : Fin cfg0.N,
    win0_0.index t 0 = t.val ∧ win0_0.index t 1 = 0 ∧ win0_1.index t 0 = 0 ∧ win0_1.index t 1 = 0
      ∧ win0_2.index t 0 = t.val ∧ win0_2.index t 1 = 0 :=
  (by decide +kernel : ∀ t : Fin grid0.N,
    win0_0.index t 0 = t.val ∧ win0_0.index t 1 = 0 ∧ win0_1.index t 0 = 0 ∧ win0_1.index t 1 = 0
      ∧ win0_2.index t 0 = t.val ∧ win0_2.index t 1 = 0)

/-- No block of the result window is cut: each is 128 × 128. -/
theorem blockSize2 : ∀ t : Fin cfg0.N, win0_2.xsize (grid0.coords t) 0 = 128 ∧ win0_2.xsize (grid0.coords t) 1 = 128 :=
  (by decide +kernel : ∀ t : Fin grid0.N, win0_2.xsize (grid0.coords t) 0 = 128 ∧ win0_2.xsize (grid0.coords t) 1 = 128)

variable (W : (c : Dev nD) → (b : Ref sig .tc) → Buf (Elt F) ((c : Thread nD τ).loc b)) (c : Dev nD)

/-- Entry `x` of the feature block at point `t` is entry `(128 t + x₀, x₁)` of the feature array. -/
theorem featBlock_apply (t : Fin cfg0.N) (x : S128x128.Idx) (k : S4096x128.Idx)
    (h0 : (k 0).val = 128 * t.val + (x 0).val) (h1 : (k 1).val = (x 1).val) :
    (iblk0 W c 0 t : Vec F S128x128 .f32) x = (W c main_v11 : S4096x128.Idx → Elt F .f32) k := by
  unfold iblk0
  rw [View.read_apply]
  show W c main_v11 _ = W c main_v11 _
  congr 1
  funext a
  apply Fin.ext
  match a with
  | ⟨0, _⟩ => show win0_0.index t 0 * 128 + 1 * (x 0).val = (k 0).val; rw [(blockAt0 t).1, h0]; omega
  | ⟨1, _⟩ => show win0_0.index t 1 * 128 + 1 * (x 1).val = (k 1).val; rw [(blockAt0 t).2.1, h1]; omega

/-- The weight block at any point is the weight array. -/
theorem weightBlock_apply (t : Fin cfg0.N) (x : S128x128.Idx) :
    (iblk0 W c 1 t : Vec F S128x128 .f32) x = (W c main_v6 : S128x128.Idx → Elt F .f32) x := by
  unfold iblk0
  rw [View.read_apply]
  show W c main_v6 _ = W c main_v6 _
  congr 1
  funext a
  apply Fin.ext
  match a with
  | ⟨0, _⟩ => show win0_1.index t 0 * 128 + 1 * (x 0).val = (x 0).val; rw [(blockAt0 t).2.2.1]; omega
  | ⟨1, _⟩ => show win0_1.index t 1 * 128 + 1 * (x 1).val = (x 1).val; rw [(blockAt0 t).2.2.2.1]; omega

end Value

section ValueIdeal

open Idealize.ShloMosaic.ValueIdx

variable (W : (c : Dev nD) → (b : Ref sig .tc) → Buf (Elt Ideal) ((c : Thread nD τ).loc b)) (c : Dev nD)

/-- The product of the feature array by the weight array, as contents of the result array. -/
abbrev hW : S4096x128.Idx → Elt Ideal .f32 := fun j => Cert.Spec.xw (W c main_v11) (W c main_v6) (j 0) (j 1)

/-- Entry `(p, q)` of the block point `t` stores is entry `(128 t + p, q)` of the product. -/
theorem prodBlock_apply (t : Fin cfg0.N) (p q : Fin 128) (i : S4096x128.Idx)
    (h0 : (i 0).val = 128 * t.val + p.val) (h1 : (i 1).val = q.val) :
    prod0 (iblk0 W c 0 t) (iblk0 W c 1 t) (ix2 p q) = hW W c i := by
  rw [prod0_apply]
  show _ = Cert.Spec.xw (W c main_v11) (W c main_v6) (i 0) (i 1)
  unfold Cert.Spec.xw
  refine Finset.sum_congr rfl fun k _ => ?_
  rw [featBlock_apply W c t (ix2 p k) (ix2 (i 0) k) h0 rfl, weightBlock_apply W c t (ix2 k q),
    show i 1 = q from Fin.ext h1]

/-- What point `t` writes back is its block of the product. -/
theorem flushed0 (t : Fin cfg0.N) :
    (dat0 W c).flushed 2 t = ((cfg0.win 2).blk t).view.read (Elt Ideal) (hW W c) := by
  refine funext fun (y : S128x128.Idx) => ?_
  show (dat0 W c).after 2 t y = _
  rw [dat0_after2, View.read_apply]
  unfold out0
  conv_lhs => rw [eq_ix2 y]
  refine prodBlock_apply W c t (y 0) (y 1) _ ?_ ?_
  · show win0_2.index t 0 * 128 + 1 * (y 0).val = _; rw [(blockAt0 t).2.2.2.2.1]; omega
  · show win0_2.index t 1 * 128 + 1 * (y 1).val = _; rw [(blockAt0 t).2.2.2.2.2]; omega

/-- Every entry of the result array is in the block of the point its row falls to. -/
theorem cover0 (i : S4096x128.Idx) :
    ∃ t : Fin cfg0.N, (cfg0.win 2).flush t = true ∧ i ∈ ((cfg0.win 2).blk t).view.set := by
  have hr : (i 0 : Nat) < 4096 := (i 0).isLt
  have hc : (i 1 : Nat) < 128 := (i 1).isLt
  have hN : cfg0.N = 32 := N_0
  refine ⟨⟨(i 0 : Nat) / 128, by rw [hN]; omega⟩, flush0_2 _, ?_⟩
  generalize ht : (⟨(i 0 : Nat) / 128, by rw [hN]; omega⟩ : Fin cfg0.N) = t
  have htv : t.val = (i 0 : Nat) / 128 := by rw [← ht]
  show i ∈ ((View.whole main_v14).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    rw [(blockAt0 t).2.2.2.2.1, (blockSize2 t).1, show win0_2.size 0 = 128 from rfl, htv]; omega
  | ⟨1, _⟩ =>
    show win0_2.index t 1 * win0_2.size 1 ≤ (i 1 : Nat) ∧ (i 1 : Nat) < win0_2.index t 1 * win0_2.size 1 + win0_2.xsize (grid0.coords t) 1
    rw [(blockAt0 t).2.2.2.2.2, (blockSize2 t).2]; omega

end ValueIdeal

/-- At the ideal instance the result array after the region is the matrix product of the two arrays, index by index. -/
theorem out0_value (W : (c : Dev nD) → (b : Ref sig .tc) → Buf (Elt Ideal) ((c : Thread nD τ).loc b)) (c : Dev nD) :
    (dat0 (F := Ideal) W c).arrAt 2 cfg0.N = fun j : S4096x128.Idx => Cert.Spec.xw (W c main_v11) (W c main_v6) (j 0) (j 1) :=
  (dat0 W c).arrAt_eq_of_cover 2 (hW W c) (fun t _ => flushed0 W c t) cover0

end Cert.ReferenceIdeal.Hand

end
-- ==== Proof.SpecAgg.lean ====
/-
  The blockwise aggregation, stated of ANY normalised adjacency `Ah : [4096, 4096]`, transformed features
  `HW : [4096, 128]` and bias row `brow : [1, 128]`: the accumulator starts from block 0's product and adds
  the products of blocks 1 … 31 in order; after the last block the bias row is added and the result is
  rectified. With the adjacency normalised on both sides and `HW = h · W` this is `foldedOut`.
-/
import proofs.«113051_g2000303721575557_pallasbulk_376_15_alg».proof.Proof.Spec

noncomputable section

open scoped BigOperators

namespace Cert.Spec

open Idealize.ShloMosaic Idealize.ShloMosaic.ValueIdx

abbrev IdxB2 : Type := (⟨2, ![1, 128]⟩ : Shape).Idx

variable (Ah : IdxA → EReal) (HW : IdxH → EReal) (brow : IdxB2 → EReal)

/-- Block `kb`'s product at `(i, f)`: `Σ_{k < 128} Ah[i, 128 kb + k] · HW[128 kb + k, f]`. -/
def blockProd (i : Fin 4096) (f : Fin 128) (kb : Fin 32) : EReal :=
  ∑ k : Fin 128, Ah (ix2 i (inBlock kb k)) * HW (ix2 (inBlock kb k) f)

/-- The accumulator after blocks `0 … kb` (block numbers past 31 add nothing). -/
def accBlocks (i : Fin 4096) (f : Fin 128) : ℕ → EReal
  | 0 => blockProd Ah HW i f ⟨0, by decide⟩
  | kb + 1 => if hk : kb + 1 < 32 then accBlocks i f kb + blockProd Ah HW i f ⟨kb + 1, hk⟩ else accBlocks i f kb

/-- All 32 blocks accumulated, the bias row added, rectified. -/
def aggOut (i : Fin 4096) (f : Fin 128) : EReal :=
  max (accBlocks Ah HW i f 31 + brow (ix2 0 f)) 0

/-- The blockwise layer is the generic aggregation of the normalised adjacency and the transformed features. -/
theorem foldedOut_eq_aggOut (h : IdxH → EReal) (W : IdxW → EReal) (n : IdxN → EReal) (A : IdxA → EReal) (b : IdxB → EReal)
    (i : Fin 4096) (f : Fin 128) :
    foldedOut h W n A b i f
      = aggOut (fun j => normAdj n A (j 0) (j 1)) (fun j => xw h W (j 0) (j 1)) (fun j => b (ix1 (j 1))) i f := by
  have hacc : ∀ kb, accUpTo h W n A i f kb
      = accBlocks (fun j => normAdj n A (j 0) (j 1)) (fun j => xw h W (j 0) (j 1)) i f kb := by
    intro kb
    induction kb with
    | zero => rfl
    | succ kb ih =>
      simp only [accUpTo, accBlocks]
      split
      · rw [ih]; rfl
      · exact ih
  unfold foldedOut aggOut
  rw [hacc]

end Cert.Spec

end
-- ==== Proof.RCommon1.lean ====
/-
  The aggregation region: what its body's runs and its proof data are stated over.

  The grid is 32 × 32; point `t` has coordinates `(t / 32, t % 32)`. The body branches twice on the second
  coordinate `k`: on `k = 0` (it then resets the accumulator) and on `k = 31` (it then stores the output
  rows). The accumulator is a scratch array of the kernel's own, kept from point to point; the output
  window is stored only where `k = 31`, and only there is it written back.
-/
import proofs.«113051_g2000303721575557_pallasbulk_376_15_alg».proof.Proof.Gen.ReferenceIdeal.Launch
import proofs.«113051_g2000303721575557_pallasbulk_376_15_alg».proof.Proof.Gen.ReferenceIdeal.Skeleton
import proofs.«113051_g2000303721575557_pallasbulk_376_15_alg».proof.Proof.Gen.ReferenceIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
variable {F : FTy → Type} [FloatOps F]

local notation "𝕄" => MT nD τ sig Unit (Elt F) ℕ (UR sig nD τ) ℕ

/-! ## The body's two branches -/

/-- The first branch's condition from the grid coordinates: "`k = 0`". -/
abbrev aggCond0 (i : grid1.Coords) : Prop :=
  (Scalar.cmpi .ne (Scalar.extui (Scalar.cmpi .eq (BitVec.ofNat 32 (i 1).val) 0#32)) 0#32) = 1#1
/-- It holds at the points ≡ 0 (mod 32). -/
theorem haggCond0 : ∀ t : Fin cfg1.N, aggCond0 (grid1.coords t) ↔ t.val % 32 = 0 :=
  (by decide +kernel : ∀ t : Fin grid1.N, aggCond0 (grid1.coords t) ↔ t.val % 32 = 0)

/-- The second branch's condition: "`k = 31`". -/
abbrev aggCond1 (i : grid1.Coords) : Prop := k1_cond2 i = 1#1
/-- It holds at the points ≡ 31 (mod 32). -/
theorem haggCond1 : ∀ t : Fin cfg1.N, aggCond1 (grid1.coords t) ↔ t.val % 32 = 31 :=
  (by decide +kernel : ∀ t : Fin grid1.N, aggCond1 (grid1.coords t) ↔ t.val % 32 = 31)

/-! ## Where the output window is idle -/

/-- Where `k ≠ 31` the output window is idle: the body stores nothing into it. -/
theorem aggIdle3 (t : Fin cfg1.N) (h : ¬aggCond1 (grid1.coords t)) : cfg1.idle 3 (grid1.coords t) = true := by
  show (!(k1_cond2 (grid1.coords t) == 1#1)) = true
  rw [Bool.not_eq_true', beq_eq_false_iff_ne]
  exact h
/-- There the pipeline does not write its block back. -/
theorem aggNoFlush3 (t : Fin cfg1.N) (h : ¬aggCond1 (grid1.coords t)) : (cfg1.win 3).flush t = false := by
  cases hf : (cfg1.win 3).flush t
  · rfl
  · exact absurd ((haggCond1 t).mpr ((flush1_3 t).mp hf)) h
/-- Where `k = 31` the output window is live. -/
theorem aggLive3 (t : Fin cfg1.N) (h : aggCond1 (grid1.coords t)) : cfg1.idle 3 (grid1.coords t) = false := by
  show (!(k1_cond2 (grid1.coords t) == 1#1)) = false
  rw [Bool.not_eq_false', beq_iff_eq]
  exact h

/-! ## The staging memrefs at a point, and the accumulator -/

abbrev aggMs0 (t : Fin cfg1.N) : Memref sig .tc .vmem S128x128 .f32 := win1_0.stage (cfg1.slots t 0)
abbrev aggHs0 (t : Fin cfg1.N) : (aggMs0 t).IsWhole := hstage1_0 ((cfg1.slots t 0).cast nbuf1_0)
abbrev aggMs1 (t : Fin cfg1.N) : Memref sig .tc .vmem S128x128 .f32 := win1_1.stage (cfg1.slots t 1)
abbrev aggHs1 (t : Fin cfg1.N) : (aggMs1 t).IsWhole := hstage1_1 ((cfg1.slots t 1).cast nbuf1_1)
abbrev aggMs2 (t : Fin cfg1.N) : Memref sig .tc .vmem S1x128 .f32 := win1_2.stage (cfg1.slots t 2)
abbrev aggHs2 (t : Fin cfg1.N) : (aggMs2 t).IsWhole := hstage1_2 ((cfg1.slots t 2).cast nbuf1_2)
abbrev aggMs3 (t : Fin cfg1.N) : Memref sig .tc .vmem S128x128 .f32 := win1_3.stage (cfg1.slots t 3)
abbrev aggHs3 (t : Fin cfg1.N) : (aggMs3 t).IsWhole := hstage1_3 ((cfg1.slots t 3).cast nbuf1_3)

/-- The accumulator: a whole scoped buffer of the kernel's own. -/
abbrev aggScM : Memref sig .tc .vmem S128x128 .f32 := Memref.whole cc1_scratch0
/-- One staging buffer of the output window, through which its contents are stated. -/
abbrev aggVO : View sig .tc .vmem S128x128 .f32 := (Memref.whole cc1_stg3_0 : Memref sig .tc .vmem S128x128 .f32).view
/-- The accumulator as a view. -/
abbrev aggVS : View sig .tc .vmem S128x128 .f32 := aggScM.view

/-- The core's scoped buffers that this region's pipeline does not stage — the first region's staging buffers,
    each at some contents, which the body never touches — together with a statement `X` about the accumulator. -/
def aggRest (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ X)

/-- The region's own invariant with the accumulator as a memref owned at some contents. -/
theorem aggPhiA_eq (c : Dev nD) :
    (Pipeline.ΦA spec1 c : sProp 𝕄)
      = iprop(aggRest c iprop(∃ d, owns (c : Thread nD τ) aggScM fullShare d) ∗ (∃ r, prngReg c r)) := by
  unfold Pipeline.ΦA aggRest; rw [scopedRest1_eq]; simp only [aggScM, owns_whole]; try rfl

end Cert.ReferenceIdeal.Hand

end
-- ==== Proof.RRun1A.lean ====
/-
  The aggregation body where `k = 0`, run whole: it loads the accumulator and stores zeros over it, loads it back
  with the adjacency block and the feature block, and stores the zeros plus the blocks' product into it. The
  output window is not touched.
-/
import proofs.«113051_g2000303721575557_pallasbulk_376_15_alg».proof.Proof.RCommon1

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
variable {F : FTy → Type} [FloatOps F]

local notation "𝕄" => MT nD τ sig Unit (Elt F) ℕ (UR sig nD τ) ℕ

set_option maxHeartbeats 1000000 in
/-- What the body's stores leave in the accumulator where `k = 0` (first branch taken, second not), as pieces, with
    the proof that from the three inputs' buffers at their contents, the output's buffer at any contents `xi3` and
    the accumulator at anything, the body runs to the continuation holding the inputs' and the output's buffers
    as they were and the accumulator with the pieces written. -/
noncomputable def aggRunA (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : aggCond0 i) (hc1 : ¬aggCond1 i)
    (x0 : Vec F S128x128 .f32) (x1 : Vec F S128x128 .f32) (x2 : Vec F S1x128 .f32) :
    Σ' (L3 : List (View.Piece (Elt F) S128x128 .f32)), { LS : List (View.Piece (Elt F) S128x128 .f32) //
      ∀ (xi3 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_agg_kernel i arg2 harg2 arg3 harg3 arg4 harg4 arg5 harg5 arg6 harg6) K } := by
  refine ⟨[], ?_, fun xi3 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.ReferenceIdeal.Hand

end
-- ==== Proof.RRun1B.lean ====
/-
  The aggregation body where `0 < k < 31`, run whole: it loads the accumulator, the adjacency block and the
  feature block, and stores the accumulator plus the blocks' product back. The output window is not touched.
-/
import proofs.«113051_g2000303721575557_pallasbulk_376_15_alg».proof.Proof.RRun1A

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
variable {F : FTy → Type} [FloatOps F]

local notation "𝕄" => MT nD τ sig Unit (Elt F) ℕ (UR sig nD τ) ℕ

set_option maxHeartbeats 1000000 in
/-- What the body's stores leave in the accumulator where `0 < k < 31` (neither branch taken), as pieces, with the
    proof that from the three inputs' buffers at their contents, the output's buffer at any contents `xi3` and the
    accumulator at the contents `xs` the point before left, the body runs to the continuation holding the inputs'
    and the output's buffers as they were and the accumulator with the pieces written. -/
noncomputable def aggRunB (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : ¬aggCond1 i)
    (x0 : Vec F S128x128 .f32) (x1 : Vec F S128x128 .f32) (x2 : Vec F S1x128 .f32) (xs : Vec F S128x128 .f32) :
    Σ' (L3 : List (View.Piece (Elt F) S128x128 .f32)), { LS : List (View.Piece (Elt F) S128x128 .f32) //
      ∀ (xi3 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_agg_kernel i arg2 harg2 arg3 harg3 arg4 harg4 arg5 harg5 arg6 harg6) K } := by
  refine ⟨[], ?_, fun xi3 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.ReferenceIdeal.Hand

end
-- ==== Proof.RRun1C.lean ====
/-
  The aggregation body where `k = 31`, run whole: it loads the accumulator, the adjacency block and the feature
  block, stores the accumulator plus the blocks' product back, then loads the accumulator and the bias row and
  stores the rectified sum into the output's staging buffer.
-/
import proofs.«113051_g2000303721575557_pallasbulk_376_15_alg».proof.Proof.RRun1B

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
variable {F : FTy → Type} [FloatOps F]

local notation "𝕄" => MT nD τ sig Unit (Elt F) ℕ (UR sig nD τ) ℕ

set_option maxHeartbeats 1000000 in
/-- What the body's stores leave in the output's staging buffer and in the accumulator where `k = 31` (first branch
    not taken, second taken), as pieces, with the proof that from the three inputs' buffers at their contents, the
    output's buffer at anything and the accumulator at the contents `xs` the point before left, the body runs to
    the continuation holding the inputs' buffers as they were and the other two with the pieces written. -/
noncomputable def aggRunC (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : aggCond1 i)
    (x0 : Vec F S128x128 .f32) (x1 : Vec F S128x128 .f32) (x2 : Vec F S1x128 .f32) (xs : Vec F S128x128 .f32) :
    Σ' (L3 : List (View.Piece (Elt F) S128x128 .f32)), { LS : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1_agg_kernel i arg2 harg2 arg3 harg3 arg4 harg4 arg5 harg5 arg6 harg6) K } := by
  refine ⟨?_, ?_, fun E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.ReferenceIdeal.Hand

end
-- ==== Proof.RBody1.lean ====
/-
  The reference's second region: the aggregation. The grid is 32 × 32: point `(i, k)` multiplies block `(i, k)` of the
  normalised adjacency by block `k` of the transformed features and adds the product to an accumulator kept in a
  scratch array, which it resets to zero first when `k = 0`; when `k = 31` it adds the bias row to the accumulator,
  rectifies, and stores the 128 output rows of block `i` (at the other points the output window is left as found and
  not written back). Stated for ANY contents `W` the region is entered with.
-/
import proofs.«113051_g2000303721575557_pallasbulk_376_15_alg».proof.Proof.Gen.ReferenceIdeal.Launch
import proofs.«113051_g2000303721575557_pallasbulk_376_15_alg».proof.Proof.Gen.ReferenceIdeal.Skeleton
import proofs.«113051_g2000303721575557_pallasbulk_376_15_alg».proof.Proof.Gen.ReferenceIdeal.Points
import proofs.«113051_g2000303721575557_pallasbulk_376_15_alg».proof.Proof.SpecAgg
import proofs.«113051_g2000303721575557_pallasbulk_376_15_alg».proof.Proof.LibDot2
import proofs.«113051_g2000303721575557_pallasbulk_376_15_alg».proof.Proof.RRun1C
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
variable {F : FTy → Type} [FloatOps F]

local notation "𝕄" => MT nD τ sig Unit (Elt F) ℕ (UR sig nD τ) ℕ

/-- Window `w`'s block at point `t`, read off its array. -/
def iblk1 (W : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The three input blocks at point `t`, at their literal types: the adjacency block, the feature block, the bias row. -/
abbrev aggBlkA (W : (c : Dev nD) → (b : Ref sig .tc) → Buf (Elt F) ((c : Thread nD τ).loc b)) (c : Dev nD) (t : Fin cfg1.N) : Vec F S128x128 .f32 := iblk1 W c 0 t
abbrev aggBlkH (W : (c : Dev nD) → (b : Ref sig .tc) → Buf (Elt F) ((c : Thread nD τ).loc b)) (c : Dev nD) (t : Fin cfg1.N) : Vec F S128x128 .f32 := iblk1 W c 1 t
abbrev aggBlkB (W : (c : Dev nD) → (b : Ref sig .tc) → Buf (Elt F) ((c : Thread nD τ).loc b)) (c : Dev nD) (t : Fin cfg1.N) : Vec F S1x128 .f32 := iblk1 W c 2 t

/-! ## What each case leaves in the accumulator and in the output's buffer -/

/-- Where `k = 0` the accumulator's pieces cover it. -/
theorem aggScoverA (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : aggCond0 i) (hc1 : ¬aggCond1 i)
    (x0 : Vec F S128x128 .f32) (x1 : Vec F S128x128 .f32) (x2 : Vec F S1x128 .f32) (y : S128x128.Idx) :
    ∃ pc ∈ (aggRunA c i arg2 harg2 arg3 harg3 arg4 harg4 arg5 harg5 arg6 harg6 hc0 hc1 x0 x1 x2).2.1, y ∈ pc.1.set :=
  View.cover_of_tiledL (aggRunA c i arg2 harg2 arg3 harg3 arg4 harg4 arg5 harg5 arg6 harg6 hc0 hc1 x0 x1 x2).2.1 S128x128.size (by sl_kernel_rfl) y

/-- What the accumulator holds after a point with `k = 0`: its pieces read back. -/
def aggSoutA (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : aggCond0 i) (hc1 : ¬aggCond1 i)
    (x0 : Vec F S128x128 .f32) (x1 : Vec F S128x128 .f32) (x2 : Vec F S1x128 .f32) : Vec F S128x128 .f32 :=
  aggVS.read (Elt F) (aggVS.writes (Elt F) aggVS.junk (aggRunA c i arg2 harg2 arg3 harg3 arg4 harg4 arg5 harg5 arg6 harg6 hc0 hc1 x0 x1 x2).2.1)

/-- Where `0 < k < 31` the accumulator's pieces cover it. -/
theorem aggScoverB (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : ¬aggCond1 i)
    (x0 : Vec F S128x128 .f32) (x1 : Vec F S128x128 .f32) (x2 : Vec F S1x128 .f32) (xs : Vec F S128x128 .f32) (y : S128x128.Idx) :
    ∃ pc ∈ (aggRunB c i arg2 harg2 arg3 harg3 arg4 harg4 arg5 harg5 arg6 harg6 hc0 hc1 x0 x1 x2 xs).2.1, y ∈ pc.1.set :=
  View.cover_of_tiledL (aggRunB c i arg2 harg2 arg3 harg3 arg4 harg4 arg5 harg5 arg6 harg6 hc0 hc1 x0 x1 x2 xs).2.1 S128x128.size (by sl_kernel_rfl) y

/-- What the accumulator holds after a point with `0 < k < 31`. -/
def aggSoutB (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : ¬aggCond1 i)
    (x0 : Vec F S128x128 .f32) (x1 : Vec F S128x128 .f32) (x2 : Vec F S1x128 .f32) (xs : Vec F S128x128 .f32) : Vec F S128x128 .f32 :=
  aggVS.read (Elt F) (aggVS.writes (Elt F) aggVS.junk (aggRunB c i arg2 harg2 arg3 harg3 arg4 harg4 arg5 harg5 arg6 harg6 hc0 hc1 x0 x1 x2 xs).2.1)

/-- Where `k = 31` the output's pieces cover its buffer, -/
theorem aggCoverC (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : aggCond1 i)
    (x0 : Vec F S128x128 .f32) (x1 : Vec F S128x128 .f32) (x2 : Vec F S1x128 .f32) (xs : Vec F S128x128 .f32) (y : S128x128.Idx) :
    ∃ pc ∈ (aggRunC c i arg2 harg2 arg3 harg3 arg4 harg4 arg5 harg5 arg6 harg6 hc0 hc1 x0 x1 x2 xs).1, y ∈ pc.1.set :=
  View.cover_of_tiledL (aggRunC c i arg2 harg2 arg3 harg3 arg4 harg4 arg5 harg5 arg6 harg6 hc0 hc1 x0 x1 x2 xs).1 S128x128.size (by sl_kernel_rfl) y

/-- and the accumulator's cover it. -/
theorem aggScoverC (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : aggCond1 i)
    (x0 : Vec F S128x128 .f32) (x1 : Vec F S128x128 .f32) (x2 : Vec F S1x128 .f32) (xs : Vec F S128x128 .f32) (y : S128x128.Idx) :
    ∃ pc ∈ (aggRunC c i arg2 harg2 arg3 harg3 arg4 harg4 arg5 harg5 arg6 harg6 hc0 hc1 x0 x1 x2 xs).2.1, y ∈ pc.1.set :=
  View.cover_of_tiledL (aggRunC c i arg2 harg2 arg3 harg3 arg4 harg4 arg5 harg5 arg6 harg6 hc0 hc1 x0 x1 x2 xs).2.1 S128x128.size (by sl_kernel_rfl) y

/-- What the output's staging buffer holds after a point with `k = 31`. -/
def aggOutC (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : aggCond1 i)
    (x0 : Vec F S128x128 .f32) (x1 : Vec F S128x128 .f32) (x2 : Vec F S1x128 .f32) (xs : Vec F S128x128 .f32) : Vec F S128x128 .f32 :=
  aggVO.read (Elt F) (aggVO.writes (Elt F) aggVO.junk (aggRunC c i arg2 harg2 arg3 harg3 arg4 harg4 arg5 harg5 arg6 harg6 hc0 hc1 x0 x1 x2 xs).1)

/-- What the accumulator holds after a point with `k = 31`. -/
def aggSoutC (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : aggCond1 i)
    (x0 : Vec F S128x128 .f32) (x1 : Vec F S128x128 .f32) (x2 : Vec F S1x128 .f32) (xs : Vec F S128x128 .f32) : Vec F S128x128 .f32 :=
  aggVS.read (Elt F) (aggVS.writes (Elt F) aggVS.junk (aggRunC c i arg2 harg2 arg3 harg3 arg4 harg4 arg5 harg5 arg6 harg6 hc0 hc1 x0 x1 x2 xs).2.1)

/-! ## The accumulator point by point -/

/-- What the accumulator holds after the body at point `n`: where `k = 0` the reset and the first product, elsewhere
    the product added onto what the point before left. -/
def aggAcc (W : (c : Dev nD) → (b : Ref sig .tc) → Buf (Elt F) ((c : Thread nD τ).loc b)) (c : Dev nD) : (n : ℕ) → n < cfg1.N → Vec F S128x128 .f32
  | 0, hn => aggSoutA c (grid1.coords ⟨0, hn⟩) (aggMs0 ⟨0, hn⟩) (aggHs0 ⟨0, hn⟩) (aggMs1 ⟨0, hn⟩) (aggHs1 ⟨0, hn⟩) (aggMs2 ⟨0, hn⟩) (aggHs2 ⟨0, hn⟩) (aggMs3 ⟨0, hn⟩) (aggHs3 ⟨0, hn⟩) aggScM (Memref.isWhole_whole _) ((haggCond0 ⟨0, hn⟩).mpr (Nat.zero_mod _)) (fun h => (fun h' => by (try dsimp only at h'); omega) ((haggCond1 ⟨0, hn⟩).mp h)) (aggBlkA W c ⟨0, hn⟩) (aggBlkH W c ⟨0, hn⟩) (aggBlkB W c ⟨0, hn⟩)
  | n + 1, hn =>
    if h0 : (n + 1) % 32 = 0 then
      aggSoutA c (grid1.coords ⟨n + 1, hn⟩) (aggMs0 ⟨n + 1, hn⟩) (aggHs0 ⟨n + 1, hn⟩) (aggMs1 ⟨n + 1, hn⟩) (aggHs1 ⟨n + 1, hn⟩) (aggMs2 ⟨n + 1, hn⟩) (aggHs2 ⟨n + 1, hn⟩) (aggMs3 ⟨n + 1, hn⟩) (aggHs3 ⟨n + 1, hn⟩) aggScM (Memref.isWhole_whole _) ((haggCond0 ⟨n + 1, hn⟩).mpr h0) (fun h => (fun h' => by (try dsimp only at h'); omega) ((haggCond1 ⟨n + 1, hn⟩).mp h)) (aggBlkA W c ⟨n + 1, hn⟩) (aggBlkH W c ⟨n + 1, hn⟩) (aggBlkB W c ⟨n + 1, hn⟩)
    else
      if h1 : (n + 1) % 32 = 31 then
        aggSoutC c (grid1.coords ⟨n + 1, hn⟩) (aggMs0 ⟨n + 1, hn⟩) (aggHs0 ⟨n + 1, hn⟩) (aggMs1 ⟨n + 1, hn⟩) (aggHs1 ⟨n + 1, hn⟩) (aggMs2 ⟨n + 1, hn⟩) (aggHs2 ⟨n + 1, hn⟩) (aggMs3 ⟨n + 1, hn⟩) (aggHs3 ⟨n + 1, hn⟩) aggScM (Memref.isWhole_whole _) (fun h => h0 ((haggCond0 ⟨n + 1, hn⟩).mp h)) ((haggCond1 ⟨n + 1, hn⟩).mpr h1) (aggBlkA W c ⟨n + 1, hn⟩) (aggBlkH W c ⟨n + 1, hn⟩) (aggBlkB W c ⟨n + 1, hn⟩) (aggAcc W c n (Nat.lt_of_succ_lt hn))
      else
        aggSoutB c (grid1.coords ⟨n + 1, hn⟩) (aggMs0 ⟨n + 1, hn⟩) (aggHs0 ⟨n + 1, hn⟩) (aggMs1 ⟨n + 1, hn⟩) (aggHs1 ⟨n + 1, hn⟩) (aggMs2 ⟨n + 1, hn⟩) (aggHs2 ⟨n + 1, hn⟩) (aggMs3 ⟨n + 1, hn⟩) (aggHs3 ⟨n + 1, hn⟩) aggScM (Memref.isWhole_whole _) (fun h => h0 ((haggCond0 ⟨n + 1, hn⟩).mp h)) (fun h => h1 ((haggCond1 ⟨n + 1, hn⟩).mp h)) (aggBlkA W c ⟨n + 1, hn⟩) (aggBlkH W c ⟨n + 1, hn⟩) (aggBlkB W c ⟨n + 1, hn⟩) (aggAcc W c n (Nat.lt_of_succ_lt hn))

/-- `aggAcc` at a point with `k = 0`. -/
theorem aggAcc_A (W : (c : Dev nD) → (b : Ref sig .tc) → Buf (Elt F) ((c : Thread nD τ).loc b)) (c : Dev nD) (t : Fin cfg1.N) (h0 : t.val % 32 = 0) (h1 : ¬t.val % 32 = 31) :
    aggAcc W c t.val t.isLt = aggSoutA c (grid1.coords t) (aggMs0 t) (aggHs0 t) (aggMs1 t) (aggHs1 t) (aggMs2 t) (aggHs2 t) (aggMs3 t) (aggHs3 t) aggScM (Memref.isWhole_whole _) ((haggCond0 t).mpr h0) (fun h => h1 ((haggCond1 t).mp h)) (aggBlkA W c t) (aggBlkH W c t) (aggBlkB W c t) := by
  obtain ⟨n, hn⟩ := t
  cases n with
  | zero => exact rfl
  | succ n => exact (dif_pos h0).trans rfl

/-- `aggAcc` at a point with `0 < k < 31`: over what the point before left. -/
theorem aggAcc_B (W : (c : Dev nD) → (b : Ref sig .tc) → Buf (Elt F) ((c : Thread nD τ).loc b)) (c : Dev nD) (t : Fin cfg1.N) (h0 : ¬t.val % 32 = 0) (h1 : ¬t.val % 32 = 31) :
    aggAcc W c t.val t.isLt = aggSoutB c (grid1.coords t) (aggMs0 t) (aggHs0 t) (aggMs1 t) (aggHs1 t) (aggMs2 t) (aggHs2 t) (aggMs3 t) (aggHs3 t) aggScM (Memref.isWhole_whole _) (fun h => h0 ((haggCond0 t).mp h)) (fun h => h1 ((haggCond1 t).mp h)) (aggBlkA W c t) (aggBlkH W c t) (aggBlkB W c t) (aggAcc W c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- `aggAcc` at a point with `k = 31`: over what the point before left. -/
theorem aggAcc_C (W : (c : Dev nD) → (b : Ref sig .tc) → Buf (Elt F) ((c : Thread nD τ).loc b)) (c : Dev nD) (t : Fin cfg1.N) (h0 : ¬t.val % 32 = 0) (h1 : t.val % 32 = 31) :
    aggAcc W c t.val t.isLt = aggSoutC c (grid1.coords t) (aggMs0 t) (aggHs0 t) (aggMs1 t) (aggHs1 t) (aggMs2 t) (aggHs2 t) (aggMs3 t) (aggHs3 t) aggScM (Memref.isWhole_whole _) (fun h => h0 ((haggCond0 t).mp h)) ((haggCond1 t).mpr h1) (aggBlkA W c t) (aggBlkH W c t) (aggBlkB W c t) (aggAcc W c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output's staging buffer holds after the body at point `t`: where `k = 31` the rectified sum the body
    stores; elsewhere the window is idle and this is not consulted (it repeats the accumulator). -/
def aggOut (W : (c : Dev nD) → (b : Ref sig .tc) → Buf (Elt F) ((c : Thread nD τ).loc b)) (c : Dev nD) (t : Fin cfg1.N) : Vec F S128x128 .f32 :=
  if h1 : t.val % 32 = 31 then
    aggOutC c (grid1.coords t) (aggMs0 t) (aggHs0 t) (aggMs1 t) (aggHs1 t) (aggMs2 t) (aggHs2 t) (aggMs3 t) (aggHs3 t) aggScM (Memref.isWhole_whole _) (fun h => (fun h' => by omega) ((haggCond0 t).mp h)) ((haggCond1 t).mpr h1) (aggBlkA W c t) (aggBlkH W c t) (aggBlkB W c t) (aggAcc W c (t.val - 1) (Nat.lt_of_le_of_lt (Nat.sub_le _ _) t.isLt))
  else aggAcc W c t.val t.isLt

theorem aggOut_C (W : (c : Dev nD) → (b : Ref sig .tc) → Buf (Elt F) ((c : Thread nD τ).loc b)) (c : Dev nD) (t : Fin cfg1.N) (h0 : ¬t.val % 32 = 0) (h1 : t.val % 32 = 31) :
    aggOut W c t = aggOutC c (grid1.coords t) (aggMs0 t) (aggHs0 t) (aggMs1 t) (aggHs1 t) (aggMs2 t) (aggHs2 t) (aggMs3 t) (aggHs3 t) aggScM (Memref.isWhole_whole _) (fun h => h0 ((haggCond0 t).mp h)) ((haggCond1 t).mpr h1) (aggBlkA W c t) (aggBlkH W c t) (aggBlkB W c t) (aggAcc W c (t.val - 1) (Nat.lt_of_le_of_lt (Nat.sub_le _ _) t.isLt)) := by
  unfold aggOut; exact (dif_pos h1).trans rfl

/-! ## The invariant -/

/-- Before point `n`: at the first point the region's own invariant (the accumulator at anything); afterwards the
    accumulator at what the point before left, the other scoped buffers and the generator register at anything. -/
def aggPhi (W : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(aggRest c (owns (c : Thread nD τ) aggScM fullShare (aggAcc W c n hn)) ∗ (∃ r, prngReg c r))

theorem aggPhi_zero (W : (c : Dev nD) → (b : Ref sig .tc) → Buf (Elt F) ((c : Thread nD τ).loc b)) (c : Dev nD) (n : ℕ) (h : n ≤ cfg1.N) (hz : n = 0) : aggPhi W c n h = Pipeline.ΦA spec1 c := by
  subst hz; rfl

theorem aggPhi_succ (W : (c : Dev nD) → (b : Ref sig .tc) → Buf (Elt F) ((c : Thread nD τ).loc b)) (c : Dev nD) (n : ℕ) (hn : n < cfg1.N) :
    aggPhi W c (n + 1) hn = iprop(aggRest c (owns (c : Thread nD τ) aggScM fullShare (aggAcc W c n hn)) ∗ (∃ r, prngReg c r)) := rfl

theorem aggPhi_pos (W : (c : Dev nD) → (b : Ref sig .tc) → Buf (Elt F) ((c : Thread nD τ).loc b)) (c : Dev nD) (n : ℕ) (h : n ≤ cfg1.N) (hz : n ≠ 0) :
    aggPhi W c n h = iprop(aggRest c (owns (c : Thread nD τ) aggScM fullShare (aggAcc W c (n - 1) (by omega))) ∗ (∃ r, prngReg c r)) := by
  cases n with
  | zero => exact absurd rfl hz
  | succ n => rfl

/-! ## The proof data -/

/-- The region's proof data (its `after` at the output window and its invariant track the accumulator point by point). -/
def dat1 (W : (c : Dev nD) → (b : Ref sig .tc) → Buf (Elt F) ((c : Thread nD τ).loc b)) (c : Dev nD) : Dat τ (Elt F) Unit ℕ (UR sig nD τ) ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => aggOut W c t
  Φ t := aggPhi W c t.val (Nat.le_of_lt_succ t.isLt)
  q _ := fullShare
  owed _ := 0

theorem dat1_A (W : (c : Dev nD) → (b : Ref sig .tc) → Buf (Elt F) ((c : Thread nD τ).loc b)) (c : Dev nD) (w : Fin cfg1.W) : (dat1 W c).A w = W c (Pipeline.arrRef spec1 w) := by dsimp only [dat1]
theorem dat1_q (W : (c : Dev nD) → (b : Ref sig .tc) → Buf (Elt F) ((c : Thread nD τ).loc b)) (c : Dev nD) (w : Fin cfg1.W) : (dat1 W c).q w = fullShare := by dsimp only [dat1]
theorem dat1_owed (W : (c : Dev nD) → (b : Ref sig .tc) → Buf (Elt F) ((c : Thread nD τ).loc b)) (c : Dev nD) (t : Fin (cfg1.N + 1)) : (dat1 W c).owed t = 0 := by dsimp only [dat1]
theorem dat1_recorded (W : (c : Dev nD) → (b : Ref sig .tc) → Buf (Elt F) ((c : Thread nD τ).loc b)) (c : Dev nD) (t : Fin (cfg1.N + 1)) : (dat1 W c).recorded t = Set.univ := rfl

theorem aggPhi_castSucc (W : (c : Dev nD) → (b : Ref sig .tc) → Buf (Elt F) ((c : Thread nD τ).loc b)) (c : Dev nD) (t : Fin cfg1.N) :
    (dat1 W c).Φ t.castSucc = aggPhi W c t.val (Nat.le_of_lt t.isLt) := by
  dsimp only [dat1]; simp only [Fin.coe_castSucc]

theorem aggAfter0 (W : (c : Dev nD) → (b : Ref sig .tc) → Buf (Elt F) ((c : Thread nD τ).loc b)) (c : Dev nD) (t : Fin cfg1.N) : (dat1 W c).after 0 t = iblk1 W c 0 t := by dsimp only [dat1]
theorem aggAfter1 (W : (c : Dev nD) → (b : Ref sig .tc) → Buf (Elt F) ((c : Thread nD τ).loc b)) (c : Dev nD) (t : Fin cfg1.N) : (dat1 W c).after 1 t = iblk1 W c 1 t := by dsimp only [dat1]
theorem aggAfter2 (W : (c : Dev nD) → (b : Ref sig .tc) → Buf (Elt F) ((c : Thread nD τ).loc b)) (c : Dev nD) (t : Fin cfg1.N) : (dat1 W c).after 2 t = iblk1 W c 2 t := by dsimp only [dat1]
theorem aggAfter3 (W : (c : Dev nD) → (b : Ref sig .tc) → Buf (Elt F) ((c : Thread nD τ).loc b)) (c : Dev nD) (t : Fin cfg1.N) : (dat1 W c).after 3 t = aggOut W c t := by dsimp only [dat1]

/-- Input window 0's current staging buffer holds its block at every point, fetched there or not: the body leaves the
    block in place, and where the pipeline does not fetch, the block index has not moved. -/
theorem aggBefore0 (W : (c : Dev nD) → (b : Ref sig .tc) → Buf (Elt F) ((c : Thread nD τ).loc b)) (c : Dev nD) (t : Fin cfg1.N) (d) : (dat1 W c).before 0 t d = iblk1 W c 0 t := by
  have hkeep : ∀ u, (cfg1.win 0).cut (cfg1.grid.coords u) ((dat1 W c).after 0 u) = (dat1 W c).blockOf 0 u := fun u => by
    rw [aggAfter0]; unfold Dat.blockOf iblk1; rw [dat1_A]; try rfl
  rw [(dat1 W c).before_in_eq_fetched 0 rfl (fun _ => rfl) (fun _ _ _ => rfl) hkeep t d]
  unfold Dat.fetched Dat.blockOf iblk1; rw [dat1_A]; try rfl

/-- Input window 1's current staging buffer holds its block at every point, fetched there or not: the body leaves the
    block in place, and where the pipeline does not fetch, the block index has not moved. -/
theorem aggBefore1 (W : (c : Dev nD) → (b : Ref sig .tc) → Buf (Elt F) ((c : Thread nD τ).loc b)) (c : Dev nD) (t : Fin cfg1.N) (d) : (dat1 W c).before 1 t d = iblk1 W c 1 t := by
  have hkeep : ∀ u, (cfg1.win 1).cut (cfg1.grid.coords u) ((dat1 W c).after 1 u) = (dat1 W c).blockOf 1 u := fun u => by
    rw [aggAfter1]; unfold Dat.blockOf iblk1; rw [dat1_A]; try rfl
  rw [(dat1 W c).before_in_eq_fetched 1 rfl (fun _ => rfl) (fun _ _ _ => rfl) hkeep t d]
  unfold Dat.fetched Dat.blockOf iblk1; rw [dat1_A]; try rfl

/-- Input window 2's current staging buffer holds its block at every point, fetched there or not: the body leaves the
    block in place, and where the pipeline does not fetch, the block index has not moved. -/
theorem aggBefore2 (W : (c : Dev nD) → (b : Ref sig .tc) → Buf (Elt F) ((c : Thread nD τ).loc b)) (c : Dev nD) (t : Fin cfg1.N) (d) : (dat1 W c).before 2 t d = iblk1 W c 2 t := by
  have hkeep : ∀ u, (cfg1.win 2).cut (cfg1.grid.coords u) ((dat1 W c).after 2 u) = (dat1 W c).blockOf 2 u := fun u => by
    rw [aggAfter2]; unfold Dat.blockOf iblk1; rw [dat1_A]; try rfl
  rw [(dat1 W c).before_in_eq_fetched 2 rfl (fun _ => rfl) (fun _ _ _ => rfl) hkeep t d]
  unfold Dat.fetched Dat.blockOf iblk1; rw [dat1_A]; try rfl

/-! ## The body obligation, at a generic point -/

/-- What the body is called with at point `t`, the windows one by one, -/
def aggBodyPre (W : (c : Dev nD) → (b : Ref sig .tc) → Buf (Elt F) ((c : Thread nD τ).loc b)) (c : Dev nD) (t : Fin cfg1.N) : sProp 𝕄 :=
  iprop((dat1 W c).Φ t.castSucc ∗ (dat1 W c).owesAt () t.castSucc
    ∗ (∃ d, owns (c : Thread nD τ) (aggMs0 t) fullShare ((dat1 W c).before 0 t d))
    ∗ (∃ d, owns (c : Thread nD τ) (aggMs1 t) fullShare ((dat1 W c).before 1 t d))
    ∗ (∃ d, owns (c : Thread nD τ) (aggMs2 t) fullShare ((dat1 W c).before 2 t d))
    ∗ (∃ d, owns (c : Thread nD τ) (aggMs3 t) fullShare ((dat1 W c).before 3 t d)))

/-- and what it returns. -/
def aggBodyPost (W : (c : Dev nD) → (b : Ref sig .tc) → Buf (Elt F) ((c : Thread nD τ).loc b)) (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t)

set_option maxHeartbeats 4800000 in
/-- The body at any point. The inputs' buffers hold their blocks; the second coordinate says which of the three
    cases the point is in; the invariant hands the body the accumulator at what the point before left (at anything
    where `k = 0`) and takes it back at this point's contents; where `k ≠ 31` the output's buffer goes back as it
    came, where `k = 31` it holds the stored rows. -/
theorem aggSound (W : (c : Dev nD) → (b : Ref sig .tc) → Buf (Elt F) ((c : Thread nD τ).loc b)) (c : Dev nD) (t : Fin cfg1.N) :
    aggBodyPre W c t ⊢ wp frame (wpE (defs₀ (F := F)) Variants.none c none) Set.univ (bodyAt1 t) (fun _ => aggBodyPost W c t) := by
  unfold aggBodyPre aggBodyPost bodyAt1
  simp only [aggBefore0, aggBefore1, aggBefore2]
  rw [show (dat1 W c).owesAt () t.succ = (dat1 W c).owesAt () t.castSucc from rfl]
  rw [show (dat1 W c).Φ t.succ = aggPhi W c (t.val + 1) t.isLt from rfl, aggPhi_succ]
  rw [show (dat1 W c).leavesExact 0 t = owns (c : Thread nD τ) (aggMs0 t) fullShare ((dat1 W c).after 0 t) from by
    unfold Dat.leavesExact; rfl, aggAfter0]
  rw [show (dat1 W c).leavesExact 1 t = owns (c : Thread nD τ) (aggMs1 t) fullShare ((dat1 W c).after 1 t) from by
    unfold Dat.leavesExact; rfl, aggAfter1]
  rw [show (dat1 W c).leavesExact 2 t = owns (c : Thread nD τ) (aggMs2 t) fullShare ((dat1 W c).after 2 t) from by
    unfold Dat.leavesExact; rfl, aggAfter2]
  by_cases h1 : t.val % 32 = 31
  · have h0 : ¬t.val % 32 = 0 := by omega
    have hz : t.val ≠ 0 := by omega
    rw [show (dat1 W c).leavesExact 3 t = owns (c : Thread nD τ) (aggMs3 t) fullShare ((dat1 W c).after 3 t) from by
      unfold Dat.leavesExact; rw [aggLive3 t ((haggCond1 t).mpr h1)], aggAfter3]
    rw [aggAcc_C W c t h0 h1, aggOut_C W c t h0 h1]
    unfold aggOutC aggSoutC; (try dsimp only)
    rw [aggPhi_castSucc W c t, aggPhi_pos W c _ _ hz]
    unfold aggRest
    iintro ⟨⟨⟨A0, A1, A2, A3, A4, HS⟩, Hg⟩, Ho, ⟨%d0, H0⟩, ⟨%d1, H1⟩, ⟨%d2, H2⟩, ⟨%d3, H3⟩⟩
    iapply ((aggRunC c (grid1.coords t) _ _ _ _ _ _ _ _ _ _ (fun h => h0 ((haggCond0 t).mp h)) ((haggCond1 t).mpr h1) (aggBlkA W c t) (aggBlkH W c t) (aggBlkB W c t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [A0 A1 A2 A3 A4 HS Hg]
    · isplitl [A0 A1 A2 A3 A4 HS]
      · isplitl [A0]; · iexact A0
        isplitl [A1]; · iexact A1
        isplitl [A2]; · iexact A2
        isplitl [A3]; · iexact A3
        isplitl [A4]; · iexact A4
        unfold owns; iexists _; isplitr
        swap; · iexact HS
        ipureintro; exact View.read_writes_of_cover _ _ _ _ _ (aggScoverC c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (aggCoverC c _ _ _ _ _ _ _ _ _ _ _ _ _ _ _ _ _)
  · rw [Dat.leavesExact_idle (dat1 W c) 3 t (aggIdle3 t (fun h => h1 ((haggCond1 t).mp h))) (aggNoFlush3 t (fun h => h1 ((haggCond1 t).mp h)))]
    by_cases h0 : t.val % 32 = 0
    · rw [aggAcc_A W c t h0 h1]
      unfold aggSoutA; (try dsimp only)
      by_cases hz : t.val = 0
      · rw [aggPhi_castSucc W c t, aggPhi_zero W c _ _ hz, aggPhiA_eq]
        unfold aggRest
        iintro ⟨⟨⟨A0, A1, A2, A3, A4, HS⟩, Hg⟩, Ho, ⟨%d0, H0⟩, ⟨%d1, H1⟩, ⟨%d2, H2⟩, ⟨%d3, H3⟩⟩
        iapply ((aggRunA c (grid1.coords t) _ _ _ _ _ _ _ _ _ _ ((haggCond0 t).mpr h0) (fun h => h1 ((haggCond1 t).mp h)) (aggBlkA W c t) (aggBlkH W c t) (aggBlkB W c t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [A0 A1 A2 A3 A4 HS Hg]
        · isplitl [A0 A1 A2 A3 A4 HS]
          · isplitl [A0]; · iexact A0
            isplitl [A1]; · iexact A1
            isplitl [A2]; · iexact A2
            isplitl [A3]; · iexact A3
            isplitl [A4]; · iexact A4
            unfold owns; iexists _; isplitr
            swap; · iexact HS
            ipureintro; exact View.read_writes_of_cover _ _ _ _ _ (aggScoverA c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [aggPhi_castSucc W c t, aggPhi_pos W c _ _ hz]
        unfold aggRest
        iintro ⟨⟨⟨A0, A1, A2, A3, A4, HS⟩, Hg⟩, Ho, ⟨%d0, H0⟩, ⟨%d1, H1⟩, ⟨%d2, H2⟩, ⟨%d3, H3⟩⟩
        iapply ((aggRunA c (grid1.coords t) _ _ _ _ _ _ _ _ _ _ ((haggCond0 t).mpr h0) (fun h => h1 ((haggCond1 t).mp h)) (aggBlkA W c t) (aggBlkH W c t) (aggBlkB W c t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [A0 A1 A2 A3 A4 HS Hg]
        · isplitl [A0 A1 A2 A3 A4 HS]
          · isplitl [A0]; · iexact A0
            isplitl [A1]; · iexact A1
            isplitl [A2]; · iexact A2
            isplitl [A3]; · iexact A3
            isplitl [A4]; · iexact A4
            unfold owns; iexists _; isplitr
            swap; · iexact HS
            ipureintro; exact View.read_writes_of_cover _ _ _ _ _ (aggScoverA c _ _ _ _ _ _ _ _ _ _ _ _ _ _ _ _)
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [aggAcc_B W c t h0 h1]
      unfold aggSoutB; (try dsimp only)
      rw [aggPhi_castSucc W c t, aggPhi_pos W c _ _ hz]
      unfold aggRest
      iintro ⟨⟨⟨A0, A1, A2, A3, A4, HS⟩, Hg⟩, Ho, ⟨%d0, H0⟩, ⟨%d1, H1⟩, ⟨%d2, H2⟩, ⟨%d3, H3⟩⟩
      iapply ((aggRunB c (grid1.coords t) _ _ _ _ _ _ _ _ _ _ (fun h => h0 ((haggCond0 t).mp h)) (fun h => h1 ((haggCond1 t).mp h)) (aggBlkA W c t) (aggBlkH W c t) (aggBlkB W c t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [A0 A1 A2 A3 A4 HS Hg]
      · isplitl [A0 A1 A2 A3 A4 HS]
        · isplitl [A0]; · iexact A0
          isplitl [A1]; · iexact A1
          isplitl [A2]; · iexact A2
          isplitl [A3]; · iexact A3
          isplitl [A4]; · iexact A4
          unfold owns; iexists _; isplitr
          swap; · iexact HS
          ipureintro; exact View.read_writes_of_cover _ _ _ _ _ (aggScoverB c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation at every point. -/
theorem body1 (W : (c : Dev nD) → (b : Ref sig .tc) → Buf (Elt F) ((c : Thread nD τ).loc b)) (c : Dev nD) : BodyObligation (dat1 (F := F) W c) (defs₀ (F := F)) Variants.none () Set.univ := fun t => by
  rw [bigSep_W1, bigSep_W1]
  exact aggSound W c t

/-- Before the first point the invariant is the scoped rest and the generator register at anything. -/
theorem dat1_in (W : (c : Dev nD) → (b : Ref sig .tc) → Buf (Elt F) ((c : Thread nD τ).loc b)) (c : Dev nD) : Pipeline.ΦA spec1 c ⊢ (dat1 W c).Φ 0 := by
  rw [show (dat1 W c).Φ 0 = aggPhi W c 0 (Nat.zero_le _) from rfl, aggPhi_zero W c 0 _ rfl]

/-- After the last point it gives that back: what the accumulator holds is forgotten. -/
theorem dat1_out (W : (c : Dev nD) → (b : Ref sig .tc) → Buf (Elt F) ((c : Thread nD τ).loc b)) (c : Dev nD) : (dat1 W c).Φ (Fin.last cfg1.N) ⊢ Pipeline.ΦA spec1 c := by
  have hne : (Fin.last cfg1.N).val ≠ 0 := by rw [Fin.val_last]; have : cfg1.N = 1024 := N_1; omega
  rw [show (dat1 W c).Φ (Fin.last cfg1.N) = aggPhi W c (Fin.last cfg1.N).val (Nat.le_of_lt_succ (Fin.last cfg1.N).isLt) from rfl,
    aggPhi_pos W c _ _ hne, aggPhiA_eq]
  unfold aggRest
  iintro ⟨⟨A0, A1, A2, A3, A4, HS⟩, Hg⟩
  isplitl [A0 A1 A2 A3 A4 HS]
  · isplitl [A0]; · iexact A0
    isplitl [A1]; · iexact A1
    isplitl [A2]; · iexact A2
    isplitl [A3]; · iexact A3
    isplitl [A4]; · iexact A4
    iexists _; iexact HS
  iexact Hg

theorem aggHz : (![0, 0] : Fin 2 → Nat) = fun _ => 0 := funext fun a => by fin_cases a <;> rfl

/-! ## What the cases leave, as the body's arithmetic -/

/-- Where `k = 0` the accumulator ends at the zeros it was reset to plus the blocks' product. -/
theorem aggSoutA_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : aggCond0 i) (hc1 : ¬aggCond1 i)
    (x0 : Vec F S128x128 .f32) (x1 : Vec F S128x128 .f32) (x2 : Vec F S1x128 .f32) :
    aggSoutA c i arg2 harg2 arg3 harg3 arg4 harg4 arg5 harg5 arg6 harg6 hc0 hc1 x0 x1 x2 = k1_pay2 (k1_pay1 (F := F)) x0 x1 := by
  unfold aggSoutA
  rw [View.read_writes_eq_canon _ _ _ (aggScoverA c i arg2 harg2 arg3 harg3 arg4 harg4 arg5 harg5 arg6 harg6 hc0 hc1 x0 x1 x2)]
  unfold aggRunA
  dsimp only
  try sl_unfold_words
  rw [View.canon_cons_unit_zero (S := S128x128) aggHz, View.readCov_unit_zero (S := S128x128) _ aggHz]
  simp only [View.readAt_eq_ld, harg2.read_unread, harg3.read_unread, View.ld_unit_zero (S := S128x128) aggHz]

/-- Where `0 < k < 31` it ends at what it held plus the blocks' product. -/
theorem aggSoutB_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : ¬aggCond1 i)
    (x0 : Vec F S128x128 .f32) (x1 : Vec F S128x128 .f32) (x2 : Vec F S1x128 .f32) (xs : Vec F S128x128 .f32) :
    aggSoutB c i arg2 harg2 arg3 harg3 arg4 harg4 arg5 harg5 arg6 harg6 hc0 hc1 x0 x1 x2 xs = k1_pay2 xs x0 x1 := by
  unfold aggSoutB
  rw [View.read_writes_eq_canon _ _ _ (aggScoverB c i arg2 harg2 arg3 harg3 arg4 harg4 arg5 harg5 arg6 harg6 hc0 hc1 x0 x1 x2 xs)]
  unfold aggRunB
  dsimp only
  try sl_unfold_words
  rw [View.canon_unit_zero (S := S128x128) aggHz]
  simp only [View.readAt_eq_ld, harg2.read_unread, harg3.read_unread, harg6.read_unread, View.ld_unit_zero (S := S128x128) aggHz]

/-- Where `k = 31` likewise, -/
theorem aggSoutC_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : aggCond1 i)
    (x0 : Vec F S128x128 .f32) (x1 : Vec F S128x128 .f32) (x2 : Vec F S1x128 .f32) (xs : Vec F S128x128 .f32) :
    aggSoutC c i arg2 harg2 arg3 harg3 arg4 harg4 arg5 harg5 arg6 harg6 hc0 hc1 x0 x1 x2 xs = k1_pay2 xs x0 x1 := by
  unfold aggSoutC
  rw [View.read_writes_eq_canon _ _ _ (aggScoverC c i arg2 harg2 arg3 harg3 arg4 harg4 arg5 harg5 arg6 harg6 hc0 hc1 x0 x1 x2 xs)]
  unfold aggRunC
  dsimp only
  try sl_unfold_words
  rw [View.canon_unit_zero (S := S128x128) aggHz]
  simp only [View.readAt_eq_ld, harg2.read_unread, harg3.read_unread, harg6.read_unread, View.ld_unit_zero (S := S128x128) aggHz]

/-- and the output's buffer holds the new accumulator with the bias row added, rectified. -/
theorem aggOutC_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬aggCond0 i) (hc1 : aggCond1 i)
    (x0 : Vec F S128x128 .f32) (x1 : Vec F S128x128 .f32) (x2 : Vec F S1x128 .f32) (xs : Vec F S128x128 .f32) :
    aggOutC c i arg2 harg2 arg3 harg3 arg4 harg4 arg5 harg5 arg6 harg6 hc0 hc1 x0 x1 x2 xs = k1_pay3 (k1_pay2 xs x0 x1) x2 := by
  unfold aggOutC
  rw [View.read_writes_eq_canon _ _ _ (aggCoverC c i arg2 harg2 arg3 harg3 arg4 harg4 arg5 harg5 arg6 harg6 hc0 hc1 x0 x1 x2 xs)]
  unfold aggRunC
  dsimp only
  try sl_unfold_words
  rw [View.canon_unit_zero (S := S128x128) aggHz, View.readCov_unit_zero (S := S128x128) _ aggHz]
  simp only [View.readAt_eq_ld, harg2.read_unread, harg3.read_unread, harg4.read_unread, harg6.read_unread, View.ld_unit_zero (S := S128x128) aggHz, View.ld_unit_zero (S := S1x128) aggHz]

/-! ## The body's arithmetic at the ideal instance, at an index -/

/-- The reset value is zero. -/
theorem aggPay1_apply (p q : Fin 128) : k1_pay1 (F := Ideal) (ValueIdx.ix2 p q) = 0 := by
  unfold k1_pay1
  rw [shapeCast_self]
  exact Ideal.ofBits_zero_f32

/-- The update: the accumulator plus `Σ_k x0[p, k] · x1[k, q]`. -/
theorem aggPay2_apply (xs x0 x1 : FVec Ideal S128x128 .f32) (p q : Fin 128) :
    k1_pay2 (F := Ideal) xs x0 x1 (ValueIdx.ix2 p q)
      = xs (ValueIdx.ix2 p q) + ∑ k : Fin 128, x0 (ValueIdx.ix2 p k) * x1 (ValueIdx.ix2 k q) := by
  unfold k1_pay2
  simp only [shapeCast_self]
  exact congrArg (fun z => xs (ValueIdx.ix2 p q) + z)
    (Dot2.matmul_zero_mm_apply dot_S128x128_S128x128_S128x128_1_0_0_1_n_n.wf none x0 x1 p q)

/-- The epilogue: the accumulator plus the bias row's entry, rectified. -/
theorem aggPay3_apply (v : FVec Ideal S128x128 .f32) (b : FVec Ideal S1x128 .f32) (p q : Fin 128) :
    k1_pay3 (F := Ideal) v b (ValueIdx.ix2 p q) = max (v (ValueIdx.ix2 p q) + b (ValueIdx.ix2 0 q)) 0 := by
  unfold k1_pay3
  simp only [shapeCast_self]
  show max (v (ValueIdx.ix2 p q) + broadcastTo S128x128 b broadcasts_S1x128_S128x128 (ValueIdx.ix2 p q)) (Ideal.ofBits .f32 0x00000000#32) = _
  rw [Ideal.ofBits_zero_f32, broadcastTo_apply b broadcasts_S1x128_S128x128 (ValueIdx.ix2 p q) (ValueIdx.ix2 0 q) (fun a => by
    match a with
    | ⟨0, _⟩ => rfl
    | ⟨1, _⟩ => rfl)]

/-! ## The input blocks as entries of the arrays -/

/-- The three input arrays and the output array's shape, at their literal types. -/
abbrev aggArrA (W : (c : Dev nD) → (b : Ref sig .tc) → Buf (Elt F) ((c : Thread nD τ).loc b)) (c : Dev nD) : Vec F S4096x4096 .f32 := W c main_v13
abbrev aggArrH (W : (c : Dev nD) → (b : Ref sig .tc) → Buf (Elt F) ((c : Thread nD τ).loc b)) (c : Dev nD) : Vec F S4096x128 .f32 := W c main_v14
abbrev aggArrB (W : (c : Dev nD) → (b : Ref sig .tc) → Buf (Elt F) ((c : Thread nD τ).loc b)) (c : Dev nD) : Vec F S1x128 .f32 := W c main_v9

/-- The block indices of the four windows at a point: from `(t / 32, t % 32)`. -/
theorem aggIndex : ∀ t : Fin cfg1.N,
    (win1_0.index t 0 = t.val / 32 ∧ win1_0.index t 1 = t.val % 32)
    ∧ (win1_1.index t 0 = t.val % 32 ∧ win1_1.index t 1 = 0)
    ∧ (win1_2.index t 0 = 0 ∧ win1_2.index t 1 = 0)
    ∧ (win1_3.index t 0 = t.val / 32 ∧ win1_3.index t 1 = 0) :=
  (by decide +kernel : ∀ t : Fin grid1.N,
    (win1_0.index t 0 = t.val / 32 ∧ win1_0.index t 1 = t.val % 32)
    ∧ (win1_1.index t 0 = t.val % 32 ∧ win1_1.index t 1 = 0)
    ∧ (win1_2.index t 0 = 0 ∧ win1_2.index t 1 = 0)
    ∧ (win1_3.index t 0 = t.val / 32 ∧ win1_3.index t 1 = 0))

/-- The adjacency block at point `t` is rows `128 (t / 32) …`, columns `128 (t % 32) …` of the adjacency. -/
theorem aggBlkA_apply (W : (c : Dev nD) → (b : Ref sig .tc) → Buf (Elt F) ((c : Thread nD τ).loc b)) (c : Dev nD) (t : Fin cfg1.N) (x : S128x128.Idx) (k : S4096x4096.Idx)
    (hk0 : (k 0).val = 128 * (t.val / 32) + (x 0).val) (hk1 : (k 1).val = 128 * (t.val % 32) + (x 1).val) :
    aggBlkA W c t x = aggArrA W c k := by
  obtain ⟨⟨i0, i1⟩, -, -, -⟩ := aggIndex t
  unfold aggBlkA iblk1
  rw [View.read_apply]
  show W c main_v13 _ = W c main_v13 _
  congr 1
  funext a
  apply Fin.ext
  match a with
  | ⟨0, _⟩ => show win1_0.index t 0 * 128 + 1 * (x 0).val = (k 0).val; rw [i0, hk0]; omega
  | ⟨1, _⟩ => show win1_0.index t 1 * 128 + 1 * (x 1).val = (k 1).val; rw [i1, hk1]; omega

/-- The feature block at point `t` is rows `128 (t % 32) …` of the transformed features. -/
theorem aggBlkH_apply (W : (c : Dev nD) → (b : Ref sig .tc) → Buf (Elt F) ((c : Thread nD τ).loc b)) (c : Dev nD) (t : Fin cfg1.N) (x : S128x128.Idx) (k : S4096x128.Idx)
    (hk0 : (k 0).val = 128 * (t.val % 32) + (x 0).val) (hk1 : (k 1).val = (x 1).val) :
    aggBlkH W c t x = aggArrH W c k := by
  obtain ⟨-, ⟨i0, i1⟩, -, -⟩ := aggIndex t
  unfold aggBlkH iblk1
  rw [View.read_apply]
  show W c main_v14 _ = W c main_v14 _
  congr 1
  funext a
  apply Fin.ext
  match a with
  | ⟨0, _⟩ => show win1_1.index t 0 * 128 + 1 * (x 0).val = (k 0).val; rw [i0, hk0]; omega
  | ⟨1, _⟩ => show win1_1.index t 1 * 128 + 1 * (x 1).val = (k 1).val; rw [i1, hk1]; omega

/-- The bias block at every point is the bias row. -/
theorem aggBlkB_apply (W : (c : Dev nD) → (b : Ref sig .tc) → Buf (Elt F) ((c : Thread nD τ).loc b)) (c : Dev nD) (t : Fin cfg1.N) (x : S1x128.Idx) :
    aggBlkB W c t x = aggArrB W c x := by
  obtain ⟨-, -, ⟨i0, i1⟩, -⟩ := aggIndex t
  unfold aggBlkB iblk1
  rw [View.read_apply]
  show W c main_v9 _ = W c main_v9 _
  congr 1
  funext a
  apply Fin.ext
  match a with
  | ⟨0, _⟩ => show win1_2.index t 0 * 1 + 1 * (x 0).val = (x 0).val; rw [i0]; omega
  | ⟨1, _⟩ => show win1_2.index t 1 * 128 + 1 * (x 1).val = (x 1).val; rw [i1]; omega

/-! ## The accumulator and the output as the blockwise aggregation -/

/-- A point's block row `t / 32` and block column `t % 32`. -/
def aggI (t : Fin cfg1.N) : Fin 32 := ⟨t.val / 32, by have := t.isLt; have hN : cfg1.N = 1024 := N_1; omega⟩
def aggK (t : Fin cfg1.N) : Fin 32 := ⟨t.val % 32, Nat.mod_lt _ (by decide)⟩

/-- Where `k = 0` the accumulator ends at zeros plus the blocks' product; -/
theorem aggAcc_first (W : (c : Dev nD) → (b : Ref sig .tc) → Buf (Elt F) ((c : Thread nD τ).loc b)) (c : Dev nD) (t : Fin cfg1.N) (h0 : t.val % 32 = 0) :
    aggAcc W c t.val t.isLt = k1_pay2 (k1_pay1 (F := F)) (aggBlkA W c t) (aggBlkH W c t) := by
  have h1 : ¬t.val % 32 = 31 := by omega
  rw [aggAcc_A W c t h0 h1]
  exact aggSoutA_eq c (grid1.coords t) (aggMs0 t) (aggHs0 t) (aggMs1 t) (aggHs1 t) (aggMs2 t) (aggHs2 t) (aggMs3 t) (aggHs3 t) aggScM (Memref.isWhole_whole _) ((haggCond0 t).mpr h0) (fun h => h1 ((haggCond1 t).mp h)) (aggBlkA W c t) (aggBlkH W c t) (aggBlkB W c t)

/-- elsewhere at what the point before left plus the blocks' product. -/
theorem aggAcc_later (W : (c : Dev nD) → (b : Ref sig .tc) → Buf (Elt F) ((c : Thread nD τ).loc b)) (c : Dev nD) (t : Fin cfg1.N) (h0 : ¬t.val % 32 = 0) :
    aggAcc W c t.val t.isLt
      = k1_pay2 (aggAcc W c (t.val - 1) (Nat.lt_of_le_of_lt (Nat.sub_le _ _) t.isLt)) (aggBlkA W c t) (aggBlkH W c t) := by
  by_cases h1 : t.val % 32 = 31
  · rw [aggAcc_C W c t h0 h1]
    exact aggSoutC_eq c (grid1.coords t) (aggMs0 t) (aggHs0 t) (aggMs1 t) (aggHs1 t) (aggMs2 t) (aggHs2 t) (aggMs3 t) (aggHs3 t) aggScM (Memref.isWhole_whole _) (fun h => h0 ((haggCond0 t).mp h)) ((haggCond1 t).mpr h1) (aggBlkA W c t) (aggBlkH W c t) (aggBlkB W c t) (aggAcc W c (t.val - 1) (Nat.lt_of_le_of_lt (Nat.sub_le _ _) t.isLt))
  · rw [aggAcc_B W c t h0 h1]
    exact aggSoutB_eq c (grid1.coords t) (aggMs0 t) (aggHs0 t) (aggMs1 t) (aggHs1 t) (aggMs2 t) (aggHs2 t) (aggMs3 t) (aggHs3 t) aggScM (Memref.isWhole_whole _) (fun h => h0 ((haggCond0 t).mp h)) (fun h => h1 ((haggCond1 t).mp h)) (aggBlkA W c t) (aggBlkH W c t) (aggBlkB W c t) (aggAcc W c (t.val - 1) (Nat.lt_of_le_of_lt (Nat.sub_le _ _) t.isLt))

/-- Where `k = 31` the output's buffer holds this point's accumulator with the bias row added, rectified. -/
theorem aggOut_last (W : (c : Dev nD) → (b : Ref sig .tc) → Buf (Elt F) ((c : Thread nD τ).loc b)) (c : Dev nD) (t : Fin cfg1.N) (h1 : t.val % 32 = 31) :
    aggOut W c t = k1_pay3 (aggAcc W c t.val t.isLt) (aggBlkB W c t) := by
  have h0 : ¬t.val % 32 = 0 := by omega
  rw [aggOut_C W c t h0 h1, aggAcc_later W c t h0]
  exact aggOutC_eq c (grid1.coords t) (aggMs0 t) (aggHs0 t) (aggMs1 t) (aggHs1 t) (aggMs2 t) (aggHs2 t) (aggMs3 t) (aggHs3 t) aggScM (Memref.isWhole_whole _) (fun h => h0 ((haggCond0 t).mp h)) ((haggCond1 t).mpr h1) (aggBlkA W c t) (aggBlkH W c t) (aggBlkB W c t) (aggAcc W c (t.val - 1) (Nat.lt_of_le_of_lt (Nat.sub_le _ _) t.isLt))

/-- The product of a point's two blocks at `(p, q)` is that block column's term of the aggregation, at the
    node `128 (t / 32) + p`. -/
theorem aggProd_eq (W : (c : Dev nD) → (b : Ref sig .tc) → Buf (Elt Ideal) ((c : Thread nD τ).loc b)) (c : Dev nD) (t : Fin cfg1.N) (p q : Fin 128) :
    ∑ k : Fin 128, aggBlkA W c t (ValueIdx.ix2 p k) * aggBlkH W c t (ValueIdx.ix2 k q)
      = Cert.Spec.blockProd (aggArrA W c) (aggArrH W c) (Cert.Spec.inBlock (aggI t) p) q (aggK t) := by
  unfold Cert.Spec.blockProd
  refine Finset.sum_congr rfl fun k _ => ?_
  rw [aggBlkA_apply W c t (ValueIdx.ix2 p k) (ValueIdx.ix2 (Cert.Spec.inBlock (aggI t) p) (Cert.Spec.inBlock (aggK t) k)) rfl rfl,
    aggBlkH_apply W c t (ValueIdx.ix2 k q) (ValueIdx.ix2 (Cert.Spec.inBlock (aggK t) k) q) rfl rfl]

/-- THE ACCUMULATION: after point `n` the accumulator holds, on the rows of block row `n / 32`, the sum of the block
    columns `0 … n % 32` in order. By induction on the point. -/
theorem aggAcc_value_nat (W : (c : Dev nD) → (b : Ref sig .tc) → Buf (Elt Ideal) ((c : Thread nD τ).loc b)) (c : Dev nD) : ∀ (n : ℕ) (hn : n < cfg1.N) (p q : Fin 128),
    aggAcc W c n hn (ValueIdx.ix2 p q)
      = Cert.Spec.accBlocks (aggArrA W c) (aggArrH W c) (Cert.Spec.inBlock (aggI ⟨n, hn⟩) p) q (n % 32) := by
  intro n
  induction n using Nat.strong_induction_on with
  | _ n ih =>
    intro hn p q
    obtain ⟨t, rfl⟩ : ∃ t : Fin cfg1.N, t.val = n := ⟨⟨n, hn⟩, rfl⟩
    show aggAcc W c t.val t.isLt (ValueIdx.ix2 p q)
      = Cert.Spec.accBlocks (aggArrA W c) (aggArrH W c) (Cert.Spec.inBlock (aggI t) p) q (t.val % 32)
    by_cases h0 : t.val % 32 = 0
    · rw [aggAcc_first W c t h0, aggPay2_apply, aggPay1_apply, zero_add, aggProd_eq W c t p q]
      have hK : aggK t = ⟨0, by decide⟩ := Fin.ext h0
      rw [hK, h0]
      rfl
    · have hlt : t.val - 1 < cfg1.N := Nat.lt_of_le_of_lt (Nat.sub_le _ _) t.isLt
      rw [aggAcc_later W c t h0, aggPay2_apply, aggProd_eq W c t p q, ih (t.val - 1) (by omega) hlt p q]
      obtain ⟨kb, hkb⟩ : ∃ kb, t.val % 32 = kb + 1 := ⟨t.val % 32 - 1, by omega⟩
      have hk32 : kb + 1 < 32 := by have := Nat.mod_lt t.val (by decide : 0 < 32); omega
      have hprev : (t.val - 1) % 32 = kb := by omega
      have hI : aggI ⟨t.val - 1, hlt⟩ = aggI t := Fin.ext (by show (t.val - 1) / 32 = t.val / 32; omega)
      have hK : aggK t = ⟨kb + 1, hk32⟩ := Fin.ext hkb
      rw [hI, hK, hkb, hprev]
      show _ = Cert.Spec.accBlocks _ _ _ _ (kb + 1)
      rw [Cert.Spec.accBlocks, dif_pos hk32]

theorem aggAcc_value (W : (c : Dev nD) → (b : Ref sig .tc) → Buf (Elt Ideal) ((c : Thread nD τ).loc b)) (c : Dev nD) (t : Fin cfg1.N) (p q : Fin 128) :
    aggAcc W c t.val t.isLt (ValueIdx.ix2 p q)
      = Cert.Spec.accBlocks (aggArrA W c) (aggArrH W c) (Cert.Spec.inBlock (aggI t) p) q (t.val % 32) :=
  aggAcc_value_nat W c t.val t.isLt p q

/-- Where `k = 31` the output's buffer holds the aggregation's rows of block row `t / 32`. -/
theorem aggOut_value (W : (c : Dev nD) → (b : Ref sig .tc) → Buf (Elt Ideal) ((c : Thread nD τ).loc b)) (c : Dev nD) (t : Fin cfg1.N) (h1 : t.val % 32 = 31) (p q : Fin 128) :
    aggOut W c t (ValueIdx.ix2 p q)
      = Cert.Spec.aggOut (aggArrA W c) (aggArrH W c) (aggArrB W c) (Cert.Spec.inBlock (aggI t) p) q := by
  rw [aggOut_last W c t h1, aggPay3_apply, aggAcc_value W c t p q, h1, aggBlkB_apply W c t (ValueIdx.ix2 0 q)]
  rfl

/-- What a write-back writes is the aggregation's block of rows. -/
theorem aggFlushed_eq (W : (c : Dev nD) → (b : Ref sig .tc) → Buf (Elt Ideal) ((c : Thread nD τ).loc b)) (c : Dev nD) (t : Fin cfg1.N) (hf : (cfg1.win 3).flush t = true) :
    (dat1 W c).flushed 3 t
      = ((cfg1.win 3).blk t).view.read (Elt Ideal)
          (fun j : S4096x128.Idx => Cert.Spec.aggOut (aggArrA W c) (aggArrH W c) (aggArrB W c) (j 0) (j 1)) := by
  have h1 : t.val % 32 = 31 := (flush1_3 t).mp hf
  obtain ⟨-, -, -, ⟨i0, i1⟩⟩ := aggIndex t
  show (cfg1.win 3).cut (grid1.coords t) ((dat1 W c).after 3 t) = _
  rw [aggAfter3]
  funext (x : S128x128.Idx)
  obtain ⟨p, q, rfl⟩ : ∃ p q, x = ValueIdx.ix2 p q := ⟨x 0, x 1, ValueIdx.eq_ix2 x⟩
  rw [View.read_apply]
  show aggOut W c t (ValueIdx.ix2 p q)
    = Cert.Spec.aggOut (aggArrA W c) (aggArrH W c) (aggArrB W c)
        ((((cfg1.win 3).blk t).view.emb (ValueIdx.ix2 p q)) 0) ((((cfg1.win 3).blk t).view.emb (ValueIdx.ix2 p q)) 1)
  have e0 : (((cfg1.win 3).blk t).view.emb (ValueIdx.ix2 p q)) 0 = Cert.Spec.inBlock (aggI t) p :=
    Fin.ext (by show win1_3.index t 0 * 128 + 1 * p.val = 128 * (t.val / 32) + p.val; rw [i0]; omega)
  have e1 : (((cfg1.win 3).blk t).view.emb (ValueIdx.ix2 p q)) 1 = q :=
    Fin.ext (by show win1_3.index t 1 * 128 + 1 * q.val = q.val; rw [i1]; omega)
  rw [e0, e1]
  exact aggOut_value W c t h1 p q

/-- At the ideal instance the output array after the region is the blockwise aggregation, index by index. -/
theorem out1_value (W : (c : Dev nD) → (b : Ref sig .tc) → Buf (Elt Ideal) ((c : Thread nD τ).loc b)) (c : Dev nD) :
    (dat1 (F := Ideal) W c).arrAt 3 cfg1.N
      = fun j : S4096x128.Idx => Cert.Spec.aggOut (W c main_v13) (W c main_v14) (W c main_v9) (j 0) (j 1) :=
  (dat1 W c).arrAt_eq_of_cover 3
    (fun j : S4096x128.Idx => Cert.Spec.aggOut (aggArrA W c) (aggArrH W c) (aggArrB W c) (j 0) (j 1))
    (aggFlushed_eq W c) fun i => by
      have hr : (i 0 : Nat) < 4096 := (i 0).isLt
      have hq : (i 1 : Nat) < 128 := (i 1).isLt
      have hN : cfg1.N = 1024 := N_1
      let t : Fin cfg1.N := ⟨32 * ((i 0 : Nat) / 128) + 31, by omega⟩
      have ht : t.val = 32 * ((i 0 : Nat) / 128) + 31 := rfl
      obtain ⟨-, -, -, ⟨i0, i1⟩⟩ := aggIndex t
      refine ⟨t, (flush1_3 t).mpr (by rw [ht]; omega), ?_⟩
      show i ∈ ((View.whole main_v15).slice (win1_3.rect t)).set
      rw [View.set_slice_whole, Rect.mem_set_unit]
      intro a
      match a with
      | ⟨0, _⟩ =>
        show win1_3.index t 0 * 128 ≤ (i 0 : Nat) ∧ (i 0 : Nat) < win1_3.index t 0 * 128 + 128
        rw [i0, ht]; omega
      | ⟨1, _⟩ =>
        show win1_3.index t 1 * 128 ≤ (i 1 : Nat) ∧ (i 1 : Nat) < win1_3.index t 1 * 128 + 128
        rw [i1]; omega

end Cert.ReferenceIdeal.Hand

end
-- ==== Proof.RLaunch.lean ====
/-
  The reference program run whole: its host operations, the region of the transformed features, the region of the
  aggregation. Every weakly fair execution terminates; at the end the result array holds what the second region's
  proof data compute from the buffers it was entered with, and the five argument arrays hold what they held at launch.
-/
import proofs.«113051_g2000303721575557_pallasbulk_376_15_alg».proof.Proof.RVals
import proofs.«113051_g2000303721575557_pallasbulk_376_15_alg».proof.Proof.RBody0
import proofs.«113051_g2000303721575557_pallasbulk_376_15_alg».proof.Proof.RBody1
import proofs.«113051_g2000303721575557_pallasbulk_376_15_alg».proof.Proof.Gen.ReferenceIdeal.Regions
import Idealize.ShloMosaic.Lib.Pipeline.Regions
import Idealize.ShloMosaic.Lib.Pipeline.Frame

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items -/

/-- Core `c`'s unscoped buffers after the first region, as a valuation: the host operations' with the transformed
    features' array overwritten by what that region leaves. -/
def VV2 (m : (ℓ : Loc nD τ sig) → Buf (Elt F) ℓ) (c : Dev nD) : Valuation τ sig (Elt F) :=
  Function.update (V1 m c) main_v14 ((dat0 (W1 m) c).arrAt 2 cfg0.N : Buf (Elt F) ((c : Thread nD τ).loc main_v14))

/-- Core `c`'s buffers after the first region: the transformed features' array at what that region leaves, the others as
    the host operations left them. -/
def W2 (m : (ℓ : Loc nD τ sig) → Buf (Elt F) ℓ) (c : Dev nD) (b : Ref sig .tc) : Buf (Elt F) ((c : Thread nD τ).loc b) :=
  VV2 m c (Proc.devRef .tc b)

theorem W2_v14 (c : Dev nD) : W2 m c main_v14 = (dat0 (W1 m) c).arrAt 2 cfg0.N := by
  unfold W2 VV2; exact Function.update_self _ _ _
theorem W2_of_ne (c : Dev nD) (b : Ref sig .tc) (h : b ≠ main_v14) : W2 m c b = W1 m c b := by
  unfold W2 VV2; exact Function.update_of_ne (StableHlo.devRef_ne_of_ne h) _ _

/-- Core `c`'s unscoped buffers after the second region, as a valuation: the output array overwritten by what that
    region leaves. -/
def VV3 (m : (ℓ : Loc nD τ sig) → Buf (Elt F) ℓ) (c : Dev nD) : Valuation τ sig (Elt F) :=
  Function.update (VV2 m c) main_v15 ((dat1 (W2 m) c).arrAt 3 cfg1.N : Buf (Elt F) ((c : Thread nD τ).loc main_v15))

/-- The same, reference by reference. -/
def W3 (m : (ℓ : Loc nD τ sig) → Buf (Elt F) ℓ) (c : Dev nD) (b : Ref sig .tc) : Buf (Elt F) ((c : Thread nD τ).loc b) :=
  VV3 m c (Proc.devRef .tc b)

theorem W3_v15 (c : Dev nD) : W3 m c main_v15 = (dat1 (W2 m) c).arrAt 3 cfg1.N := by
  unfold W3 VV3; exact Function.update_self _ _ _
theorem W3_of_ne (c : Dev nD) (b : Ref sig .tc) (h : b ≠ main_v15) : W3 m c b = W2 m c b := by
  unfold W3 VV3; exact Function.update_of_ne (StableHlo.devRef_ne_of_ne h) _ _

/-- An argument array is written by no host operation and changed by no region. -/
theorem W3_arg (c : Dev nD) (b : Ref sig .tc) (h15 : b ≠ main_v15) (h14 : b ≠ main_v14) (hW : b ∉ hostOps0_W) :
    VV3 m c (Proc.devRef .tc b) = m ((c : Thread nD τ).loc b) :=
  (W3_of_ne m c b h15).trans <| (W2_of_ne m c b h14).trans <| (V1_of m c b hW).trans rfl

/-! ## The regions' proof data, and what rides beside the buffers -/

/-- The proof data of both regions: the first entered with the host operations' buffers, the second with those the
    first leaves. -/
def pdats (m : (ℓ : Loc nD τ sig) → Buf (Elt F) ℓ) : (p : Fin 2) → (c : Dev nD) → Dat τ (Elt F) Unit ℕ (UR sig nD τ) ℕ (cfgs p) c
  | ⟨0, _⟩ => fun c => dat0 (W1 m) c
  | ⟨1, _⟩ => fun c => dat1 (W2 m) c

/-- No core owes another anything: no level is assigned. -/
abbrev L₀ : GSem nD τ sig → Finset Unit := fun _ => ∅
abbrev lv₀ : GSem nD τ sig → Unit → ℕ := fun _ _ => 0

/-- What rides beside the unscoped buffers from item to item: that the core owes nothing, and its generator register at
    some state. -/
abbrev Ec (c : Dev nD) : sProp 𝕄 :=
  iprop((∃ W, owes (c : Thread nD τ) (0 : CellTallies nD τ sig Unit) W) ∗ ∃ r, prngReg c r)

/-- A region's exit, the buffers' part: the windows' arrays at contents `G` and the unscoped rest at `V` are the
    core's unscoped buffers at any `V'` that is `G` on the arrays and `V` elsewhere. -/
theorem bufs_of_arrays (p : Fin 2) (hw : Pipeline.WinFacts (cfgs p).spec) (harr : ∀ w, ((cfgs p).spec w).arr.IsWhole) (c : Dev nD)
    (hshare : ∀ w, (pdats m p c).share w = fullShare)
    (V V' : (b : Ref sig .tc) → Buf (Elt F) ((c : Thread nD τ).loc b))
    (G : (w : Fin (cfgs p).W) → Buf (Elt F) (((cfgs p).spec w).arr.view.loc (c : Thread nD τ)))
    (hG : ∀ w, G w = V' (Pipeline.arrRef (cfgs p).spec w))
    (hrest : ∀ b, b ∉ Finset.univ.image (Pipeline.arrRef (cfgs p).spec) → V' b = V b) :
    iprop((pdats m p c).arrays G ∗ Pipeline.unscopedRest (cfgs p).spec c V) ⊢ (unscopedBufs c V' : sProp 𝕄) := by
  rw [Pipeline.unscopedBufs_split cfgs p hw.arr_unscoped hw.arr_inj c V', Pipeline.arrays_eq cfgs (pdats m) p c harr hshare]
  exact BIClass.sep_mono (Entails.of_eq (bigSep_congr fun w _ => by rw [hG])) (Entails.of_eq (bigSep_congr fun b hb => by rw [hrest b (Finset.mem_sdiff.mp hb).2]))

/-- With no prefetched table the tables' conjunct is empty. -/
theorem prefHeld_none (c : Dev nD) (p : Fin 2) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

/-- The first region's arrays when it ends, read in the buffers after it: the two inputs as they were, the result as
    the region leaves it. -/
theorem exit0_arr (c : Dev nD) : ∀ w : Fin 3, (dat0 (W1 m) c).arrAt w cfg0.N = W2 m c (Pipeline.arrRef spec0 w)
  | ⟨0, _⟩ => ((dat0 (W1 m) c).arrAt_in 0 rfl _).trans ((dat0_A (W1 m) c 0).trans (W2_of_ne m c main_v11 (by decide)).symm)
  | ⟨1, _⟩ => ((dat0 (W1 m) c).arrAt_in 1 rfl _).trans ((dat0_A (W1 m) c 1).trans (W2_of_ne m c main_v6 (by decide)).symm)
  | ⟨2, _⟩ => (W2_v14 m c).symm

/-- The second region's arrays when it ends, read in the buffers after it. -/
theorem exit1_arr (c : Dev nD) : ∀ w : Fin 4, (dat1 (W2 m) c).arrAt w cfg1.N = W3 m c (Pipeline.arrRef spec1 w)
  | ⟨0, _⟩ => ((dat1 (W2 m) c).arrAt_in 0 rfl _).trans ((dat1_A (W2 m) c 0).trans (W3_of_ne m c main_v13 (by decide)).symm)
  | ⟨1, _⟩ => ((dat1 (W2 m) c).arrAt_in 1 rfl _).trans ((dat1_A (W2 m) c 1).trans (W3_of_ne m c main_v14 (by decide)).symm)
  | ⟨2, _⟩ => ((dat1 (W2 m) c).arrAt_in 2 rfl _).trans ((dat1_A (W2 m) c 2).trans (W3_of_ne m c main_v9 (by decide)).symm)
  | ⟨3, _⟩ => (W3_v15 m c).symm

/-! ## The regions as segments -/

set_option backward.isDefEq.respectTransparency.types false in
/-- THE FIRST REGION: entered from the buffers the host operations leave, its three arrays into the pipeline, the
    generator register into the invariant, every other unscoped buffer bypassing; left with the buffers at `VV2`. -/
def R0 : Pipeline.RegionSeg (pcfgs (F := F)) adm (pdats m) () defs₀ Variants.none L₀ lv₀ 0 where
  win := launch0.win.to₀
  block_pos := launch0.block_pos
  stage_whole := launch0.stage_whole
  K := PEmpty
  osem := fun k => k.elim
  ho := Pipeline.OwnSemFacts.none _
  hbody c := (body0 (W1 m) c).loose
  hwaits := Pipeline.hwaits_of_owed_zero _ _ _ _ L₀ lv₀ 0 fun _ _ => rfl
  pre c := iprop(StableHlo.held (c : Thread nD τ) (Pipeline.ucRefs τ sig) (V1 m c) ∗ Ec c)
  post c := iprop(StableHlo.held (c : Thread nD τ) (Pipeline.ucRefs τ sig) (VV2 m c) ∗ Ec c)
  X c := iprop(∃ r, prngReg c r)
  Y c := iprop(∃ r, prngReg c r)
  Z c := Pipeline.unscopedRest spec0 c (W1 m c)
  hentry c := by
    rw [show StableHlo.held (c : Thread nD τ) (Pipeline.ucRefs τ sig) (V1 m c) = unscopedBufs c (W1 m c) from (Pipeline.unscopedBufs_held c _).symm]
    have hsplit := Pipeline.arrays_of_unscopedBufs (pcfgs (F := F)) adm (pdats m) (p := 0) launch0.win launch0.arr_whole c
      ((pdats m 0 c).share_full fun _ => rfl) (W1 m c) fun _ => rfl
    iintro ⟨⟨Hub, HO, Hp⟩, -, -⟩
    ihave H := hsplit $$ Hub
    icases H with ⟨Ha, Hr⟩
    imodintro
    isplitl [Ha]; · iexact Ha
    isplitr; · iapply (prefHeld_none c 0); iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := by
    change _ ⊢ Pipeline.ΦA spec0 c; unfold Pipeline.ΦA
    iintro ⟨Hp, -, Hr⟩
    isplitl [Hr] <;> iassumption
  hout c := by
    rw [Pipeline.ownSems0_none]; change Pipeline.ΦA spec0 c ⊢ _; unfold Pipeline.ΦA
    iintro ⟨Hr, Hp⟩
    isplitl [Hp]; · iexact Hp
    isplitr; · iempintro
    iexact Hr
  hexit c := by
    have hb := bufs_of_arrays m 0 launch0.win launch0.arr_whole c ((pdats m 0 c).share_full fun _ => rfl) (W1 m c) (W2 m c)
      (fun w => (dat0 (W1 m) c).arrAt w cfg0.N) (exit0_arr m c)
      (fun b hb => W2_of_ne m c b fun h => hb (h ▸ Finset.mem_image.mpr ⟨2, Finset.mem_univ _, rfl⟩))
    rw [show StableHlo.held (c : Thread nD τ) (Pipeline.ucRefs τ sig) (VV2 m c) = unscopedBufs c (W2 m c) from (Pipeline.unscopedBufs_held c _).symm]
    iintro ⟨Ha, HO, HY, HZ⟩
    imodintro
    isplitl [Ha HZ]
    · iapply hb; isplitl [Ha]; · iexact Ha
      iexact HZ
    isplitl [HO]
    · unfold Pipeline.Dat.owesAt Pipeline.owesWithin
      icases HO with ⟨%W, -, HO⟩; iexists W; iexact HO
    iexact HY

set_option backward.isDefEq.respectTransparency.types false in
/-- THE SECOND REGION: entered from the buffers at `VV2`, its four arrays into the pipeline (the transformed features
    among them, now an input), the generator register into the invariant, every other unscoped buffer bypassing; left
    with the buffers at `VV3`. -/
def R1 : Pipeline.RegionSeg (pcfgs (F := F)) adm (pdats m) () defs₀ Variants.none L₀ lv₀ 1 where
  win := launch1.win.to₀
  block_pos := launch1.block_pos
  stage_whole := launch1.stage_whole
  K := PEmpty
  osem := fun k => k.elim
  ho := Pipeline.OwnSemFacts.none _
  hbody c := (body1 (W2 m) c).loose
  hwaits := Pipeline.hwaits_of_owed_zero _ _ _ _ L₀ lv₀ 1 fun c t => dat1_owed (W2 m) c t
  pre c := iprop(StableHlo.held (c : Thread nD τ) (Pipeline.ucRefs τ sig) (VV2 m c) ∗ Ec c)
  post c := iprop(StableHlo.held (c : Thread nD τ) (Pipeline.ucRefs τ sig) (VV3 m c) ∗ Ec c)
  X c := iprop(∃ r, prngReg c r)
  Y c := iprop(∃ r, prngReg c r)
  Z c := Pipeline.unscopedRest spec1 c (W2 m c)
  hentry c := by
    rw [show StableHlo.held (c : Thread nD τ) (Pipeline.ucRefs τ sig) (VV2 m c) = unscopedBufs c (W2 m c) from (Pipeline.unscopedBufs_held c _).symm]
    have hsplit := Pipeline.arrays_of_unscopedBufs (pcfgs (F := F)) adm (pdats m) (p := 1) launch1.win launch1.arr_whole c
      ((pdats m 1 c).share_full fun w => dat1_q (W2 m) c w) (W2 m c) fun w => dat1_A (W2 m) c w
    iintro ⟨⟨Hub, HO, Hp⟩, -, -⟩
    ihave H := hsplit $$ Hub
    icases H with ⟨Ha, Hr⟩
    imodintro
    isplitl [Ha]; · iexact Ha
    isplitr; · iapply (prefHeld_none c 1); iempintro
    isplitl [HO]
    · unfold Pipeline.Dat.owesAt Pipeline.owesWithin
      rw [show (pdats m 1 c).owed 0 = 0 from dat1_owed (W2 m) c 0]
      icases HO with ⟨%W, HO⟩; iexists W; isplitr
      · ipureintro; exact fun x _ => Or.inl ((dat1_recorded (W2 m) c 0).symm ▸ Set.mem_univ x)
      iexact HO
    isplitl [Hp]; · iexact Hp
    iexact Hr
  hin c := by
    refine BIBase.Entails.trans ?_ (dat1_in (W2 m) c); unfold Pipeline.ΦA
    iintro ⟨Hp, -, Hr⟩
    isplitl [Hr] <;> iassumption
  hout c := by
    rw [Pipeline.ownSems0_none]; refine (dat1_out (W2 m) c).trans ?_; unfold Pipeline.ΦA
    iintro ⟨Hr, Hp⟩
    isplitl [Hp]; · iexact Hp
    isplitr; · iempintro
    iexact Hr
  hexit c := by
    have hb := bufs_of_arrays m 1 launch1.win launch1.arr_whole c ((pdats m 1 c).share_full fun w => dat1_q (W2 m) c w) (W2 m c) (W3 m c)
      (fun w => (dat1 (W2 m) c).arrAt w cfg1.N) (exit1_arr m c)
      (fun b hb => W3_of_ne m c b fun h => hb (h ▸ Finset.mem_image.mpr ⟨3, Finset.mem_univ _, rfl⟩))
    rw [show StableHlo.held (c : Thread nD τ) (Pipeline.ucRefs τ sig) (VV3 m c) = unscopedBufs c (W3 m c) from (Pipeline.unscopedBufs_held c _).symm]
    iintro ⟨Ha, HO, HY, HZ⟩
    imodintro
    isplitl [Ha HZ]
    · iapply hb; isplitl [Ha]; · iexact Ha
      iexact HZ
    isplitl [HO]
    · unfold Pipeline.Dat.owesAt Pipeline.owesWithin
      icases HO with ⟨%W, -, HO⟩; iexists W
      rw [show (pdats m 1 c).owed (Fin.last (cfgs 1).N) = 0 from dat1_owed (W2 m) c _]
      iexact HO
    iexact HY

/-! ## The run -/

/-- What the second region leaves is the last thread state beside the core owing nothing. -/
theorem chain_end (c : Dev nD) :
    iprop(StableHlo.held (c : Thread nD τ) (Pipeline.ucRefs τ sig) (VV3 m c) ∗ Ec (F := F) c)
      ⊢ (iprop((StableHlo.held (c : Thread nD τ) (Pipeline.ucRefs τ sig) (VV3 m c) ∗ ∃ r, prngReg c r)
          ∗ ∃ W, owes (c : Thread nD τ) (0 : CellTallies nD τ sig Unit) W) : sProp 𝕄) := by
  iintro ⟨Hh, HO, Hp⟩
  isplitr [HO]
  · isplitl [Hh] <;> iassumption
  · iexact HO

set_option backward.isDefEq.respectTransparency.types false in
/-- The whole run. -/
theorem run_ref : θ_run (defs (F := F)) (onTc (τ := τ) (main (F := F))) ⟨m, fun _ => 0, ρ⟩ (fun r => ∀ c : Dev nD,
      r.2.mem ((c.tc : Thread nD τ).loc main_v15) = (dat1 (W2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm (pdats m) () cellOf_inj emb₁ defs₀ Variants.none L₀ lv₀ m ρ main
    (segs m Variants.none L₀ lv₀ (fun _ => Ec) () (pdats m) (R0 m) (R1 m))
    (fun c Q => by
      rewrite [main_chain c, Pipeline.Seg.run_eq_chain,
        show (segs m Variants.none L₀ lv₀ (fun _ => Ec) () (pdats m) (R0 m) (R1 m) c).map Pipeline.Seg.prog = [
          StableHlo.seq hostOps0,
          Prog.lift (.customCall (Pipeline.entry 0) ()),
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ec c))
    (Tₙ := fun c => iprop(StableHlo.held (c : Thread nD τ) (Pipeline.ucRefs τ sig) (VV3 m c) ∗ ∃ r, prngReg c r))
    (hch := fun c => ⟨.rfl, .rfl, .rfl, chain_end m c⟩)
    (hinit := ?_)
    (QY := fun c s => s.mem ((c.tc : Thread nD τ).loc main_v15) = (dat1 (W2 m) c).arrAt 3 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  · -- the launch: each core's unscoped buffers are held at the launch contents; it owes nothing; its register is at its seed
    refine Pipeline.initEach L₀ lv₀ fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [HO]; · iexists ∅; iexact HO
    iexists _; iexact Hp
  · -- the end: the output and each argument read off the last valuation
    unfold StableHlo.held
    iintro ⟨⟨Hh, -⟩, HSI⟩
    ihave Hr := (pointsTo_read_all (Pipeline.ucRefs τ sig) (fun b => ((c : Thread nD τ).1, b)) (VV3 m c) s') $$ [Hh HSI]
    · isplitl [Hh] <;> iassumption
    icases Hr with ⟨%h, HSI⟩
    imodintro
    isplitr
    · ipureintro
      exact ⟨(h (Proc.devRef .tc main_v15) (Finset.mem_filter.mpr ⟨StableHlo.devRef_mem_tcRefs main_v15, by decide⟩)).trans (W3_v15 m c),
        (h (Proc.devRef .tc main_arg0) (Finset.mem_filter.mpr ⟨StableHlo.devRef_mem_tcRefs main_arg0, by decide⟩)).trans (W3_arg m c main_arg0 (by decide) (by decide) (by decide)),
        (h (Proc.devRef .tc main_arg1) (Finset.mem_filter.mpr ⟨StableHlo.devRef_mem_tcRefs main_arg1, by decide⟩)).trans (W3_arg m c main_arg1 (by decide) (by decide) (by decide)),
        (h (Proc.devRef .tc main_arg2) (Finset.mem_filter.mpr ⟨StableHlo.devRef_mem_tcRefs main_arg2, by decide⟩)).trans (W3_arg m c main_arg2 (by decide) (by decide) (by decide)),
        (h (Proc.devRef .tc main_arg3) (Finset.mem_filter.mpr ⟨StableHlo.devRef_mem_tcRefs main_arg3, by decide⟩)).trans (W3_arg m c main_arg3 (by decide) (by decide) (by decide)),
        (h (Proc.devRef .tc main_arg4) (Finset.mem_filter.mpr ⟨StableHlo.devRef_mem_tcRefs main_arg4, by decide⟩)).trans (W3_arg m c main_arg4 (by decide) (by decide) (by decide))⟩
    · iexact HSI

end Cert.ReferenceIdeal.Hand

end
-- ==== Proof.RHost.lean ====
/-
  The reference's buffers when its first region is entered, read off the launch memory. The host operations before
  the region pad the features, the weights and the bias (each padding a scatter of the whole array over zeros, so
  the result is the array scattered) and fold both normalisations into the adjacency.
-/
import proofs.«113051_g2000303721575557_pallasbulk_376_15_alg».proof.Proof.RVals
import proofs.«113051_g2000303721575557_pallasbulk_376_15_alg».proof.Proof.Spec
import proofs.«113051_g2000303721575557_pallasbulk_376_15_alg».proof.Proof.LibScatter
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.ReferenceIdeal.Hand

open Idealize.ShloMosaic Idealize.ShloMosaic.TcCoe Idealize.ShloMosaic.Tactic
open Idealize.SL Idealize.SL.Sem
open Idealize.ShloMosaic.ValueIdx
open Cert.ReferenceIdeal Cert.ReferenceIdeal.Gen
variable {F : FTy → Type} [FloatOps F]

/-! ## Layout operations of the host stretch, read at an index -/

section Layout

variable {α : Type}

/-- A vector of 128 entries reshaped to a row `[1, 128]`: entry `(0, f)` is entry `f`. -/
theorem asRow_apply (h : S128.ShapeCasts S1x128) (b : S128.Idx → α) (j : S1x128.Idx) :
    shapeCast S1x128 b h j = b (ix1 (j 1)) := by
  have h0 : (j 0).val = 0 := by have : (j 0).val < 1 := (j 0).isLt; omega
  refine shapeCast_apply b h j (ix1 (j 1)) ?_
  rw [Shape.rowMajor_val_one, Shape.rowMajor_val_two]
  show (j 1).val = (j 0).val * 128 + (j 1).val
  rw [h0]; omega

/-- A column `[4096, 1]` reshaped to a row `[1, 4096]`: entry `(0, k)` is entry `(k, 0)`. -/
theorem colAsRow_apply (h : S4096x1.ShapeCasts S1x4096) (n : S4096x1.Idx → α) (k : Fin 4096) :
    shapeCast S1x4096 n h (ix2 0 k) = n (ix2 k 0) := by
  refine shapeCast_apply n h (ix2 0 k) (ix2 k 0) ?_
  rw [Shape.rowMajor_val_two, Shape.rowMajor_val_two]
  show k.val * 1 + 0 = 0 * 4096 + k.val
  omega

/-- A column `[4096, 1]` broadcast to `[4096, 4096]` along its own axes: entry `(i, k)` is the column's entry `i`. -/
theorem colBroadcast_apply (h : S4096x1.BroadcastsInDim S4096x4096 (![0, 1] : Fin 2 → Fin S4096x4096.rank))
    (n : S4096x1.Idx → α) (j : S4096x4096.Idx) :
    broadcastInDim S4096x4096 ![0, 1] h n j = n (ix2 (j 0) 0) :=
  broadcastInDim_apply _ h n j (ix2 (j 0) 0) fun a => by
    match a with
    | ⟨0, _⟩ => show (j 0).val = if (4096 : ℕ) = 1 then 0 else (j 0).val; rw [if_neg (by decide)]
    | ⟨1, _⟩ => show (0 : ℕ) = if (1 : ℕ) = 1 then 0 else (j 1).val; rw [if_pos rfl]

/-- A row `[1, 4096]` broadcast to `[4096, 4096]` along its own axes: entry `(i, k)` is the row's entry `k`. -/
theorem rowBroadcast_apply (h : S1x4096.BroadcastsInDim S4096x4096 (![0, 1] : Fin 2 → Fin S4096x4096.rank))
    (r : S1x4096.Idx → α) (j : S4096x4096.Idx) :
    broadcastInDim S4096x4096 ![0, 1] h r j = r (ix2 0 (j 1)) :=
  broadcastInDim_apply _ h r j (ix2 0 (j 1)) fun a => by
    match a with
    | ⟨0, _⟩ => show (0 : ℕ) = if (1 : ℕ) = 1 then 0 else (j 0).val; rw [if_pos rfl]
    | ⟨1, _⟩ => show (j 1).val = if (4096 : ℕ) = 1 then 0 else (j 1).val; rw [if_neg (by decide)]

end Layout

variable (m : (ℓ : Loc nD τ sig) → Buf (Elt F) ℓ) (c : Dev nD)

/-! ## The paddings

Each padded array is a scatter of the whole array over zeros: the array itself. -/

/-- The padded features are the features. -/
theorem W1_v11 : W1 m c main_v11 = m ((c : Thread nD τ).loc main_arg0) := by
  show StableHlo.after hostOps0 _ (Proc.devRef .tc main_v11) = _
  after_results
  exact Host.scatter_whole_window scatter_S4096x128_S0_S4096x128_01_n_n_0 rfl rfl rfl _ _ _

/-- The padded weights are the weights. -/
theorem W1_v6 : W1 m c main_v6 = m ((c : Thread nD τ).loc main_arg1) := by
  show StableHlo.after hostOps0 _ (Proc.devRef .tc main_v6) = _
  after_results
  exact Host.scatter_whole_window scatter_S128x128_S0_S128x128_01_n_n_0 rfl rfl rfl _ _ _

/-- The padded bias is the bias as a row: entry `(0, f)` is the bias's entry `f`. -/
theorem W1_v9 : W1 m c main_v9 = fun j : S1x128.Idx => m ((c : Thread nD τ).loc main_arg4) (ix1 (j 1)) := by
  show StableHlo.after hostOps0 _ (Proc.devRef .tc main_v9) = _
  after_results
  rw [Host.scatter_whole_window scatter_S1x128_S0_S1x128_01_n_n_0 rfl rfl rfl]
  refine funext fun (j : S1x128.Idx) => ?_
  exact asRow_apply _ (m ((c : Thread nD τ).loc main_arg4)) j

/-! ## The arguments

No host operation writes an argument array. -/

theorem W1_arg0 : W1 m c main_arg0 = m ((c : Thread nD τ).loc main_arg0) := by
  show StableHlo.after hostOps0 _ (Proc.devRef .tc main_arg0) = _
  after_results
theorem W1_arg1 : W1 m c main_arg1 = m ((c : Thread nD τ).loc main_arg1) := by
  show StableHlo.after hostOps0 _ (Proc.devRef .tc main_arg1) = _
  after_results
theorem W1_arg2 : W1 m c main_arg2 = m ((c : Thread nD τ).loc main_arg2) := by
  show StableHlo.after hostOps0 _ (Proc.devRef .tc main_arg2) = _
  after_results
theorem W1_arg3 : W1 m c main_arg3 = m ((c : Thread nD τ).loc main_arg3) := by
  show StableHlo.after hostOps0 _ (Proc.devRef .tc main_arg3) = _
  after_results
theorem W1_arg4 : W1 m c main_arg4 = m ((c : Thread nD τ).loc main_arg4) := by
  show StableHlo.after hostOps0 _ (Proc.devRef .tc main_arg4) = _
  after_results

/-! ## The adjacency with both normalisations folded in, at the ideal instance -/

/-- The host's product `(n broadcast along rows · A) · (n as a row, broadcast along columns)` at `(p, q)` is
    `(n p · A p q) · n q`. -/
theorem foldedAdj_entry (hb : S4096x1.BroadcastsInDim S4096x4096 (![0, 1] : Fin 2 → Fin S4096x4096.rank))
    (hc : S4096x1.ShapeCasts S1x4096) (hb' : S1x4096.BroadcastsInDim S4096x4096 (![0, 1] : Fin 2 → Fin S4096x4096.rank))
    (n : FVec Ideal S4096x1 .f32) (A : FVec Ideal S4096x4096 .f32) (p q : Fin 4096) :
    mulf (mulf (broadcastInDim S4096x4096 ![0, 1] hb n) A) (broadcastInDim S4096x4096 ![0, 1] hb' (shapeCast S1x4096 n hc)) (ix2 p q)
      = Cert.Spec.normAdj n A p q := by
  rw [mulf_apply, mulf_apply, colBroadcast_apply, rowBroadcast_apply]
  show n (ix2 p 0) * A (ix2 p q) * shapeCast S1x4096 n hc (ix2 0 q) = _
  rw [colAsRow_apply]
  rfl

/-- Entry `(i, k)` of the array the second region's first window stages is `(n i · A i k) · n k`. -/
theorem W1_v13 (m : (ℓ : Loc nD τ sig) → Buf (Elt Ideal) ℓ) (c : Dev nD) :
    W1 m c main_v13 = fun j : S4096x4096.Idx =>
      Cert.Spec.normAdj (m ((c : Thread nD τ).loc main_arg2)) (m ((c : Thread nD τ).loc main_arg3)) (j 0) (j 1) := by
  show StableHlo.after hostOps0 _ (Proc.devRef .tc main_v13) = _
  after_results
  rw [Host.scatter_whole_window scatter_S4096x4096_S0_S4096x4096_01_n_n_0 rfl rfl rfl]
  refine funext fun (j : S4096x4096.Idx) => ?_
  obtain ⟨p, q, rfl⟩ : ∃ p q, j = ix2 p q := ⟨j 0, j 1, eq_ix2 j⟩
  exact foldedAdj_entry _ _ _ (m ((c : Thread nD τ).loc main_arg2)) (m ((c : Thread nD τ).loc main_arg3)) p q

end Cert.ReferenceIdeal.Hand

end
-- ==== Proof.Algebra.lean ====
/-
  On finite inputs the two arrangements of the graph-convolution layer agree.

  With every entry real, both sides are the image of a real number under the embedding of the reals
  into the extended reals, since that embedding respects products and finite sums.  Over the reals
  the claim is
      (Σ_{k<2048} A_{i,k} · ((h·W)_{k,f} · n_k) + Σ_{k<2048} A_{i,2048+k} · ((h·W)_{2048+k,f} · n_{2048+k})) · n_i
        = Σ_{kb<32} Σ_{k<128} ((n_i · A_{i,128·kb+k}) · n_{128·kb+k}) · (h·W)_{128·kb+k,f},
  and both sides are regroupings of one sum over all 4096 nodes: the halves by splitting the node
  axis at 2048, the blocks by writing a node as `128 · kb + k`; the factor `n_i` distributes over
  the sum, and the summands agree by commutativity and associativity.
-/
import proofs.«113051_g2000303721575557_pallasbulk_376_15_alg».proof.Proof.Spec
import Mathlib.Algebra.BigOperators.Fin
import Mathlib.Algebra.BigOperators.Ring.Finset
import Mathlib.Data.Fintype.BigOperators
import Mathlib.Tactic.Ring

noncomputable section

open scoped BigOperators

namespace Cert.Spec

open Idealize.ShloMosaic Idealize.ShloMosaic.ValueIdx

/-- The embedding of the reals into the extended reals commutes with finite sums. -/
theorem coe_finsum {ι : Type} (s : Finset ι) (g : ι → ℝ) :
    (∑ k ∈ s, (g k : EReal)) = ((∑ k ∈ s, g k : ℝ) : EReal) := by
  classical
  induction s using Finset.induction_on with
  | empty => simp
  | insert a s ha ih => rw [Finset.sum_insert ha, Finset.sum_insert ha, ih, EReal.coe_add]

/-! ### Regrouping a sum over the 4096 nodes -/

/-- A node is node `k` of block `kb` for exactly one pair `(kb, k)`: `kb` the quotient and `k` the
    remainder of the node number by 128. -/
def blockEquiv : Fin 32 × Fin 128 ≃ Fin 4096 where
  toFun p := inBlock p.1 p.2
  invFun k := (⟨k.val / 128, by have := k.isLt; omega⟩, ⟨k.val % 128, Nat.mod_lt _ (by decide)⟩)
  left_inv p := by
    obtain ⟨⟨a, ha⟩, ⟨c, hc⟩⟩ := p
    simp only [inBlock, Prod.mk.injEq, Fin.mk.injEq]
    constructor <;> omega
  right_inv k := by
    obtain ⟨k, hk⟩ := k
    simp only [inBlock, Fin.mk.injEq]
    omega

/-- Summing block by block is summing over all nodes. -/
theorem sum_blocks (g : Fin 4096 → ℝ) :
    ∑ kb : Fin 32, ∑ k : Fin 128, g (inBlock kb k) = ∑ k : Fin 4096, g k := by
  rw [← Equiv.sum_comp blockEquiv g, Fintype.sum_prod_type]
  rfl

/-- Summing the lower and the upper half is summing over all nodes. -/
theorem sum_halves (g : Fin 4096 → ℝ) :
    ∑ k : Fin 2048, g (lo k) + ∑ k : Fin 2048, g (hi k) = ∑ k : Fin 4096, g k :=
  (Fin.sum_univ_add (a := 2048) (b := 2048) g).symm

/-! ### The two sides over the reals -/

section Real

variable (h' : IdxH → ℝ) (W' : IdxW → ℝ) (n' : IdxN → ℝ) (A' : IdxA → ℝ)

/-- The transformed features over the reals. -/
def xwR (k : Fin 4096) (f : Fin 128) : ℝ := ∑ j : Fin 128, h' (ix2 k j) * W' (ix2 j f)

/-- One summand of the half-by-half aggregation, at node `k`. -/
def fusedTerm (i : Fin 4096) (f : Fin 128) (k : Fin 4096) : ℝ :=
  A' (ix2 i k) * (xwR h' W' k f * n' (ix2 k 0))

/-- One summand of the blockwise accumulation, at node `k`. -/
def foldedTerm (i : Fin 4096) (f : Fin 128) (k : Fin 4096) : ℝ :=
  ((n' (ix2 i 0) * A' (ix2 i k)) * n' (ix2 k 0)) * xwR h' W' k f

/-- Block `j`'s contribution over the reals; nothing for `j ≥ 32`. -/
def blockR (i : Fin 4096) (f : Fin 128) (j : ℕ) : ℝ :=
  if hj : j < 32 then ∑ k : Fin 128, foldedTerm h' W' n' A' i f (inBlock ⟨j, hj⟩ k) else 0

/-- The regrouping identity over the reals. -/
theorem real_identity (i : Fin 4096) (f : Fin 128) :
    (∑ k : Fin 2048, fusedTerm h' W' n' A' i f (lo k) + ∑ k : Fin 2048, fusedTerm h' W' n' A' i f (hi k))
        * n' (ix2 i 0)
      = ∑ j ∈ Finset.range 32, blockR h' W' n' A' i f j := by
  rw [sum_halves, ← Fin.sum_univ_eq_sum_range (fun j => blockR h' W' n' A' i f j) 32]
  have hb : ∀ kb : Fin 32, blockR h' W' n' A' i f kb.val
      = ∑ k : Fin 128, foldedTerm h' W' n' A' i f (inBlock kb k) := fun kb => by
    unfold blockR
    rw [dif_pos kb.isLt]
  rw [Finset.sum_congr rfl fun kb _ => hb kb, sum_blocks, Finset.sum_mul]
  refine Finset.sum_congr rfl fun k _ => ?_
  unfold fusedTerm foldedTerm
  ring

end Real

/-! ### Both sides are images of reals -/

section Coe

variable {h : IdxH → EReal} {W : IdxW → EReal} {n : IdxN → EReal} {A : IdxA → EReal}
variable {h' : IdxH → ℝ} {W' : IdxW → ℝ} {n' : IdxN → ℝ} {A' : IdxA → ℝ}

theorem xw_eq_coe (hh : ∀ j, h j = (h' j : EReal)) (hW : ∀ j, W j = (W' j : EReal))
    (k : Fin 4096) (f : Fin 128) : xw h W k f = (xwR h' W' k f : EReal) := by
  unfold xw xwR
  rw [← coe_finsum]
  refine Finset.sum_congr rfl fun j _ => ?_
  rw [hh, hW, EReal.coe_mul]

theorem fusedTerm_eq_coe (hh : ∀ j, h j = (h' j : EReal)) (hW : ∀ j, W j = (W' j : EReal))
    (hn : ∀ j, n j = (n' j : EReal)) (hA : ∀ j, A j = (A' j : EReal)) (i : Fin 4096) (f : Fin 128)
    (k : Fin 4096) : A (ix2 i k) * scaled h W n k f = (fusedTerm h' W' n' A' i f k : EReal) := by
  unfold scaled fusedTerm
  rw [xw_eq_coe hh hW, hn, hA, EReal.coe_mul, EReal.coe_mul]

theorem foldedTerm_eq_coe (hh : ∀ j, h j = (h' j : EReal)) (hW : ∀ j, W j = (W' j : EReal))
    (hn : ∀ j, n j = (n' j : EReal)) (hA : ∀ j, A j = (A' j : EReal)) (i : Fin 4096) (f : Fin 128)
    (k : Fin 4096) : normAdj n A i k * xw h W k f = (foldedTerm h' W' n' A' i f k : EReal) := by
  unfold normAdj foldedTerm
  rw [xw_eq_coe hh hW, hn (ix2 i 0), hn (ix2 k 0), hA, EReal.coe_mul, EReal.coe_mul, EReal.coe_mul]

theorem blockSum_eq_coe (hh : ∀ j, h j = (h' j : EReal)) (hW : ∀ j, W j = (W' j : EReal))
    (hn : ∀ j, n j = (n' j : EReal)) (hA : ∀ j, A j = (A' j : EReal)) (i : Fin 4096) (f : Fin 128)
    (kb : Fin 32) : blockSum h W n A i f kb = (blockR h' W' n' A' i f kb.val : EReal) := by
  unfold blockSum blockR
  rw [dif_pos kb.isLt, ← coe_finsum]
  exact Finset.sum_congr rfl fun k _ => foldedTerm_eq_coe hh hW hn hA i f _

/-- The accumulator after blocks `0 … kb` is the sum of those blocks' contributions. -/
theorem accUpTo_eq_coe (hh : ∀ j, h j = (h' j : EReal)) (hW : ∀ j, W j = (W' j : EReal))
    (hn : ∀ j, n j = (n' j : EReal)) (hA : ∀ j, A j = (A' j : EReal)) (i : Fin 4096) (f : Fin 128)
    (kb : ℕ) : accUpTo h W n A i f kb
      = ((∑ j ∈ Finset.range (kb + 1), blockR h' W' n' A' i f j : ℝ) : EReal) := by
  induction kb with
  | zero =>
    rw [accUpTo, blockSum_eq_coe hh hW hn hA, Finset.sum_range_one]
  | succ kb ih =>
    rw [accUpTo, Finset.sum_range_succ _ (kb + 1), EReal.coe_add, ← ih]
    by_cases hk : kb + 1 < 32
    · rw [dif_pos hk, blockSum_eq_coe hh hW hn hA]
    · rw [dif_neg hk]
      have : blockR h' W' n' A' i f (kb + 1) = 0 := by unfold blockR; rw [dif_neg hk]
      rw [this, EReal.coe_zero, add_zero]

end Coe

/-- `n_i · Σ_k A_ik · (n_k · (h·W)_kf)` summed over the two halves of the node axis is the blockwise
    accumulation of `((n_i · A_ik) · n_k) · (h·W)_kf` over the 32 blocks, when every entry is real. -/
theorem fusedOut_eq_foldedOut (h : IdxH → EReal) (W : IdxW → EReal) (n : IdxN → EReal) (A : IdxA → EReal) (b : IdxB → EReal)
    (hh : IsReal h) (hW : IsReal W) (hn : IsReal n) (hA : IsReal A) (hb : IsReal b) (i : Fin 4096) (f : Fin 128) :
    fusedOut h W n A b i f = foldedOut h W n A b i f := by
  choose h' hh using hh
  choose W' hW using hW
  choose n' hn using hn
  choose A' hA using hA
  unfold fusedOut foldedOut
  rw [accUpTo_eq_coe hh hW hn hA i f 31, ← real_identity,
    Finset.sum_congr rfl fun k _ => fusedTerm_eq_coe hh hW hn hA i f (lo k),
    Finset.sum_congr rfl fun k _ => fusedTerm_eq_coe hh hW hn hA i f (hi k),
    coe_finsum, coe_finsum, hn (ix2 i 0), ← EReal.coe_add, ← EReal.coe_mul]

end Cert.Spec

end
-- ==== Proof.Finite.lean ====
/-
  The precondition "every float input is finite", read entry by entry: each argument array holds real numbers.

  The predicate is the conjunction, over the five arrays, of "every entry `x` has `|x| < +∞`", where
  `|x| = max x (-x)` and `+∞` is what the word `0x7F800000` denotes.  In the extended reals
  `max x (-x) < ⊤` excludes `x = ⊤` and `x = ⊥` (whose negation is `⊤`), so `x` is a real number.
-/
import proofs.«113051_g2000303721575557_pallasbulk_376_15_alg».proof.Pre_finite_inputs
import proofs.«113051_g2000303721575557_pallasbulk_376_15_alg».proof.Proof.Gen.Pre_finite_inputs
import proofs.«113051_g2000303721575557_pallasbulk_376_15_alg».proof.Proof.Spec
import Idealize.ShloMosaic.PureOps.Ideal
import Idealize.ShloMosaic.Lib.ReduceAll

noncomputable section

namespace Cert.Spec

open Idealize.ShloMosaic

/-- The rank-0 shape has one index. -/
instance subsingleton_scalar_idx : Subsingleton Cert.Pre_finite_inputs.S_.Idx :=
  ⟨fun _ _ => funext fun d => d.elim0⟩

/-- An extended real whose absolute value `max x (-x)` lies strictly below what the word `0x7F800000`
    denotes, which is `+∞`, is a real number: the comparison fails at both infinities. -/
theorem real_of_abs_lt_inf (x : EReal)
    (hx : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at hx
  unfold Ideal.cmp at hx
  have hlt : max x (-x) < ⊤ := by
    by_contra hn
    simp [hn] at hx
  rw [max_lt_iff] at hlt
  induction x using EReal.rec with
  | bot => simp at hlt
  | coe r => exact ⟨r, rfl⟩
  | top => simp at hlt

/-- One array: if the reduction by `and`, over all axes, of the entrywise test `|x| < +∞` is 1, then
    every entry of the array is a real number. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ValueIdx.ix0 = 1#1) :
    IsReal x :=
  fun i => real_of_abs_lt_inf (x i) (Host.reduce_andi_all _ _ hr hu _ e i)

/-- If the printed predicate is all ones on five arrays at the ideal instance, every entry of each of them is a real number. -/
theorem real_of_finite_inputs [Cert.Pre_finite_inputs.Facts]
    (a0 : FVec Ideal Cert.Pre_finite_inputs.S4096x128 .f32) (a1 : FVec Ideal Cert.Pre_finite_inputs.S128x128 .f32)
    (a2 : FVec Ideal Cert.Pre_finite_inputs.S4096x1 .f32) (a3 : FVec Ideal Cert.Pre_finite_inputs.S4096x4096 .f32)
    (a4 : FVec Ideal Cert.Pre_finite_inputs.S128 .f32)
    (hpre : Cert.Pre_finite_inputs.fn (F := Ideal) a0 a1 a2 a3 a4 = fun _ => 1#1) :
    IsReal (ι := IdxH) a0 ∧ IsReal (ι := IdxW) a1 ∧ IsReal (ι := IdxN) a2 ∧ IsReal (ι := IdxA) a3 ∧ IsReal (ι := IdxB) a4 := by
  have h0 := congrFun hpre ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨isReal_of_all a0 _ _ _ e0, isReal_of_all a1 _ _ _ e1, isReal_of_all a2 _ _ _ e2,
    isReal_of_all a3 _ _ _ e3, isReal_of_all a4 _ _ _ e4⟩

end Cert.Spec

end
-- ==== Proof.lean ====
/-
  The certificate of the graph-convolution layer `relu(n ⊙ (A · (n ⊙ (h · W))) + b)`: the one-launch program against the
  two-launch program that folds the normalisation into the adjacency first.

  Each program runs: every weakly fair execution terminates without a fault and leaves the five argument arrays as
  launched. The one-launch program (as printed, and read at the ideal instance: no operation of it is rewritten, so
  its idealization is its own text) is one region of eight points with the scaled transformed features kept in a
  scratch array from the first point on; the other program is a region computing `h · W` and a region accumulating the
  product with the normalised adjacency block by block.

  At the ideal instance both end with the same result array: at node `i` and feature `f` the first holds
  `max ((Σ_{k<2048} A_ik ((hW)_kf n_k) + Σ_{k≥2048} A_ik ((hW)_kf n_k)) n_i + b_f, 0)` and the second
  `max (Σ_blocks Σ_{k in block} ((n_i A_ik) n_k) (hW)_kf + b_f, 0)`; on finite inputs these agree, by distributing `n_i`
  over the sum and regrouping it (finiteness is what makes distributivity hold in the extended reals).
-/
import proofs.«113051_g2000303721575557_pallasbulk_376_15_alg».proof.Defs
import proofs.«113051_g2000303721575557_pallasbulk_376_15_alg».proof.Proof.Gen.Kernel
import proofs.«113051_g2000303721575557_pallasbulk_376_15_alg».proof.Proof.Gen.KernelIdeal
import proofs.«113051_g2000303721575557_pallasbulk_376_15_alg».proof.Proof.Gen.ReferenceIdeal
import proofs.«113051_g2000303721575557_pallasbulk_376_15_alg».proof.Proof.Gen.Pre_finite_inputs
import proofs.«113051_g2000303721575557_pallasbulk_376_15_alg».proof.Proof.BFinal
import proofs.«113051_g2000303721575557_pallasbulk_376_15_alg».proof.Proof.KFinal
import proofs.«113051_g2000303721575557_pallasbulk_376_15_alg».proof.Proof.KValue
import proofs.«113051_g2000303721575557_pallasbulk_376_15_alg».proof.Proof.KHost
import proofs.«113051_g2000303721575557_pallasbulk_376_15_alg».proof.Proof.RLaunch
import proofs.«113051_g2000303721575557_pallasbulk_376_15_alg».proof.Proof.RHost
import proofs.«113051_g2000303721575557_pallasbulk_376_15_alg».proof.Proof.Algebra
import proofs.«113051_g2000303721575557_pallasbulk_376_15_alg».proof.Proof.Finite
import proofs.«113051_g2000303721575557_pallasbulk_376_15_alg».proof.Proof.SpecAgg
import Idealize.ShloMosaic.Lib.Pipeline.Value

noncomputable section

namespace Cert.Proof

open Idealize.ShloMosaic Idealize.ShloMosaic.TcCoe Idealize.SL.Sem Idealize.ShloMosaic.ValueIdx

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run_ref m ρ)

/-- The bias as a row, read back at column `f`, is the bias at `f`. -/
theorem biasRow_apply (b : Cert.Spec.IdxB → EReal) (h : (⟨1, ![128]⟩ : Shape).ShapeCasts ⟨2, ![1, 128]⟩) :
    (fun i : Cert.Spec.IdxB => shapeCast (⟨2, ![1, 128]⟩ : Shape) b h (ix2 0 (i 0))) = b := by
  funext i
  rw [shapeCast_addUnit_apply ![128] b h (ix2 0 (i 0))]
  exact congrArg b (funext fun a => by
    match a with
    | ⟨0, _⟩ => rfl)

theorem algebraic : Cert.algebraic_KernelIdeal_ReferenceIdeal := by
  intro m ρ m' ρ' hpre hagree
  refine ⟨fun c => (Cert.KernelIdeal.Hand.dats m 0 c).arrAt 7 Cert.KernelIdeal.cfg0.N, Cert.KernelIdeal.Hand.run_value m ρ, ?_⟩
  refine (θ_run Cert.ReferenceIdeal.defs _ _).mono (fun r h c => ⟨(h c).1.trans ?_, (h c).2⟩) (Cert.ReferenceIdeal.Hand.run_ref m' ρ')
  obtain ⟨e0, e1, e2, e3, e4⟩ := hagree c
  obtain ⟨r0, r1, r2, r3, r4⟩ := Cert.Spec.real_of_finite_inputs _ _ _ _ _ (hpre c)
  show (Cert.ReferenceIdeal.Hand.dat1 (Cert.ReferenceIdeal.Hand.W2 m') c).arrAt 3 Cert.ReferenceIdeal.cfg1.N
    = (Cert.KernelIdeal.Hand.dats m 0 c).arrAt 7 Cert.KernelIdeal.cfg0.N
  rw [Cert.ReferenceIdeal.Hand.out1_value, Cert.KernelIdeal.Hand.out_value]
  funext j
  rw [Cert.ReferenceIdeal.Hand.W2_of_ne m' c Cert.ReferenceIdeal.main_v13 (by decide), Cert.ReferenceIdeal.Hand.W2_v14,
    Cert.ReferenceIdeal.Hand.W2_of_ne m' c Cert.ReferenceIdeal.main_v9 (by decide), Cert.ReferenceIdeal.Hand.out0_value,
    Cert.ReferenceIdeal.Hand.W1_v13, Cert.ReferenceIdeal.Hand.W1_v11, Cert.ReferenceIdeal.Hand.W1_v6, Cert.ReferenceIdeal.Hand.W1_v9, e0, e1, e2, e3, e4]
  rw [Cert.KernelIdeal.Hand.V_of m c Cert.KernelIdeal.main_arg0 (by decide), Cert.KernelIdeal.Hand.V_v1, Cert.KernelIdeal.Hand.V_of m c Cert.KernelIdeal.main_arg2 (by decide),
    Cert.KernelIdeal.Hand.V_of m c Cert.KernelIdeal.main_arg3 (by decide), Cert.KernelIdeal.Hand.V_v4, biasRow_apply]
  exact ((Cert.Spec.fusedOut_eq_foldedOut _ _ _ _ _ r0 r1 r2 r3 r4 (j 0) (j 1)).trans
    (Cert.Spec.foldedOut_eq_aggOut _ _ _ _ _ (j 0) (j 1))).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
